-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512x1024 : Shape := ⟨2, ![512, 1024]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S512x512 .f32) (main_arg1 : FVec F S512x1024 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Kernel.lean ====
abbrev S512x512 : Shape := ⟨2, ![512, 512]⟩
abbrev S512x1024 : Shape := ⟨2, ![512, 1024]⟩
abbrev S128x512 : Shape := ⟨2, ![128, 512]⟩
abbrev S128x1024 : Shape := ⟨2, ![128, 1024]⟩
abbrev S512x64x16 : Shape := ⟨3, ![512, 64, 16]⟩
abbrev S512x16x64 : Shape := ⟨3, ![512, 16, 64]⟩
abbrev S512x64 : Shape := ⟨2, ![512, 64]⟩
abbrev S128x16x64 : Shape := ⟨3, ![128, 16, 64]⟩
abbrev S64x16x64 : Shape := ⟨3, ![64, 16, 64]⟩
abbrev S128x64 : Shape := ⟨2, ![128, 64]⟩
abbrev S128x64x64 : Shape := ⟨3, ![128, 64, 64]⟩
abbrev S128x1x64 : Shape := ⟨3, ![128, 1, 64]⟩
abbrev S64x1x64 : Shape := ⟨3, ![64, 1, 64]⟩
abbrev S64x64 : Shape := ⟨2, ![64, 64]⟩
abbrev S1x64x64 : Shape := ⟨3, ![1, 64, 64]⟩
abbrev S128x64x1 : Shape := ⟨3, ![128, 64, 1]⟩
abbrev S512x576 : Shape := ⟨2, ![512, 576]⟩

abbrev nBuf : Space → Nat
  | .hbm => 7
  | .vmem => 12
  | .smem => 0
  | _ => 0

abbrev bufTy : (tb : Table) → Fin (tcTables nBuf tb) → BufTy
  | .hbm, ⟨0, _⟩ => ⟨S512x512, .f32⟩
  | .hbm, ⟨1, _⟩ => ⟨S512x1024, .f32⟩
  | .hbm, ⟨2, _⟩ => ⟨S512x1024, .f32⟩
  | .hbm, ⟨3, _⟩ => ⟨S512x64x16, .f32⟩
  | .hbm, ⟨4, _⟩ => ⟨S512x16x64, .f32⟩
  | .hbm, ⟨5, _⟩ => ⟨S512x64, .f32⟩
  | .hbm, ⟨6, _⟩ => ⟨S512x576, .f32⟩
  | .local _ .vmem, ⟨0, _⟩ => ⟨S128x512, .f32⟩
  | .local _ .vmem, ⟨1, _⟩ => ⟨S128x512, .f32⟩
  | .local _ .vmem, ⟨2, _⟩ => ⟨S512x1024, .f32⟩
  | .local _ .vmem, ⟨3, _⟩ => ⟨S128x1024, .f32⟩
  | .local _ .vmem, ⟨4, _⟩ => ⟨S128x1024, .f32⟩
  | .local _ .vmem, ⟨5, _⟩ => ⟨S128x16x64, .f32⟩
  | .local _ .vmem, ⟨6, _⟩ => ⟨S128x16x64, .f32⟩
  | .local _ .vmem, ⟨7, _⟩ => ⟨S64x16x64, .f32⟩
  | .local _ .vmem, ⟨8, _⟩ => ⟨S64x16x64, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v203 : BitVec 1 := Scalar.cmpi .eq arg1 c7_i32
  let v204 : BitVec 32 := Scalar.extui v203
  let c0_i32_87 : BitVec 32 := 0#32
  let v205 : BitVec 1 := Scalar.cmpi .ne v204 c0_i32_87
  v205

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x16x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S128x512_S128x512_0_0 : ∀ a, (![0, 0] : Fin 2 → Nat) a + S128x512.size a ≤ S128x512.size a
  h_S128x512 : 0 < S128x512.numel
  inb_S512x1024_S512x1024_0_0 : ∀ a, (![0, 0] : Fin 2 → Nat) a + S512x1024.size a ≤ S512x1024.size a
  h_S512x1024 : 0 < S512x1024.numel
  inb_S128x1024_S128x1024_0_0 : ∀ a, (![0, 0] : Fin 2 → Nat) a + S128x1024.size a ≤ S128x1024.size a
  h_S128x1024 : 0 < S128x1024.numel
  shapeCasts_S512x1024_S512x64x16 : S512x1024.ShapeCasts S512x64x16
  transposes_S512x64x16_S512x16x64_0_2_1 : S512x64x16.Transposes [0, 2, 1] S512x16x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x16x64_S128x1x64_0_0_0 : ∀ a, (![0, 0, 0] : Fin 3 → Nat) a + S128x1x64.size a ≤ S128x16x64.size a
  h_S128x1x64 : 0 < S128x1x64.numel
  shapeCasts_S128x1x64_S128x64 : S128x1x64.ShapeCasts S128x64
  inb_S64x16x64_S64x1x64_0_0_0 : ∀ a, (![0, 0, 0] : Fin 3 → Nat) a + S64x1x64.size a ≤ S64x16x64.size a
  h_S64x1x64 : 0 < S64x1x64.numel
  shapeCasts_S64x1x64_S64x64 : S64x1x64.ShapeCasts S64x64
  shapeCasts_S128x64_S128x1x64 : S128x64.ShapeCasts S128x1x64
  shapeCasts_S64x64_S1x64x64 : S64x64.ShapeCasts S1x64x64
  broadcasts_S128x1x64_S128x64x64 : S128x1x64.Broadcasts S128x64x64
  broadcasts_S1x64x64_S128x64x64 : S1x64x64.Broadcasts S128x64x64
  inb_S128x16x64_S128x1x64_0_1_0 : ∀ a, (![0, 1, 0] : Fin 3 → Nat) a + S128x1x64.size a ≤ S128x16x64.size a
  inb_S64x16x64_S64x1x64_0_1_0 : ∀ a, (![0, 1, 0] : Fin 3 → Nat) a + S64x1x64.size a ≤ S64x16x64.size a
  inb_S128x16x64_S128x1x64_0_2_0 : ∀ a, (![0, 2, 0] : Fin 3 → Nat) a + S128x1x64.size a ≤ S128x16x64.size a
  inb_S64x16x64_S64x1x64_0_2_0 : ∀ a, (![0, 2, 0] : Fin 3 → Nat) a + S64x1x64.size a ≤ S64x16x64.size a
  inb_S128x16x64_S128x1x64_0_3_0 : ∀ a, (![0, 3, 0] : Fin 3 → Nat) a + S128x1x64.size a ≤ S128x16x64.size a
  inb_S64x16x64_S64x1x64_0_3_0 : ∀ a, (![0, 3, 0] : Fin 3 → Nat) a + S64x1x64.size a ≤ S64x16x64.size a
  inb_S128x16x64_S128x1x64_0_4_0 : ∀ a, (![0, 4, 0] : Fin 3 → Nat) a + S128x1x64.size a ≤ S128x16x64.size a
  inb_S64x16x64_S64x1x64_0_4_0 : ∀ a, (![0, 4, 0] : Fin 3 → Nat) a + S64x1x64.size a ≤ S64x16x64.size a
  inb_S128x16x64_S128x1x64_0_5_0 : ∀ a, (![0, 5, 0] : Fin 3 → Nat) a + S128x1x64.size a ≤ S128x16x64.size a
  inb_S64x16x64_S64x1x64_0_5_0 : ∀ a, (![0, 5, 0] : Fin 3 → Nat) a + S64x1x64.size a ≤ S64x16x64.size a
  inb_S128x16x64_S128x1x64_0_6_0 : ∀ a, (![0, 6, 0] : Fin 3 → Nat) a + S128x1x64.size a ≤ S128x16x64.size a
  inb_S64x16x64_S64x1x64_0_6_0 : ∀ a, (![0, 6, 0] : Fin 3 → Nat) a + S64x1x64.size a ≤ S64x16x64.size a
  inb_S128x16x64_S128x1x64_0_7_0 : ∀ a, (![0, 7, 0] : Fin 3 → Nat) a + S128x1x64.size a ≤ S128x16x64.size a
  inb_S64x16x64_S64x1x64_0_7_0 : ∀ a, (![0, 7, 0] : Fin 3 → Nat) a + S64x1x64.size a ≤ S64x16x64.size a
  inb_S128x16x64_S128x1x64_0_8_0 : ∀ a, (![0, 8, 0] : Fin 3 → Nat) a + S128x1x64.size a ≤ S128x16x64.size a
  inb_S64x16x64_S64x1x64_0_8_0 : ∀ a, (![0, 8, 0] : Fin 3 → Nat) a + S64x1x64.size a ≤ S64x16x64.size a
  inb_S128x16x64_S128x1x64_0_9_0 : ∀ a, (![0, 9, 0] : Fin 3 → Nat) a + S128x1x64.size a ≤ S128x16x64.size a
  inb_S64x16x64_S64x1x64_0_9_0 : ∀ a, (![0, 9, 0] : Fin 3 → Nat) a + S64x1x64.size a ≤ S64x16x64.size a
  inb_S128x16x64_S128x1x64_0_10_0 : ∀ a, (![0, 10, 0] : Fin 3 → Nat) a + S128x1x64.size a ≤ S128x16x64.size a
  inb_S64x16x64_S64x1x64_0_10_0 : ∀ a, (![0, 10, 0] : Fin 3 → Nat) a + S64x1x64.size a ≤ S64x16x64.size a
  inb_S128x16x64_S128x1x64_0_11_0 : ∀ a, (![0, 11, 0] : Fin 3 → Nat) a + S128x1x64.size a ≤ S128x16x64.size a
  inb_S64x16x64_S64x1x64_0_11_0 : ∀ a, (![0, 11, 0] : Fin 3 → Nat) a + S64x1x64.size a ≤ S64x16x64.size a
  inb_S128x16x64_S128x1x64_0_12_0 : ∀ a, (![0, 12, 0] : Fin 3 → Nat) a + S128x1x64.size a ≤ S128x16x64.size a
  inb_S64x16x64_S64x1x64_0_12_0 : ∀ a, (![0, 12, 0] : Fin 3 → Nat) a + S64x1x64.size a ≤ S64x16x64.size a
  inb_S128x16x64_S128x1x64_0_13_0 : ∀ a, (![0, 13, 0] : Fin 3 → Nat) a + S128x1x64.size a ≤ S128x16x64.size a
  inb_S64x16x64_S64x1x64_0_13_0 : ∀ a, (![0, 13, 0] : Fin 3 → Nat) a + S64x1x64.size a ≤ S64x16x64.size a
  inb_S128x16x64_S128x1x64_0_14_0 : ∀ a, (![0, 14, 0] : Fin 3 → Nat) a + S128x1x64.size a ≤ S128x16x64.size a
  inb_S64x16x64_S64x1x64_0_14_0 : ∀ a, (![0, 14, 0] : Fin 3 → Nat) a + S64x1x64.size a ≤ S64x16x64.size a
  inb_S128x16x64_S128x1x64_0_15_0 : ∀ a, (![0, 15, 0] : Fin 3 → Nat) a + S128x1x64.size a ≤ S128x16x64.size a
  inb_S64x16x64_S64x1x64_0_15_0 : ∀ a, (![0, 15, 0] : Fin 3 → Nat) a + S64x1x64.size a ≤ S64x16x64.size a
  iota_S128x64_d0_w32 : S128x64.Iotas .tc 32 [0]
  iota_S128x64_d1_w32 : S128x64.Iotas .tc 32 [1]
  natLt_1_32 : 1 < 32
  shapeCasts_S128x64_S128x64x1 : S128x64.ShapeCasts S128x64x1
  broadcasts_S128x64x1_S128x64x64 : S128x64x1.Broadcasts S128x64x64
  reduces_S128x64x64_S128x64 : S128x64x64.Reduces [1] S128x64
  concatenates_S512x512_S512x64_S512x576_d1 : Shape.Concatenates [S512x512, S512x64] S512x576 1
  dot_S128x512_S512x1024_S128x1024_1_0_0_1_n_n_wf : DotDims.WF S128x512 S512x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S512x512.size a
  hwx0_0 : ∀ i : grid0.Coords, EltTy.bits .f32 = 32 ∨ (Rect.block (s := S512x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S512x1024.size a
  hwx0_2 : ∀ i : grid0.Coords, EltTy.bits .f32 = 32 ∨ (Rect.block (s := S512x1024) S128x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16x64.size a ≤ S512x16x64.size a
  hwx1_0 : ∀ i : grid1.Coords, EltTy.bits .f32 = 32 ∨ (Rect.block (s := S512x16x64) S128x16x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x16x64.size a ≤ S512x16x64.size a
  hwx1_1 : ∀ i : grid1.Coords, EltTy.bits .f32 = 32 ∨ (Rect.block (s := S512x16x64) S64x16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S512x64.size a
  hwx1_2 : ∀ i : grid1.Coords, EltTy.bits .f32 = 32 ∨ (Rect.block (s := S512x64) S128x64.size (cc1_transform_2 i) (hinb1_2 i)).WholeWords (EltTy.packing .f32)

variable [Facts₀]

def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S128x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S64x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S512x512 : Shape := ⟨2, ![512, 512]⟩
abbrev S512x1024 : Shape := ⟨2, ![512, 1024]⟩
abbrev S512x64x16 : Shape := ⟨3, ![512, 64, 16]⟩
abbrev S512x1x64x16 : Shape := ⟨4, ![512, 1, 64, 16]⟩
abbrev S1x512x64x16 : Shape := ⟨4, ![1, 512, 64, 16]⟩
abbrev S512x512x64x16 : Shape := ⟨4, ![512, 512, 64, 16]⟩
abbrev S_ : Shape := ⟨0, ![]⟩
abbrev S512x512x64 : Shape := ⟨3, ![512, 512, 64]⟩
abbrev S512x512x1 : Shape := ⟨3, ![512, 512, 1]⟩
abbrev S512x64 : Shape := ⟨2, ![512, 64]⟩
abbrev S512x576 : Shape := ⟨2, ![512, 576]⟩

abbrev nBuf : Space → Nat
  | .hbm => 30
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x1024, .f32⟩
  | .hbm, ⟨2, _⟩ => ⟨S512x1024, .f32⟩
  | .hbm, ⟨3, _⟩ => ⟨S512x64x16, .f32⟩
  | .hbm, ⟨4, _⟩ => ⟨S512x1x64x16, .f32⟩
  | .hbm, ⟨5, _⟩ => ⟨S1x512x64x16, .f32⟩
  | .hbm, ⟨6, _⟩ => ⟨S512x512x64x16, .f32⟩
  | .hbm, ⟨7, _⟩ => ⟨S512x512x64x16, .f32⟩
  | .hbm, ⟨8, _⟩ => ⟨S512x512x64x16, .f32⟩
  | .hbm, ⟨9, _⟩ => ⟨S512x512x64x16, .f32⟩
  | .hbm, ⟨10, _⟩ => ⟨S_, .f32⟩
  | .hbm, ⟨11, _⟩ => ⟨S512x512x64, .f32⟩
  | .hbm, ⟨12, _⟩ => ⟨S512x512x64, .f32⟩
  | .hbm, ⟨13, _⟩ => ⟨S512x512x64, .f32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i1⟩
  | .hbm, ⟨20, _⟩ => ⟨S512x512, .f32⟩
  | .hbm, ⟨21, _⟩ => ⟨S512x512x1, .f32⟩
  | .hbm, ⟨22, _⟩ => ⟨S_, .f32⟩
  | .hbm, ⟨23, _⟩ => ⟨S512x512x1, .f32⟩
  | .hbm, ⟨24, _⟩ => ⟨S512x512x1, .f32⟩
  | .hbm, ⟨25, _⟩ => ⟨S512x512x64, .f32⟩
  | .hbm, ⟨26, _⟩ => ⟨S512x512x64, .f32⟩
  | .hbm, ⟨27, _⟩ => ⟨S_, .f32⟩
  | .hbm, ⟨28, _⟩ => ⟨S512x64, .f32⟩
  | .hbm, ⟨29, _⟩ => ⟨S512x576, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]

class Facts₀ : Prop where
  shapeCasts_S512x1024_S512x64x16 : S512x1024.ShapeCasts S512x64x16
  bcast_S512x64x16_S512x1x64x16_0_2_3 : S512x64x16.BroadcastsInDim S512x1x64x16 (![0, 2, 3] : Fin 3 → Fin S512x1x64x16.rank)
  bcast_S512x64x16_S1x512x64x16_1_2_3 : S512x64x16.BroadcastsInDim S1x512x64x16 (![1, 2, 3] : Fin 3 → Fin S1x512x64x16.rank)
  bcast_S512x1x64x16_S512x512x64x16_0_1_2_3 : S512x1x64x16.BroadcastsInDim S512x512x64x16 (![0, 1, 2, 3] : Fin 4 → Fin S512x512x64x16.rank)
  bcast_S1x512x64x16_S512x512x64x16_0_1_2_3 : S1x512x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S_S512x512x1 : S_.BroadcastsInDim S512x512x1 (![] : Fin 0 → Fin S512x512x1.rank)
  bcast_S512x512x1_S512x512x64_0_1_2 : S512x512x1.BroadcastsInDim S512x512x64 (![0, 1, 2] : Fin 3 → Fin S512x512x64.rank)
  reducesTo_S512x512x64_S512x64_d1 : S512x512x64.ReducesTo [1] S512x64
  concatenates_S512x512_S512x64_S512x576_d1 : Shape.Concatenates [S512x512, S512x64] S512x576 1
  dot_S512x512_S512x1024_S512x1024_1_0_0_1_n_n_wf : DotDims.WF S512x512 S512x1024 S512x1024 [1] [0] [0] [1] [] []

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

class Facts : Prop extends Facts₀ where

variable [Facts]
-- ==== Proof.K.Mat.lean ====
/-
  The product kernel, point by point.

  The first kernel region runs a grid of 4 points. At point t its body is handed three staging buffers: rows
  128·t … 128·t + 127 of the left factor (a 128 × 512 block), the whole right factor (512 × 1024, brought in once
  and kept), and a 128 × 1024 output block that is written back to rows 128·t … of the product array after the
  body. The body reads both inputs whole, reads the output buffer once without using what it read, and stores one
  value over the whole output buffer: the product of the two inputs accumulated into zero.

  Everything here is stated at the contents V the region finds in the core's buffers, and for any float
  interpretation. What is fixed: each window's block at a point as a function of V; what the body leaves in the
  output buffer as a function of the two input blocks; the region's proof data; and the body's obligation at every
  point (the inputs are returned as found, the output buffer holds the product block).
-/
import proofs.«175630_j33517924778715_1_alg».proof.Proof.Gen.Kernel.Launch
import proofs.«175630_j33517924778715_1_alg».proof.Proof.Gen.Kernel.Skeleton
import proofs.«175630_j33517924778715_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 128 × 1024 entries is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it: for the left factor rows
    128·t … 128·t + 127, for the right factor everything, for the product array rows 128·t … 128·t + 127. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds its row block at every point, for any proof data over V's array whose
    body leaves that block in place. The window is brought in afresh at every point, is never cut at the array's
    end and is never idle. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The right factor's staging buffer holds the whole right factor at every point. It is brought in at the first
    point only; afterwards its block index does not move (it is constant), so the buffer still holds what the
    previous point left, which is the same block. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: each buffer whole -/

abbrev rX : Rect S128x512 := Rect.unit (s := S128x512) ![0, 0] S128x512.size inb_S128x512_S128x512_0_0
abbrev rT : Rect S512x1024 := Rect.unit (s := S512x1024) ![0, 0] S512x1024.size inb_S512x1024_S512x1024_0_0
abbrev rO : Rect S128x1024 := Rect.unit (s := S128x1024) ![0, 0] S128x1024.size inb_S128x1024_S128x1024_0_0

/-! ## What the body leaves in the output buffer -/

/-- The output buffer after the body, from the two input blocks: its one store, over the whole buffer, of the
    product of what the two whole-buffer loads read. -/
def prodBlock (x0 : Vec F S128x512 .f32) (x1 : Vec F S512x1024 .f32) : Vec F S128x1024 .f32 :=
  View.canon [⟨rO, k0_pay1 (View.ld x0 rX) (View.ld x1 rT)⟩]

/-- The one store covers the buffer: its rectangle starts at the origin and has the buffer's extents. -/
theorem cover0_2 (p0 : Vec F S128x1024 .f32) (y : S128x1024.Idx) :
    ∃ pc ∈ ([⟨rO, p0⟩] : List (View.Piece (Elt F) S128x1024 .f32)), y ∈ pc.1.set :=
  View.cover_of_tiled [⟨rO, p0⟩] S128x1024.size (by rfl) y

/-! ## The body's triple -/

set_option maxHeartbeats 1000000 in
/-- The body on whole staging buffers, the inputs at read contents x0 and x1 and the output at anything, runs to a
    state holding the inputs as they were and the output at the product block. The load of the output buffer that
    precedes the store reads whatever is there and its value is dropped. -/
theorem sound_kernel0 (c : Dev nD) (E : Set ℕ) (i : grid0.Coords)
    (arg1 : Memref sig .tc .vmem S128x512 .f32) (harg1 : arg1.IsWhole)
    (arg2 : Memref sig .tc .vmem S512x1024 .f32) (harg2 : arg2.IsWhole)
    (arg3 : Memref sig .tc .vmem S128x1024 .f32) (harg3 : arg3.IsWhole)
    (x0 : Vec F S128x512 .f32) (x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (prodBlock x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core c: the arrays as the region finds them; after the body at point t each
    input's buffer at its block and the output's at the product of the two input blocks; the invariant says the
    rest of the core's scoped memory and the generator register are untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prodBlock (blk0 V c 0 t) (blk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = prodBlock (blk0 V c 0 t) (blk0 V c 1 t) := by dsimp only [dat0]

/-- Each input's staging buffer holds its block at every point. -/
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Dis.Runs.lean ====
/-
  The second call's body (the pairwise-distance accumulation): what its symbolic runs are stated over.

  The call's grid is 4 × 8. At a point (i, j) the body resets its carried accumulator when j = 0, adds the
  point's partial sums into it, and stores it into the output block when j = 7. So the points fall into three
  control cases (first of a sweep, inside a sweep, last of a sweep); no point is both first and last. This file
  fixes, for a region entered at buffer contents V:
  * each window's block at a point, read off its array (blk1), and that an input's staging buffer holds its block
    at every point, fetched there or not (before1_0_of, before1_1_of);
  * the two branch conditions as propositions of the grid coordinates, with their closed forms over the 32 points;
  * where the output window is idle and where it is written back, case by case;
  * the staging and scratch memrefs the body is called with;
  * the region's invariant with the accumulator owned as a memref.
-/
import proofs.«175630_j33517924778715_1_alg».proof.Proof.Gen.Kernel.Launch
import proofs.«175630_j33517924778715_1_alg».proof.Proof.Gen.Kernel.Skeleton
import proofs.«175630_j33517924778715_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, at the contents the region is entered with -/

section Blocks

variable (V : (c : Dev nD) → (b : Ref sig .tc) → Buf (Elt F) ((c : Thread nD τ).loc b))

/-- Window w's block at point t: the entries of its array, as the region finds it, that the window's index map
    selects there. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (128 rows, indexed by the first grid coordinate): its staging buffer holds its block at every point.
    Where it is not fetched the block index has not moved, so the block of the point before is this point's. Holds for
    any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1 (64 rows, indexed by the second grid coordinate): the same. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

end Blocks

/-! ## The body's branch conditions -/

/-- The first branch is taken: the second grid coordinate is 0 (the comparison chain of the body, over the coordinates). -/
abbrev isFirst (i : grid1.Coords) : Prop := (Scalar.cmpi .ne (Scalar.extui (Scalar.cmpi .eq (BitVec.ofNat 32 (i 1).val) 0#32)) 0#32) = 1#1
/-- Over the 32 points in row-major order: exactly the points ≡ 0 (mod 8). -/
theorem isFirst_iff : ∀ t : Fin cfg1.N, isFirst (grid1.coords t) ↔ t.val % 8 = 0 :=
  (by decide +kernel : ∀ t : Fin grid1.N, isFirst (grid1.coords t) ↔ t.val % 8 = 0)

/-- The second branch is taken: the second grid coordinate is 7. -/
abbrev isLast (i : grid1.Coords) : Prop := k1_cond2 i = 1#1
/-- Exactly the points ≡ 7 (mod 8). -/
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- First point of a sweep: nothing is stored into the output block, and it is not written back. -/
theorem idleAt1_2_A : ∀ t : Fin cfg1.N, isFirst (grid1.coords t) → ¬isLast (grid1.coords t) → cfg1.idle 2 (grid1.coords t) = true := by decide +kernel
theorem noFlush1_2_A : ∀ t : Fin cfg1.N, isFirst (grid1.coords t) → ¬isLast (grid1.coords t) → (cfg1.win 2).flush t = false := by decide +kernel
/-- Inside a sweep: the same. -/
theorem idleAt1_2_B : ∀ t : Fin cfg1.N, ¬isFirst (grid1.coords t) → ¬isLast (grid1.coords t) → cfg1.idle 2 (grid1.coords t) = true := by decide +kernel
theorem noFlush1_2_B : ∀ t : Fin cfg1.N, ¬isFirst (grid1.coords t) → ¬isLast (grid1.coords t) → (cfg1.win 2).flush t = false := by decide +kernel
/-- Last point of a sweep: the output block is stored. -/
theorem liveAt1_2_C : ∀ t : Fin cfg1.N, ¬isFirst (grid1.coords t) → isLast (grid1.coords t) → cfg1.idle 2 (grid1.coords t) = false := by decide +kernel

/-! ## The memrefs the body is called with -/

/-- One staging buffer of the output window, through which its contents are stated (which one does not matter: what
    covering writes leave reads the same through any whole view). -/
abbrev VO1_2 : View sig .tc .vmem S128x64 .f32 := (Memref.whole cc1_stg2_0 : Memref sig .tc .vmem S128x64 .f32).view
/-- Each window's current staging memref at point t, and its wholeness. -/
abbrev ms1_0 (t : Fin cfg1.N) : Memref sig .tc .vmem S128x16x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x16x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
/-- The accumulator: a whole scoped buffer of the call's own, passed beside the windows. -/
abbrev scM1_0 : Memref sig .tc .vmem S128x64 .f32 := Memref.whole cc1_scratch0
/-- The accumulator as a view: what it holds between points is stated through it. -/
abbrev VS1_0 : View sig .tc .vmem S128x64 .f32 := scM1_0.view

/-! ## The region's invariant -/

/-- The invariant the region is entered with: the core's scoped buffers that are no staging buffer of this call — the
    first call's five staging buffers, which this call's body never touches, each whole at some contents, then the
    accumulator owned as a memref at some contents — and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.K.Dis.RunA.lean ====
/-
  The second call's body run symbolically at the FIRST point of a sweep (second grid coordinate 0, so not 7).

  The body resets the accumulator to zero (after a load of it whose value is never used), reads the sixteen component
  slices of both input blocks, forms the point's partial sums from them and from the grid coordinates alone, adds them
  to the accumulator it has just reset and stores the sum back; the output block is not touched. The run starts from the
  two input buffers at given contents, the output buffer at given contents (handed back as found) and the accumulator
  at anything, and ends with the inputs as they were and the accumulator with the pieces its two stores wrote, last
  store first; those pieces are the witness the run finds.
-/
import proofs.«175630_j33517924778715_1_alg».proof.Proof.K.Dis.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The pieces the body's stores leave in the output's buffer (none) and in the accumulator, with the proof that from
    whole buffers — inputs at x0, x1, output at xi2, accumulator at anything — the body runs to the continuation
    holding the inputs and the output as they were and the accumulator with its pieces written. -/
noncomputable def kernelRun1_A (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : isFirst i) (hc1 : ¬isLast i)
    (x0 : Vec F S128x16x64 .f32) (x1 : Vec F S64x16x64 .f32) :
    Σ' (L2 : List (View.Piece (Elt F) S128x64 .f32)), { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__discrim_kernel i arg2 harg2 arg3 harg3 arg4 harg4 arg5 harg5) K } := by
  refine ⟨[], ?_, fun xi2 E K => ?run⟩
  case run =>
    simp only [cc1__discrim_kernel_eq_skeleton]; unfold cc1__discrim_kernel_skel
    simp only [k1_part1_eq_skeleton, k1_part2_eq_skeleton, k1_part3_eq_skeleton, k1_part4_eq_skeleton, k1_part5_eq_skeleton]
    unfold k1_part1_skel k1_part2_skel k1_part3_skel k1_part4_skel k1_part5_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Dis.RunB.lean ====
/-
  The second call's body run symbolically INSIDE a sweep (second grid coordinate neither 0 nor 7).

  The accumulator is not reset: the body reads the sixteen component slices of both input blocks, forms the point's
  partial sums, adds them to what the accumulator holds — what the point before left — and stores the sum back; the
  output block is not touched. The run starts from the two input buffers, the output buffer and the accumulator at
  given contents, and ends with the inputs and the output as they were and the accumulator with the piece its one
  store wrote; that piece is the witness the run finds.
-/
import proofs.«175630_j33517924778715_1_alg».proof.Proof.K.Dis.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The pieces the body's stores leave in the output's buffer (none) and in the accumulator, with the proof that from
    whole buffers — inputs at x0, x1, output at xi2, accumulator at xs0 — the body runs to the continuation holding
    the inputs and the output as they were and the accumulator with its pieces written. -/
noncomputable def kernelRun1_B (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : ¬isLast i)
    (x0 : Vec F S128x16x64 .f32) (x1 : Vec F S64x16x64 .f32) (xs0 : Vec F S128x64 .f32) :
    Σ' (L2 : List (View.Piece (Elt F) S128x64 .f32)), { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__discrim_kernel i arg2 harg2 arg3 harg3 arg4 harg4 arg5 harg5) K } := by
  refine ⟨[], ?_, fun xi2 E K => ?run⟩
  case run =>
    simp only [cc1__discrim_kernel_eq_skeleton]; unfold cc1__discrim_kernel_skel
    simp only [k1_part1_eq_skeleton, k1_part2_eq_skeleton, k1_part3_eq_skeleton, k1_part4_eq_skeleton, k1_part5_eq_skeleton]
    unfold k1_part1_skel k1_part2_skel k1_part3_skel k1_part4_skel k1_part5_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Dis.RunC.lean ====
/-
  The second call's body run symbolically at the LAST point of a sweep (second grid coordinate 7, so not 0).

  The accumulator is not reset: the body reads the sixteen component slices of both input blocks, forms the point's
  partial sums, adds them to what the accumulator holds and stores the sum back; then it reads the accumulator once
  more and stores it whole into the output block (after a load of that block whose value is never used). The run
  starts from the two input buffers and the accumulator at given contents and the output buffer at anything, and ends
  with the inputs as they were, and the output buffer and the accumulator each with the piece its store wrote; those
  pieces are the witness the run finds.
-/
import proofs.«175630_j33517924778715_1_alg».proof.Proof.K.Dis.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The pieces the body's stores leave in the output's buffer and in the accumulator, with the proof that from whole
    buffers — inputs at x0, x1, output at anything, accumulator at xs0 — the body runs to the continuation holding
    the inputs as they were, and the output and the accumulator with their pieces written. -/
noncomputable def kernelRun1_C (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : isLast i)
    (x0 : Vec F S128x16x64 .f32) (x1 : Vec F S64x16x64 .f32) (xs0 : Vec F S128x64 .f32) :
    Σ' (L2 : List (View.Piece (Elt F) S128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__discrim_kernel i arg2 harg2 arg3 harg3 arg4 harg4 arg5 harg5) K } := by
  refine ⟨?_, ?_, fun E K => ?run⟩
  case run =>
    simp only [cc1__discrim_kernel_eq_skeleton]; unfold cc1__discrim_kernel_skel
    simp only [k1_part1_eq_skeleton, k1_part2_eq_skeleton, k1_part3_eq_skeleton, k1_part4_eq_skeleton, k1_part5_eq_skeleton]
    unfold k1_part1_skel k1_part2_skel k1_part3_skel k1_part4_skel k1_part5_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Dis.Frame.lean ====
/-
  The pairwise-similarity call, point by point: its proof data and its body's obligation.

  The call's grid is 4 × 8; point t (row-major) has first coordinate t / 8 — a block of 128 samples i — and second
  coordinate t % 8 — a block of 64 samples j. At every point the body is handed the 128 × 16 × 64 block of the
  first coordinate and the 64 × 16 × 64 block of the second, both read off ONE array (the product, laid out as sample,
  component, feature), a 128 × 64 output block and a 128 × 64 accumulator of the call's own that lives from point to
  point. The accumulator is reset at t % 8 = 0, added into at every point, and copied into the output block at
  t % 8 = 7; the output block is written back to the result array only there. So there are three control cases:
  first of a sweep, inside a sweep, last of a sweep.

  For a region entered at buffer contents V and for any float interpretation this file fixes
  * per case, what the body leaves in the accumulator and (last case) in the output block, as the pieces its stores
    wrote read back over arbitrary contents; the pieces cover the buffer, so the prior contents do not matter;
  * the accumulation: what output block and accumulator hold after the body at position n, by recursion on n —
    the case is selected by n % 8, and the accumulator of position n − 1 feeds the cases that do not reset it;
  * the invariant between points: before the first point the core's scoped memory outside this call's staging
    buffers at anything; afterwards the same with the accumulator at what the accumulation says;
  * the proof data: the arrays as found; each input's buffer at its block; the output's at the accumulation's first
    component; the one array both inputs read is held at the two halves of the full share;
  * the body's obligation at every point, case by case.
-/
import proofs.«175630_j33517924778715_1_alg».proof.Proof.K.Dis.RunC

-- membership in a rectangle of 128 × 64 entries is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output block and in the accumulator -/

/-- At the first point of a sweep nothing is stored into the output block: no pieces. The value is a placeholder (arbitrary
    contents read back) that nothing consults: at these points the block is neither written back nor read at the
    next point. -/
def out1_A_2 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : isFirst i) (hc1 : ¬isLast i)
    (x0 : Vec F S128x16x64 .f32) (x1 : Vec F S64x16x64 .f32) : Vec F S128x64 .f32 :=
  VO1_2.read (Elt F) (VO1_2.writes (Elt F) VO1_2.junk (kernelRun1_A c i arg2 harg2 arg3 harg3 arg4 harg4 arg5 harg5 hc0 hc1 x0 x1).1)

/-- At the first point of a sweep the pieces stored into the accumulator cover it: every store is over the whole 128 × 64 buffer. -/
theorem scover1_A_0 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : isFirst i) (hc1 : ¬isLast i)
    (x0 : Vec F S128x16x64 .f32) (x1 : Vec F S64x16x64 .f32) (y : S128x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S128x64.size (by sl_kernel_rfl) y

/-- What the first point of a sweep leaves in the accumulator: its pieces read back over arbitrary contents. -/
def sout1_A_0 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : isFirst i) (hc1 : ¬isLast i)
    (x0 : Vec F S128x16x64 .f32) (x1 : Vec F S64x16x64 .f32) : Vec F S128x64 .f32 :=
  VS1_0.read (Elt F) (VS1_0.writes (Elt F) VS1_0.junk (kernelRun1_A c i arg2 harg2 arg3 harg3 arg4 harg4 arg5 harg5 hc0 hc1 x0 x1).2.1)

/-- At a point inside a sweep nothing is stored into the output block: no pieces. The value is a placeholder (arbitrary
    contents read back) that nothing consults: at these points the block is neither written back nor read at the
    next point. -/
def out1_B_2 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : ¬isLast i)
    (x0 : Vec F S128x16x64 .f32) (x1 : Vec F S64x16x64 .f32) (xs0 : Vec F S128x64 .f32) : Vec F S128x64 .f32 :=
  VO1_2.read (Elt F) (VO1_2.writes (Elt F) VO1_2.junk (kernelRun1_B c i arg2 harg2 arg3 harg3 arg4 harg4 arg5 harg5 hc0 hc1 x0 x1 xs0).1)

/-- At a point inside a sweep the pieces stored into the accumulator cover it: every store is over the whole 128 × 64 buffer. -/
theorem scover1_B_0 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : ¬isLast i)
    (x0 : Vec F S128x16x64 .f32) (x1 : Vec F S64x16x64 .f32) (xs0 : Vec F S128x64 .f32) (y : S128x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S128x64.size (by sl_kernel_rfl) y

/-- What a point inside a sweep leaves in the accumulator: its pieces read back over arbitrary contents; it depends on the accumulator xs0 the point before left. -/
def sout1_B_0 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : ¬isLast i)
    (x0 : Vec F S128x16x64 .f32) (x1 : Vec F S64x16x64 .f32) (xs0 : Vec F S128x64 .f32) : Vec F S128x64 .f32 :=
  VS1_0.read (Elt F) (VS1_0.writes (Elt F) VS1_0.junk (kernelRun1_B c i arg2 harg2 arg3 harg3 arg4 harg4 arg5 harg5 hc0 hc1 x0 x1 xs0).2.1)

/-- At the last point of a sweep the pieces stored into the output block cover it: one store over the whole 128 × 64 block. -/
theorem cover1_C_2 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : isLast i)
    (x0 : Vec F S128x16x64 .f32) (x1 : Vec F S64x16x64 .f32) (xs0 : Vec F S128x64 .f32) (y : S128x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S128x64.size (by sl_kernel_rfl) y

/-- What the last point of a sweep leaves in the output block: its pieces read back over arbitrary contents. -/
def out1_C_2 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : isLast i)
    (x0 : Vec F S128x16x64 .f32) (x1 : Vec F S64x16x64 .f32) (xs0 : Vec F S128x64 .f32) : Vec F S128x64 .f32 :=
  VO1_2.read (Elt F) (VO1_2.writes (Elt F) VO1_2.junk (kernelRun1_C c i arg2 harg2 arg3 harg3 arg4 harg4 arg5 harg5 hc0 hc1 x0 x1 xs0).1)

/-- At the last point of a sweep the pieces stored into the accumulator cover it: every store is over the whole 128 × 64 buffer. -/
theorem scover1_C_0 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : isLast i)
    (x0 : Vec F S128x16x64 .f32) (x1 : Vec F S64x16x64 .f32) (xs0 : Vec F S128x64 .f32) (y : S128x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S128x64.size (by sl_kernel_rfl) y

/-- What the last point of a sweep leaves in the accumulator: its pieces read back over arbitrary contents; it depends on the accumulator xs0 the point before left. -/
def sout1_C_0 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : isLast i)
    (x0 : Vec F S128x16x64 .f32) (x1 : Vec F S64x16x64 .f32) (xs0 : Vec F S128x64 .f32) : Vec F S128x64 .f32 :=
  VS1_0.read (Elt F) (VS1_0.writes (Elt F) VS1_0.junk (kernelRun1_C c i arg2 harg2 arg3 harg3 arg4 harg4 arg5 harg5 hc0 hc1 x0 x1 xs0).2.1)

-- the core's buffer contents when the region is entered
variable (V : (c : Dev nD) → (b : Ref sig .tc) → Buf (Elt F) ((c : Thread nD τ).loc b))

/-! ## What output block and accumulator hold after each point -/

/-- THE ACCUMULATION. What the output's staging buffer and the accumulator hold after the body at position n (a pair:
    the output block, then the accumulator): the case n % 8 selects, run at the point's memrefs and input blocks; the
    cases that do not reset the accumulator start from the accumulator component of position n − 1. No position is
    both first and last of a sweep. -/
def outsAt1 (c : Dev nD) : (n : ℕ) → n < cfg1.N → Vec F S128x64 .f32 × Vec F S128x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((isFirst_iff ⟨0, hn⟩).mpr (Nat.zero_mod _)) (fun h => (fun h => by (try dsimp only at h); omega) ((isLast_iff ⟨0, hn⟩).mp h)) (blk1 V c 0 ⟨0, hn⟩) (blk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((isFirst_iff ⟨0, hn⟩).mpr (Nat.zero_mod _)) (fun h => (fun h => by (try dsimp only at h); omega) ((isLast_iff ⟨0, hn⟩).mp h)) (blk1 V c 0 ⟨0, hn⟩) (blk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((isFirst_iff ⟨n + 1, hn⟩).mpr h0) (fun h => h1 ((isLast_iff ⟨n + 1, hn⟩).mp h)) (blk1 V c 0 ⟨n + 1, hn⟩) (blk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((isFirst_iff ⟨n + 1, hn⟩).mpr h0) (fun h => h1 ((isLast_iff ⟨n + 1, hn⟩).mp h)) (blk1 V c 0 ⟨n + 1, hn⟩) (blk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((isFirst_iff ⟨n + 1, hn⟩).mp h)) ((isLast_iff ⟨n + 1, hn⟩).mpr h1) (blk1 V c 0 ⟨n + 1, hn⟩) (blk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((isFirst_iff ⟨n + 1, hn⟩).mp h)) ((isLast_iff ⟨n + 1, hn⟩).mpr h1) (blk1 V c 0 ⟨n + 1, hn⟩) (blk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((isFirst_iff ⟨n + 1, hn⟩).mp h)) (fun h => h1 ((isLast_iff ⟨n + 1, hn⟩).mp h)) (blk1 V c 0 ⟨n + 1, hn⟩) (blk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((isFirst_iff ⟨n + 1, hn⟩).mp h)) (fun h => h1 ((isLast_iff ⟨n + 1, hn⟩).mp h)) (blk1 V c 0 ⟨n + 1, hn⟩) (blk1 V c 1 ⟨n + 1, hn⟩) (outsAt1 c n (Nat.lt_of_succ_lt hn)).2)

/-- The accumulation at the first point of a sweep: that case's contents. -/
theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((isFirst_iff t).mpr h0) (fun h => h1 ((isLast_iff t).mp h)) (blk1 V c 0 t) (blk1 V c 1 t), sout1_A_0 c (grid1.coords t) (ms1_0 t) (hs1_0 t) (ms1_1 t) (hs1_1 t) (ms1_2 t) (hs1_2 t) scM1_0 (Memref.isWhole_whole _) ((isFirst_iff t).mpr h0) (fun h => h1 ((isLast_iff t).mp h)) (blk1 V c 0 t) (blk1 V c 1 t)) := by
  obtain ⟨n, hn⟩ := t
  cases n with
  | zero => exact rfl
  | succ n => exact (dif_pos h0).trans ((dif_neg h1).trans rfl)

/-- The accumulation inside a sweep: that case's contents, over the accumulator the point before left. -/
theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((isFirst_iff t).mp h)) (fun h => h1 ((isLast_iff t).mp h)) (blk1 V c 0 t) (blk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((isFirst_iff t).mp h)) (fun h => h1 ((isLast_iff t).mp h)) (blk1 V c 0 t) (blk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at the last point of a sweep: that case's contents, over the accumulator the point before left. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((isFirst_iff t).mp h)) ((isLast_iff t).mpr h1) (blk1 V c 0 t) (blk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((isFirst_iff t).mp h)) ((isLast_iff t).mpr h1) (blk1 V c 0 t) (blk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The region's invariant before position n. Before the first point: the core's scoped buffers that are no staging
    buffer of this call, each at anything (the other call's five staging buffers, which this body never touches, and
    the accumulator), and the generator register at some state. Afterwards: the same, with the accumulator at what the
    point before left in it (the accumulation's second component). -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM1_0 fullShare ((outsAt1 V c (n - 1) (by omega)).2)) ∗ (∃ r, prngReg c r)) := by
  cases n with
  | zero => exact absurd rfl hz
  | succ n => rfl

/-! ## The region's proof data -/

/-- The proof data of the region on core c: the arrays as the region finds them; after the body at point t each
    input's buffer at its block and the output's at the accumulation's first component; the invariant above; nothing
    owed. Both input windows read the same array, so the core holds that array once for each: at the left and at the
    right half of the full share; the output's array is held whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (outsAt1 V c t.val t.isLt).1 := by dsimp only [dat1]

/-- Each input's staging buffer holds its block at every point, fetched there or not. -/
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. Both inputs' buffers hold their blocks; t % 8 says which case the point is in. The
    invariant hands the body the accumulator — at anything at the very first point, at what the point before left
    otherwise — and takes it back at this point's contents (the pieces cover it); the other call's buffers and the
    generator register pass through untouched, and the core owes nothing throughout. The inputs are returned as
    found. The output block is handed back as found in the first two cases (it is idle there and not written back)
    and at the accumulator's contents in the last (its one store covers it). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((isFirst_iff t).mpr h0) (fun h => h1 ((isLast_iff t).mp h))) (noFlush1_2_A t ((isFirst_iff t).mpr h0) (fun h => h1 ((isLast_iff t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HB1, HB2, HB3, HB4, HB5, HS0⟩, Hg⟩, Ho, ⟨%d0, H0⟩, ⟨%d1, H1⟩, ⟨%d2, H2⟩⟩
        iapply ((kernelRun1_A c (grid1.coords t) _ _ _ _ _ _ _ _ ((isFirst_iff t).mpr h0) (fun h => h1 ((isLast_iff t).mp h)) (blk1 V c 0 t) (blk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HB1 HB2 HB3 HB4 HB5 HS0 Hg]
        · isplitl [HB1 HB2 HB3 HB4 HB5 HS0]
          · isplitl [HB1]; · iexact HB1
            isplitl [HB2]; · iexact HB2
            isplitl [HB3]; · iexact HB3
            isplitl [HB4]; · iexact HB4
            isplitl [HB5]; · iexact HB5
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HB1, HB2, HB3, HB4, HB5, HS0⟩, Hg⟩, Ho, ⟨%d0, H0⟩, ⟨%d1, H1⟩, ⟨%d2, H2⟩⟩
        iapply ((kernelRun1_A c (grid1.coords t) _ _ _ _ _ _ _ _ ((isFirst_iff t).mpr h0) (fun h => h1 ((isLast_iff t).mp h)) (blk1 V c 0 t) (blk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HB1 HB2 HB3 HB4 HB5 HS0 Hg]
        · isplitl [HB1 HB2 HB3 HB4 HB5 HS0]
          · isplitl [HB1]; · iexact HB1
            isplitl [HB2]; · iexact HB2
            isplitl [HB3]; · iexact HB3
            isplitl [HB4]; · iexact HB4
            isplitl [HB5]; · iexact HB5
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((isFirst_iff t).mp h)) ((isLast_iff t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HB1, HB2, HB3, HB4, HB5, HS0⟩, Hg⟩, Ho, ⟨%d0, H0⟩, ⟨%d1, H1⟩, ⟨%d2, H2⟩⟩
        iapply ((kernelRun1_C c (grid1.coords t) _ _ _ _ _ _ _ _ (fun h => h0 ((isFirst_iff t).mp h)) ((isLast_iff t).mpr h1) (blk1 V c 0 t) (blk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HB1 HB2 HB3 HB4 HB5 HS0 Hg]
        · isplitl [HB1 HB2 HB3 HB4 HB5 HS0]
          · isplitl [HB1]; · iexact HB1
            isplitl [HB2]; · iexact HB2
            isplitl [HB3]; · iexact HB3
            isplitl [HB4]; · iexact HB4
            isplitl [HB5]; · iexact HB5
            unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((isFirst_iff t).mp h)) (fun h => h1 ((isLast_iff t).mp h))) (noFlush1_2_B t (fun h => h0 ((isFirst_iff t).mp h)) (fun h => h1 ((isLast_iff t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HB1, HB2, HB3, HB4, HB5, HS0⟩, Hg⟩, Ho, ⟨%d0, H0⟩, ⟨%d1, H1⟩, ⟨%d2, H2⟩⟩
        iapply ((kernelRun1_B c (grid1.coords t) _ _ _ _ _ _ _ _ (fun h => h0 ((isFirst_iff t).mp h)) (fun h => h1 ((isLast_iff t).mp h)) (blk1 V c 0 t) (blk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HB1 HB2 HB3 HB4 HB5 HS0 Hg]
        · isplitl [HB1 HB2 HB3 HB4 HB5 HS0]
          · isplitl [HB1]; · iexact HB1
            isplitl [HB2]; · iexact HB2
            isplitl [HB3]; · iexact HB3
            isplitl [HB4]; · iexact HB4
            isplitl [HB5]; · iexact HB5
            unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

/-- The body obligation in the library's form, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HB1, HB2, HB3, HB4, HB5, HS0⟩, Hg⟩
  isplitl [HB1 HB2 HB3 HB4 HB5 HS0]
  · isplitl [HB1]; · iexact HB1
    isplitl [HB2]; · iexact HB2
    isplitl [HB3]; · iexact HB3
    isplitl [HB4]; · iexact HB4
    isplitl [HB5]; · iexact HB5
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.K.Run.lean ====
/-
  The launch of the two kernel regions, part 1: what the core's buffers hold between the items of the program, and how
  the second region's arrays are taken out of, and put back among, the core's unscoped buffers.

  The program is: region 0 (the product, written to main_v0), two host operations (main_v1 a reshape of main_v0, main_v2 a
  transpose of main_v1), region 1 (it reads main_v2 through TWO windows and writes main_v3), one host operation (main_v4 the
  concatenation of the first argument and main_v3).  The contents at each boundary are a fold from the launch memory:
  a host stretch applies its operations, a region replaces its output array by what its write-backs leave.

  Region 1's two input windows are on one array, so the core cannot hold that array once per window at the full share:
  it holds it at the left half for window 0 and at the right half for window 1.  The full share splits into the two
  halves at the same contents, and the two halves at the same contents join back to the full share.
-/
import proofs.«175630_j33517924778715_1_alg».proof.Proof.K.Mat
import proofs.«175630_j33517924778715_1_alg».proof.Proof.K.Dis.Frame
import Idealize.ShloMosaic.Lib.Pipeline.Regions
import Idealize.ShloMosaic.Lib.Pipeline.RegionsLoop
import Idealize.ShloMosaic.Lib.Pipeline.FrameSuffix
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m (c, b)
/-- The same read at the TensorCore's references: what region 0 is entered with. -/
abbrev E0 : (c : Dev nD) → (b : Ref sig .tc) → Buf (Elt F) ((c : Thread nD τ).loc b) := fun c b => W0 m c b
/-- After region 0: the product array at what the four write-backs leave, everything else as launched. -/
def W1 (c : Dev nD) : Valuation τ sig (Elt F) :=
  Pipeline.withArrays spec0 c (W0 m c) fun w => (dat0 (E0 m) c).arrAt w cfg0.N
abbrev E1 : (c : Dev nD) → (b : Ref sig .tc) → Buf (Elt F) ((c : Thread nD τ).loc b) := fun c b => W1 m c b
/-- After the reshape and the transpose: region 1's entry. -/
abbrev W2 : Dev nD → Valuation τ sig (Elt F) := fun c => StableHlo.after hostOps1 (W1 m c)
abbrev E2 : (c : Dev nD) → (b : Ref sig .tc) → Buf (Elt F) ((c : Thread nD τ).loc b) := fun c b => W2 m c b
/-- After region 1: main_v3 at what the write-backs of the last point of each sweep leave, everything else unchanged. -/
def W3 (c : Dev nD) : Valuation τ sig (Elt F) :=
  Function.update (W2 m c) main_v3 ((dat1 (E2 m) c).arrAt 2 cfg1.N)
abbrev E3 : (c : Dev nD) → (b : Ref sig .tc) → Buf (Elt F) ((c : Thread nD τ).loc b) := fun c b => W3 m c b
/-- After the concatenation: the end. -/
abbrev W4 : Dev nD → Valuation τ sig (Elt F) := fun c => StableHlo.after hostOps2 (W3 m c)

theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

theorem W3_v3 (c : Dev nD) : W3 m c main_v3 = (dat1 (E2 m) c).arrAt 2 cfg1.N := by
  unfold W3; exact Function.update_self ..
theorem W3_of_ne (c : Dev nD) (b : Ref sig .tc) (hb : b ≠ main_v3) : W3 m c b = W2 m c b := by
  unfold W3
  exact Function.update_of_ne (StableHlo.devRef_ne_of_ne hb : (Proc.devRef .tc b : DevRef τ sig) ≠ Proc.devRef .tc main_v3) _ _

/-! ## Region 1's arrays among the unscoped buffers -/

section Shared

variable (V : (c : Dev nD) → (b : Ref sig .tc) → Buf (Elt F) ((c : Thread nD τ).loc b))

/-- The distinct buffers behind region 1's three windows: the transposed product (windows 0 and 1) and the result. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v2) ↦{fullShare} Vc main_v2) ∗ (((c : Thread nD τ).loc main_v3) ↦{fullShare} Vc main_v3)) := by
  unfold Pipeline.arrBufs
  rw [show Finset.univ.image (Pipeline.arrRef spec1) = insert main_v2 {main_v3} from by decide,
    bigSep_insert (by decide), bigSep_singleton]
  rfl

/-- Region 1's arrays as the proof data holds them: the transposed product at the left half for window 0 and at the
    right half for window 1, the result at the full share. -/
theorem arrays1_eq (c : Dev nD) (Fw : (w : Fin cfg1.W) → Buf (Elt F) ((cfg1.win w).arr.view.loc (c : Thread nD τ))) :
    (dat1 V c).arrays Fw
      = iprop((((c : Thread nD τ).loc main_v2) ↦{fullShare.left} Fw 0) ∗ (((c : Thread nD τ).loc main_v2) ↦{fullShare.right} Fw 1)
          ∗ (((c : Thread nD τ).loc main_v3) ↦{fullShare} Fw 2)) := by
  unfold Dat.arrays
  rw [bigSep_W1, (arr_whole1 0).set_eq_univ, (arr_whole1 2).set_eq_univ]
  rfl

/-- ENTRY: the core's unscoped buffers at V are region 1's arrays at their entry contents — the transposed product's
    full share split into its two halves, one per window — and the unscoped rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c)]
  refine sep_mono (show (Pipeline.arrBufs (Ix := Unit) (Name := ℕ) (U := UR sig nD τ) (Lvl := ℕ) spec1 c (V c) : sProp 𝕄) ⊢ _ from ?_) .rfl
  rw [arrBufs1_eq, arrays1_eq]
  show _ ⊢ iprop((((c : Thread nD τ).loc main_v2) ↦{fullShare.left} (dat1 V c).A 0) ∗ (((c : Thread nD τ).loc main_v2) ↦{fullShare.right} (dat1 V c).A 1)
      ∗ (((c : Thread nD τ).loc main_v3) ↦{fullShare} (dat1 V c).A 2))
  rw [A_eq1, A_eq1, A_eq1]
  have hs : ((((c : Thread nD τ).loc main_v2) ↦{fullShare} V c main_v2) : sProp 𝕄)
      ⊢ iprop((((c : Thread nD τ).loc main_v2) ↦{fullShare.left} V c main_v2) ∗ (((c : Thread nD τ).loc main_v2) ↦{fullShare.right} V c main_v2)) :=
    (pointsTo_share (PosShare.mem_left_op_right fullShare)).1
  iintro ⟨H2, H3⟩
  ihave H2' := hs $$ H2
  icases H2' with ⟨Hl, Hr⟩
  isplitl [Hl]; · iexact Hl
  isplitl [Hr]; · iexact Hr
  iexact H3

/-- EXIT: region 1's arrays after its last point — the two halves of the transposed product, unchanged, joined back to the
    full share; the result at what the write-backs left — and the unscoped rest at V are the core's unscoped buffers
    at any contents V' that has the result there and agrees with V elsewhere. -/
theorem exit1 (c : Dev nD) (V' : (b : Ref sig .tc) → Buf (Elt F) ((c : Thread nD τ).loc b))
    (h3 : V' main_v3 = (dat1 V c).arrAt 2 cfg1.N) (hrest : ∀ b, b ≠ main_v3 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [Pipeline.unscopedBufs_split₀ cfgs 1 winFacts₀1.arr_unscoped c V']
  refine sep_mono (show _ ⊢ (Pipeline.arrBufs (Ix := Unit) (Name := ℕ) (U := UR sig nD τ) (Lvl := ℕ) spec1 c V' : sProp 𝕄) from ?_) (Entails.of_eq ?_)
  · rw [arrBufs1_eq, arrays1_eq, (dat1 V c).arrAt_in 0 rfl, (dat1 V c).arrAt_in 1 rfl, A_eq1, A_eq1, h3, hrest main_v2 (by decide)]
    have hj : iprop((((c : Thread nD τ).loc main_v2) ↦{fullShare.left} V c main_v2) ∗ (((c : Thread nD τ).loc main_v2) ↦{fullShare.right} V c main_v2))
        ⊢ ((((c : Thread nD τ).loc main_v2) ↦{fullShare} V c main_v2) : sProp 𝕄) :=
      (pointsTo_share (PosShare.mem_left_op_right fullShare)).2
    iintro ⟨Hl, Hr, H3⟩
    isplitl [Hl Hr]
    · iapply hj
      isplitl [Hl]; · iexact Hl
      iexact Hr
    iexact H3
  · unfold Pipeline.unscopedRest
    exact bigSep_congr fun b hb => by
      rw [hrest b (fun e => (Finset.mem_sdiff.mp hb).2 (Finset.mem_image.mpr ⟨2, Finset.mem_univ _, e.symm⟩))]

end Shared

/-! ## The arguments reach the end as launched -/

theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor

/-- The reshape and the transpose write main_v1 and main_v2 only. -/
theorem W2_of_ne (c : Dev nD) (b : Ref sig .tc) (h1 : b ≠ main_v1) (h2 : b ≠ main_v2) :
    W2 m c (Proc.devRef .tc b) = W1 m c (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h1, StableHlo.devRef_ne_of_ne h2⟩))
/-- The concatenation writes main_v4 only. -/
theorem W4_of_ne (c : Dev nD) (b : Ref sig .tc) (h4 : b ≠ main_v4) :
    W4 m c (Proc.devRef .tc b) = W3 m c (Proc.devRef .tc b) :=
  StableHlo.after_of_forall_not_mem (b := Proc.devRef .tc b) _ _ (List.forall_iff_forall_mem.mp (by
    simp only [hostOps2, List.Forall, StableHlo.binary_writes, Finset.mem_singleton]
    exact StableHlo.devRef_ne_of_ne h4))

/-- No item writes the first argument: region 0 reads it through an input window, which leaves the array as entered. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide) (by decide)
    _ = W0 m c (Proc.devRef .tc main_arg0) := (W1_arr m c 0).trans (((dat0 (E0 m) c).arrAt_in 0 rfl _).trans (A_eq0 (E0 m) c 0))
    _ = m ((c : Thread nD τ).loc main_arg0) := rfl
/-- Nor the second. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide) (by decide)
    _ = W0 m c (Proc.devRef .tc main_arg1) := (W1_arr m c 1).trans (((dat0 (E0 m) c).arrAt_in 1 rfl _).trans (A_eq0 (E0 m) c 1))
    _ = m ((c : Thread nD τ).loc main_arg1) := rfl

/-! ## The proof data family and the thread state -/

/-- No pipeline has a prefetched table. -/
abbrev tables : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) tables p) c
  | ⟨0, _⟩ => fun c => dat0 (E0 m) c
  | ⟨1, _⟩ => fun c => dat1 (E2 m) c
abbrev 𝒱₀ : Variants := Variants.none
abbrev Lz : GSem nD τ sig → Finset Unit := fun _ => ∅
abbrev lz : GSem nD τ sig → Unit → ℕ := fun _ _ => 0
/-- What rides beside the buffers through every item: the generator register at some state, and the core owing nothing. -/
abbrev Rd (c : Dev nD) : sProp 𝕄 := iprop((∃ r, prngReg c r) ∗ ∃ W, owes (c : Thread nD τ) (0 : CellTallies nD τ sig Unit) W)
/-- A host stretch as an item, over the unscoped buffers from the contents W. -/
abbrev hitem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tend (c : Dev nD) : sProp 𝕄 := iprop(StableHlo.held (c : Thread nD τ) (Pipeline.ucRefs τ sig) (W4 m c) ∗ ∃ r, prngReg c r)

/-! ## The regions as items -/

set_option backward.isDefEq.respectTransparency.types false in
/-- Region 0: entered from every unscoped buffer at the launch contents, left with the product array at what the
    write-backs leave. Its three arrays are distinct buffers held at the full share. -/
def reg0 : Pipeline.RegionSeg (pcfgs (F := F)) tables (pdats m) () defs₀ 𝒱₀ Lz lz 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ Lz lz 0 fun _ _ => rfl
  pre c := iprop(StableHlo.held (c : Thread nD τ) (Pipeline.ucRefs τ sig) (W0 m c) ∗ Rd c)
  post c := iprop(StableHlo.held (c : Thread nD τ) (Pipeline.ucRefs τ sig) (W1 m c) ∗ Rd c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) tables (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer after the transpose, left with main_v3 at what the write-backs leave.
    Its two input windows share one array, held at the two halves of the full share (entry1, exit1). -/
def reg1 : Pipeline.RegionSeg (pcfgs (F := F)) tables (pdats m) () defs₀ 𝒱₀ Lz lz 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ Lz lz 1 fun _ _ => rfl
  pre c := iprop(StableHlo.held (c : Thread nD τ) (Pipeline.ucRefs τ sig) (W2 m c) ∗ Rd c)
  post c := iprop(StableHlo.held (c : Thread nD τ) (Pipeline.ucRefs τ sig) (W3 m c) ∗ Rd c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := entry1 (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m) c)
    unfold Pipeline.ΦA
    iintro ⟨Hp, -, Hr⟩
    isplitl [Hr]; · iexact Hr
    iexact Hp
  hout c := by
    rw [Pipeline.ownSems0_none]
    refine (hout1 (E2 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (E2 m c))
        ⊢ (unscopedBufs (Ix := Unit) (Name := ℕ) (U := UR sig nD τ) (Lvl := ℕ) c (E3 m c) : sProp 𝕄) :=
      exit1 (E2 m) c (E3 m c) (W3_v3 m c) (fun b hb => W3_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as items, and the launch -/

/-- The program's four items in order. -/
abbrev items : List (Pipeline.Seg (pcfgs (F := F)) tables (pdats m) () defs₀ 𝒱₀ Lz lz) :=
  [ .region (reg0 m),
    .host (hitem hostOps1 hostOps1_sub ops1_fresh (W1 m)),
    .region (reg1 m),
    .host (hitem hostOps2 hostOps2_sub ops2_fresh (W3 m)) ]
/-- The program IS the run of the items. -/
theorem main_items (c : Dev nD) : main (F := F) c = Pipeline.Seg.run (items m) := (main_chain c).trans (by chain_rfl)

set_option backward.isDefEq.respectTransparency.types false in
/-- THE RUN: from any memory with zero counters every weakly fair execution of the program terminates, nothing
    faulting, and the final memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) tables (pdats m) () cellOf_inj emb₁ defs₀ 𝒱₀ Lz lz m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tend m)
    (hch := ⟨fun _ => .rfl, fun _ => .rfl, fun _ => .rfl, fun _ => .rfl, fun c => by
      show iprop(StableHlo.held (c : Thread nD τ) (Pipeline.ucRefs τ sig) (W4 m c) ∗ Rd c) ⊢ _
      iintro ⟨Hh, Hp, Ho⟩
      isplitl [Hh Hp]
      · isplitl [Hh]; · iexact Hh
        iexact Hp
      iexact Ho⟩)
    (hinit := by
      refine Pipeline.initEach Lz lz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: both arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c), (h c _ (mem_uc main_arg1 (by decide))).trans (W4_main_arg1 m c)⟩) (run_all m ρ)

/-- The run with the result named: main_v4 ends at the last boundary's contents, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v4) = W4 m c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v4 (by decide)),
     (h c _ (mem_uc main_arg0 (by decide))).trans (W4_main_arg0 m c), (h c _ (mem_uc main_arg1 (by decide))).trans (W4_main_arg1 m c)⟩) (run_all m ρ)

end Cert.Kernel.Hand

end
-- ==== Proof.KI.Mat.lean ====
/-
  The product kernel, point by point.

  The first kernel region runs a grid of 4 points. At point t its body is handed three staging buffers: rows
  128·t … 128·t + 127 of the left factor (a 128 × 512 block), the whole right factor (512 × 1024, brought in once
  and kept), and a 128 × 1024 output block that is written back to rows 128·t … of the product array after the
  body. The body reads both inputs whole, reads the output buffer once without using what it read, and stores one
  value over the whole output buffer: the product of the two inputs accumulated into zero.

  Everything here is stated at the contents V the region finds in the core's buffers, and for any float
  interpretation. What is fixed: each window's block at a point as a function of V; what the body leaves in the
  output buffer as a function of the two input blocks; the region's proof data; and the body's obligation at every
  point (the inputs are returned as found, the output buffer holds the product block).
-/
import proofs.«175630_j33517924778715_1_alg».proof.Proof.Gen.KernelIdeal.Launch
import proofs.«175630_j33517924778715_1_alg».proof.Proof.Gen.KernelIdeal.Skeleton
import proofs.«175630_j33517924778715_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 128 × 1024 entries is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it: for the left factor rows
    128·t … 128·t + 127, for the right factor everything, for the product array rows 128·t … 128·t + 127. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds its row block at every point, for any proof data over V's array whose
    body leaves that block in place. The window is brought in afresh at every point, is never cut at the array's
    end and is never idle. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The right factor's staging buffer holds the whole right factor at every point. It is brought in at the first
    point only; afterwards its block index does not move (it is constant), so the buffer still holds what the
    previous point left, which is the same block. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: each buffer whole -/

abbrev rX : Rect S128x512 := Rect.unit (s := S128x512) ![0, 0] S128x512.size inb_S128x512_S128x512_0_0
abbrev rT : Rect S512x1024 := Rect.unit (s := S512x1024) ![0, 0] S512x1024.size inb_S512x1024_S512x1024_0_0
abbrev rO : Rect S128x1024 := Rect.unit (s := S128x1024) ![0, 0] S128x1024.size inb_S128x1024_S128x1024_0_0

/-! ## What the body leaves in the output buffer -/

/-- The output buffer after the body, from the two input blocks: its one store, over the whole buffer, of the
    product of what the two whole-buffer loads read. -/
def prodBlock (x0 : Vec F S128x512 .f32) (x1 : Vec F S512x1024 .f32) : Vec F S128x1024 .f32 :=
  View.canon [⟨rO, k0_pay1 (View.ld x0 rX) (View.ld x1 rT)⟩]

/-- The one store covers the buffer: its rectangle starts at the origin and has the buffer's extents. -/
theorem cover0_2 (p0 : Vec F S128x1024 .f32) (y : S128x1024.Idx) :
    ∃ pc ∈ ([⟨rO, p0⟩] : List (View.Piece (Elt F) S128x1024 .f32)), y ∈ pc.1.set :=
  View.cover_of_tiled [⟨rO, p0⟩] S128x1024.size (by rfl) y

/-! ## The body's triple -/

set_option maxHeartbeats 1000000 in
/-- The body on whole staging buffers, the inputs at read contents x0 and x1 and the output at anything, runs to a
    state holding the inputs as they were and the output at the product block. The load of the output buffer that
    precedes the store reads whatever is there and its value is dropped. -/
theorem sound_kernel0 (c : Dev nD) (E : Set ℕ) (i : grid0.Coords)
    (arg1 : Memref sig .tc .vmem S128x512 .f32) (harg1 : arg1.IsWhole)
    (arg2 : Memref sig .tc .vmem S512x1024 .f32) (harg2 : arg2.IsWhole)
    (arg3 : Memref sig .tc .vmem S128x1024 .f32) (harg3 : arg3.IsWhole)
    (x0 : Vec F S128x512 .f32) (x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (prodBlock x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core c: the arrays as the region finds them; after the body at point t each
    input's buffer at its block and the output's at the product of the two input blocks; the invariant says the
    rest of the core's scoped memory and the generator register are untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prodBlock (blk0 V c 0 t) (blk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = prodBlock (blk0 V c 0 t) (blk0 V c 1 t) := by dsimp only [dat0]

/-- Each input's staging buffer holds its block at every point. -/
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Dis.Runs.lean ====
/-
  The second call's body (the pairwise-distance accumulation): what its symbolic runs are stated over.

  The call's grid is 4 × 8. At a point (i, j) the body resets its carried accumulator when j = 0, adds the
  point's partial sums into it, and stores it into the output block when j = 7. So the points fall into three
  control cases (first of a sweep, inside a sweep, last of a sweep); no point is both first and last. This file
  fixes, for a region entered at buffer contents V:
  * each window's block at a point, read off its array (blk1), and that an input's staging buffer holds its block
    at every point, fetched there or not (before1_0_of, before1_1_of);
  * the two branch conditions as propositions of the grid coordinates, with their closed forms over the 32 points;
  * where the output window is idle and where it is written back, case by case;
  * the staging and scratch memrefs the body is called with;
  * the region's invariant with the accumulator owned as a memref.
-/
import proofs.«175630_j33517924778715_1_alg».proof.Proof.Gen.KernelIdeal.Launch
import proofs.«175630_j33517924778715_1_alg».proof.Proof.Gen.KernelIdeal.Skeleton
import proofs.«175630_j33517924778715_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, at the contents the region is entered with -/

section Blocks

variable (V : (c : Dev nD) → (b : Ref sig .tc) → Buf (Elt F) ((c : Thread nD τ).loc b))

/-- Window w's block at point t: the entries of its array, as the region finds it, that the window's index map
    selects there. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (128 rows, indexed by the first grid coordinate): its staging buffer holds its block at every point.
    Where it is not fetched the block index has not moved, so the block of the point before is this point's. Holds for
    any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1 (64 rows, indexed by the second grid coordinate): the same. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

end Blocks

/-! ## The body's branch conditions -/

/-- The first branch is taken: the second grid coordinate is 0 (the comparison chain of the body, over the coordinates). -/
abbrev isFirst (i : grid1.Coords) : Prop := (Scalar.cmpi .ne (Scalar.extui (Scalar.cmpi .eq (BitVec.ofNat 32 (i 1).val) 0#32)) 0#32) = 1#1
/-- Over the 32 points in row-major order: exactly the points ≡ 0 (mod 8). -/
theorem isFirst_iff : ∀ t : Fin cfg1.N, isFirst (grid1.coords t) ↔ t.val % 8 = 0 :=
  (by decide +kernel : ∀ t : Fin grid1.N, isFirst (grid1.coords t) ↔ t.val % 8 = 0)

/-- The second branch is taken: the second grid coordinate is 7. -/
abbrev isLast (i : grid1.Coords) : Prop := k1_cond2 i = 1#1
/-- Exactly the points ≡ 7 (mod 8). -/
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- First point of a sweep: nothing is stored into the output block, and it is not written back. -/
theorem idleAt1_2_A : ∀ t : Fin cfg1.N, isFirst (grid1.coords t) → ¬isLast (grid1.coords t) → cfg1.idle 2 (grid1.coords t) = true := by decide +kernel
theorem noFlush1_2_A : ∀ t : Fin cfg1.N, isFirst (grid1.coords t) → ¬isLast (grid1.coords t) → (cfg1.win 2).flush t = false := by decide +kernel
/-- Inside a sweep: the same. -/
theorem idleAt1_2_B : ∀ t : Fin cfg1.N, ¬isFirst (grid1.coords t) → ¬isLast (grid1.coords t) → cfg1.idle 2 (grid1.coords t) = true := by decide +kernel
theorem noFlush1_2_B : ∀ t : Fin cfg1.N, ¬isFirst (grid1.coords t) → ¬isLast (grid1.coords t) → (cfg1.win 2).flush t = false := by decide +kernel
/-- Last point of a sweep: the output block is stored. -/
theorem liveAt1_2_C : ∀ t : Fin cfg1.N, ¬isFirst (grid1.coords t) → isLast (grid1.coords t) → cfg1.idle 2 (grid1.coords t) = false := by decide +kernel

/-! ## The memrefs the body is called with -/

/-- One staging buffer of the output window, through which its contents are stated (which one does not matter: what
    covering writes leave reads the same through any whole view). -/
abbrev VO1_2 : View sig .tc .vmem S128x64 .f32 := (Memref.whole cc1_stg2_0 : Memref sig .tc .vmem S128x64 .f32).view
/-- Each window's current staging memref at point t, and its wholeness. -/
abbrev ms1_0 (t : Fin cfg1.N) : Memref sig .tc .vmem S128x16x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x16x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
/-- The accumulator: a whole scoped buffer of the call's own, passed beside the windows. -/
abbrev scM1_0 : Memref sig .tc .vmem S128x64 .f32 := Memref.whole cc1_scratch0
/-- The accumulator as a view: what it holds between points is stated through it. -/
abbrev VS1_0 : View sig .tc .vmem S128x64 .f32 := scM1_0.view

/-! ## The region's invariant -/

/-- The invariant the region is entered with: the core's scoped buffers that are no staging buffer of this call — the
    first call's five staging buffers, which this call's body never touches, each whole at some contents, then the
    accumulator owned as a memref at some contents — and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI.Dis.RunA.lean ====
/-
  The second call's body run symbolically at the FIRST point of a sweep (second grid coordinate 0, so not 7).

  The body resets the accumulator to zero (after a load of it whose value is never used), reads the sixteen component
  slices of both input blocks, forms the point's partial sums from them and from the grid coordinates alone, adds them
  to the accumulator it has just reset and stores the sum back; the output block is not touched. The run starts from the
  two input buffers at given contents, the output buffer at given contents (handed back as found) and the accumulator
  at anything, and ends with the inputs as they were and the accumulator with the pieces its two stores wrote, last
  store first; those pieces are the witness the run finds.
-/
import proofs.«175630_j33517924778715_1_alg».proof.Proof.KI.Dis.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The pieces the body's stores leave in the output's buffer (none) and in the accumulator, with the proof that from
    whole buffers — inputs at x0, x1, output at xi2, accumulator at anything — the body runs to the continuation
    holding the inputs and the output as they were and the accumulator with its pieces written. -/
noncomputable def kernelRun1_A (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : isFirst i) (hc1 : ¬isLast i)
    (x0 : Vec F S128x16x64 .f32) (x1 : Vec F S64x16x64 .f32) :
    Σ' (L2 : List (View.Piece (Elt F) S128x64 .f32)), { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__discrim_kernel i arg2 harg2 arg3 harg3 arg4 harg4 arg5 harg5) K } := by
  refine ⟨[], ?_, fun xi2 E K => ?run⟩
  case run =>
    simp only [cc1__discrim_kernel_eq_skeleton]; unfold cc1__discrim_kernel_skel
    simp only [k1_part1_eq_skeleton, k1_part2_eq_skeleton, k1_part3_eq_skeleton, k1_part4_eq_skeleton, k1_part5_eq_skeleton]
    unfold k1_part1_skel k1_part2_skel k1_part3_skel k1_part4_skel k1_part5_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Dis.RunB.lean ====
/-
  The second call's body run symbolically INSIDE a sweep (second grid coordinate neither 0 nor 7).

  The accumulator is not reset: the body reads the sixteen component slices of both input blocks, forms the point's
  partial sums, adds them to what the accumulator holds — what the point before left — and stores the sum back; the
  output block is not touched. The run starts from the two input buffers, the output buffer and the accumulator at
  given contents, and ends with the inputs and the output as they were and the accumulator with the piece its one
  store wrote; that piece is the witness the run finds.
-/
import proofs.«175630_j33517924778715_1_alg».proof.Proof.KI.Dis.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The pieces the body's stores leave in the output's buffer (none) and in the accumulator, with the proof that from
    whole buffers — inputs at x0, x1, output at xi2, accumulator at xs0 — the body runs to the continuation holding
    the inputs and the output as they were and the accumulator with its pieces written. -/
noncomputable def kernelRun1_B (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : ¬isLast i)
    (x0 : Vec F S128x16x64 .f32) (x1 : Vec F S64x16x64 .f32) (xs0 : Vec F S128x64 .f32) :
    Σ' (L2 : List (View.Piece (Elt F) S128x64 .f32)), { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__discrim_kernel i arg2 harg2 arg3 harg3 arg4 harg4 arg5 harg5) K } := by
  refine ⟨[], ?_, fun xi2 E K => ?run⟩
  case run =>
    simp only [cc1__discrim_kernel_eq_skeleton]; unfold cc1__discrim_kernel_skel
    simp only [k1_part1_eq_skeleton, k1_part2_eq_skeleton, k1_part3_eq_skeleton, k1_part4_eq_skeleton, k1_part5_eq_skeleton]
    unfold k1_part1_skel k1_part2_skel k1_part3_skel k1_part4_skel k1_part5_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Dis.RunC.lean ====
/-
  The second call's body run symbolically at the LAST point of a sweep (second grid coordinate 7, so not 0).

  The accumulator is not reset: the body reads the sixteen component slices of both input blocks, forms the point's
  partial sums, adds them to what the accumulator holds and stores the sum back; then it reads the accumulator once
  more and stores it whole into the output block (after a load of that block whose value is never used). The run
  starts from the two input buffers and the accumulator at given contents and the output buffer at anything, and ends
  with the inputs as they were, and the output buffer and the accumulator each with the piece its store wrote; those
  pieces are the witness the run finds.
-/
import proofs.«175630_j33517924778715_1_alg».proof.Proof.KI.Dis.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The pieces the body's stores leave in the output's buffer and in the accumulator, with the proof that from whole
    buffers — inputs at x0, x1, output at anything, accumulator at xs0 — the body runs to the continuation holding
    the inputs as they were, and the output and the accumulator with their pieces written. -/
noncomputable def kernelRun1_C (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : isLast i)
    (x0 : Vec F S128x16x64 .f32) (x1 : Vec F S64x16x64 .f32) (xs0 : Vec F S128x64 .f32) :
    Σ' (L2 : List (View.Piece (Elt F) S128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__discrim_kernel i arg2 harg2 arg3 harg3 arg4 harg4 arg5 harg5) K } := by
  refine ⟨?_, ?_, fun E K => ?run⟩
  case run =>
    simp only [cc1__discrim_kernel_eq_skeleton]; unfold cc1__discrim_kernel_skel
    simp only [k1_part1_eq_skeleton, k1_part2_eq_skeleton, k1_part3_eq_skeleton, k1_part4_eq_skeleton, k1_part5_eq_skeleton]
    unfold k1_part1_skel k1_part2_skel k1_part3_skel k1_part4_skel k1_part5_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Dis.Frame.lean ====
/-
  The pairwise-similarity call, point by point: its proof data and its body's obligation.

  The call's grid is 4 × 8; point t (row-major) has first coordinate t / 8 — a block of 128 samples i — and second
  coordinate t % 8 — a block of 64 samples j. At every point the body is handed the 128 × 16 × 64 block of the
  first coordinate and the 64 × 16 × 64 block of the second, both read off ONE array (the product, laid out as sample,
  component, feature), a 128 × 64 output block and a 128 × 64 accumulator of the call's own that lives from point to
  point. The accumulator is reset at t % 8 = 0, added into at every point, and copied into the output block at
  t % 8 = 7; the output block is written back to the result array only there. So there are three control cases:
  first of a sweep, inside a sweep, last of a sweep.

  For a region entered at buffer contents V and for any float interpretation this file fixes
  * per case, what the body leaves in the accumulator and (last case) in the output block, as the pieces its stores
    wrote read back over arbitrary contents; the pieces cover the buffer, so the prior contents do not matter;
  * the accumulation: what output block and accumulator hold after the body at position n, by recursion on n —
    the case is selected by n % 8, and the accumulator of position n − 1 feeds the cases that do not reset it;
  * the invariant between points: before the first point the core's scoped memory outside this call's staging
    buffers at anything; afterwards the same with the accumulator at what the accumulation says;
  * the proof data: the arrays as found; each input's buffer at its block; the output's at the accumulation's first
    component; the one array both inputs read is held at the two halves of the full share;
  * the body's obligation at every point, case by case.
-/
import proofs.«175630_j33517924778715_1_alg».proof.Proof.KI.Dis.RunC

-- membership in a rectangle of 128 × 64 entries is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output block and in the accumulator -/

/-- At the first point of a sweep nothing is stored into the output block: no pieces. The value is a placeholder (arbitrary
    contents read back) that nothing consults: at these points the block is neither written back nor read at the
    next point. -/
def out1_A_2 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : isFirst i) (hc1 : ¬isLast i)
    (x0 : Vec F S128x16x64 .f32) (x1 : Vec F S64x16x64 .f32) : Vec F S128x64 .f32 :=
  VO1_2.read (Elt F) (VO1_2.writes (Elt F) VO1_2.junk (kernelRun1_A c i arg2 harg2 arg3 harg3 arg4 harg4 arg5 harg5 hc0 hc1 x0 x1).1)

/-- At the first point of a sweep the pieces stored into the accumulator cover it: every store is over the whole 128 × 64 buffer. -/
theorem scover1_A_0 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : isFirst i) (hc1 : ¬isLast i)
    (x0 : Vec F S128x16x64 .f32) (x1 : Vec F S64x16x64 .f32) (y : S128x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S128x64.size (by sl_kernel_rfl) y

/-- What the first point of a sweep leaves in the accumulator: its pieces read back over arbitrary contents. -/
def sout1_A_0 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : isFirst i) (hc1 : ¬isLast i)
    (x0 : Vec F S128x16x64 .f32) (x1 : Vec F S64x16x64 .f32) : Vec F S128x64 .f32 :=
  VS1_0.read (Elt F) (VS1_0.writes (Elt F) VS1_0.junk (kernelRun1_A c i arg2 harg2 arg3 harg3 arg4 harg4 arg5 harg5 hc0 hc1 x0 x1).2.1)

/-- At a point inside a sweep nothing is stored into the output block: no pieces. The value is a placeholder (arbitrary
    contents read back) that nothing consults: at these points the block is neither written back nor read at the
    next point. -/
def out1_B_2 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : ¬isLast i)
    (x0 : Vec F S128x16x64 .f32) (x1 : Vec F S64x16x64 .f32) (xs0 : Vec F S128x64 .f32) : Vec F S128x64 .f32 :=
  VO1_2.read (Elt F) (VO1_2.writes (Elt F) VO1_2.junk (kernelRun1_B c i arg2 harg2 arg3 harg3 arg4 harg4 arg5 harg5 hc0 hc1 x0 x1 xs0).1)

/-- At a point inside a sweep the pieces stored into the accumulator cover it: every store is over the whole 128 × 64 buffer. -/
theorem scover1_B_0 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : ¬isLast i)
    (x0 : Vec F S128x16x64 .f32) (x1 : Vec F S64x16x64 .f32) (xs0 : Vec F S128x64 .f32) (y : S128x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S128x64.size (by sl_kernel_rfl) y

/-- What a point inside a sweep leaves in the accumulator: its pieces read back over arbitrary contents; it depends on the accumulator xs0 the point before left. -/
def sout1_B_0 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : ¬isLast i)
    (x0 : Vec F S128x16x64 .f32) (x1 : Vec F S64x16x64 .f32) (xs0 : Vec F S128x64 .f32) : Vec F S128x64 .f32 :=
  VS1_0.read (Elt F) (VS1_0.writes (Elt F) VS1_0.junk (kernelRun1_B c i arg2 harg2 arg3 harg3 arg4 harg4 arg5 harg5 hc0 hc1 x0 x1 xs0).2.1)

/-- At the last point of a sweep the pieces stored into the output block cover it: one store over the whole 128 × 64 block. -/
theorem cover1_C_2 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : isLast i)
    (x0 : Vec F S128x16x64 .f32) (x1 : Vec F S64x16x64 .f32) (xs0 : Vec F S128x64 .f32) (y : S128x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S128x64.size (by sl_kernel_rfl) y

/-- What the last point of a sweep leaves in the output block: its pieces read back over arbitrary contents. -/
def out1_C_2 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : isLast i)
    (x0 : Vec F S128x16x64 .f32) (x1 : Vec F S64x16x64 .f32) (xs0 : Vec F S128x64 .f32) : Vec F S128x64 .f32 :=
  VO1_2.read (Elt F) (VO1_2.writes (Elt F) VO1_2.junk (kernelRun1_C c i arg2 harg2 arg3 harg3 arg4 harg4 arg5 harg5 hc0 hc1 x0 x1 xs0).1)

/-- At the last point of a sweep the pieces stored into the accumulator cover it: every store is over the whole 128 × 64 buffer. -/
theorem scover1_C_0 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : isLast i)
    (x0 : Vec F S128x16x64 .f32) (x1 : Vec F S64x16x64 .f32) (xs0 : Vec F S128x64 .f32) (y : S128x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S128x64.size (by sl_kernel_rfl) y

/-- What the last point of a sweep leaves in the accumulator: its pieces read back over arbitrary contents; it depends on the accumulator xs0 the point before left. -/
def sout1_C_0 (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : isLast i)
    (x0 : Vec F S128x16x64 .f32) (x1 : Vec F S64x16x64 .f32) (xs0 : Vec F S128x64 .f32) : Vec F S128x64 .f32 :=
  VS1_0.read (Elt F) (VS1_0.writes (Elt F) VS1_0.junk (kernelRun1_C c i arg2 harg2 arg3 harg3 arg4 harg4 arg5 harg5 hc0 hc1 x0 x1 xs0).2.1)

-- the core's buffer contents when the region is entered
variable (V : (c : Dev nD) → (b : Ref sig .tc) → Buf (Elt F) ((c : Thread nD τ).loc b))

/-! ## What output block and accumulator hold after each point -/

/-- THE ACCUMULATION. What the output's staging buffer and the accumulator hold after the body at position n (a pair:
    the output block, then the accumulator): the case n % 8 selects, run at the point's memrefs and input blocks; the
    cases that do not reset the accumulator start from the accumulator component of position n − 1. No position is
    both first and last of a sweep. -/
def outsAt1 (c : Dev nD) : (n : ℕ) → n < cfg1.N → Vec F S128x64 .f32 × Vec F S128x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((isFirst_iff ⟨0, hn⟩).mpr (Nat.zero_mod _)) (fun h => (fun h => by (try dsimp only at h); omega) ((isLast_iff ⟨0, hn⟩).mp h)) (blk1 V c 0 ⟨0, hn⟩) (blk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((isFirst_iff ⟨0, hn⟩).mpr (Nat.zero_mod _)) (fun h => (fun h => by (try dsimp only at h); omega) ((isLast_iff ⟨0, hn⟩).mp h)) (blk1 V c 0 ⟨0, hn⟩) (blk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((isFirst_iff ⟨n + 1, hn⟩).mpr h0) (fun h => h1 ((isLast_iff ⟨n + 1, hn⟩).mp h)) (blk1 V c 0 ⟨n + 1, hn⟩) (blk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((isFirst_iff ⟨n + 1, hn⟩).mpr h0) (fun h => h1 ((isLast_iff ⟨n + 1, hn⟩).mp h)) (blk1 V c 0 ⟨n + 1, hn⟩) (blk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((isFirst_iff ⟨n + 1, hn⟩).mp h)) ((isLast_iff ⟨n + 1, hn⟩).mpr h1) (blk1 V c 0 ⟨n + 1, hn⟩) (blk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((isFirst_iff ⟨n + 1, hn⟩).mp h)) ((isLast_iff ⟨n + 1, hn⟩).mpr h1) (blk1 V c 0 ⟨n + 1, hn⟩) (blk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((isFirst_iff ⟨n + 1, hn⟩).mp h)) (fun h => h1 ((isLast_iff ⟨n + 1, hn⟩).mp h)) (blk1 V c 0 ⟨n + 1, hn⟩) (blk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((isFirst_iff ⟨n + 1, hn⟩).mp h)) (fun h => h1 ((isLast_iff ⟨n + 1, hn⟩).mp h)) (blk1 V c 0 ⟨n + 1, hn⟩) (blk1 V c 1 ⟨n + 1, hn⟩) (outsAt1 c n (Nat.lt_of_succ_lt hn)).2)

/-- The accumulation at the first point of a sweep: that case's contents. -/
theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((isFirst_iff t).mpr h0) (fun h => h1 ((isLast_iff t).mp h)) (blk1 V c 0 t) (blk1 V c 1 t), sout1_A_0 c (grid1.coords t) (ms1_0 t) (hs1_0 t) (ms1_1 t) (hs1_1 t) (ms1_2 t) (hs1_2 t) scM1_0 (Memref.isWhole_whole _) ((isFirst_iff t).mpr h0) (fun h => h1 ((isLast_iff t).mp h)) (blk1 V c 0 t) (blk1 V c 1 t)) := by
  obtain ⟨n, hn⟩ := t
  cases n with
  | zero => exact rfl
  | succ n => exact (dif_pos h0).trans ((dif_neg h1).trans rfl)

/-- The accumulation inside a sweep: that case's contents, over the accumulator the point before left. -/
theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((isFirst_iff t).mp h)) (fun h => h1 ((isLast_iff t).mp h)) (blk1 V c 0 t) (blk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((isFirst_iff t).mp h)) (fun h => h1 ((isLast_iff t).mp h)) (blk1 V c 0 t) (blk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The accumulation at the last point of a sweep: that case's contents, over the accumulator the point before left. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((isFirst_iff t).mp h)) ((isLast_iff t).mpr h1) (blk1 V c 0 t) (blk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((isFirst_iff t).mp h)) ((isLast_iff t).mpr h1) (blk1 V c 0 t) (blk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The region's invariant before position n. Before the first point: the core's scoped buffers that are no staging
    buffer of this call, each at anything (the other call's five staging buffers, which this body never touches, and
    the accumulator), and the generator register at some state. Afterwards: the same, with the accumulator at what the
    point before left in it (the accumulation's second component). -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ owns (c : Thread nD τ) scM1_0 fullShare ((outsAt1 V c (n - 1) (by omega)).2)) ∗ (∃ r, prngReg c r)) := by
  cases n with
  | zero => exact absurd rfl hz
  | succ n => rfl

/-! ## The region's proof data -/

/-- The proof data of the region on core c: the arrays as the region finds them; after the body at point t each
    input's buffer at its block and the output's at the accumulation's first component; the invariant above; nothing
    owed. Both input windows read the same array, so the core holds that array once for each: at the left and at the
    right half of the full share; the output's array is held whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (outsAt1 V c t.val t.isLt).1 := by dsimp only [dat1]

/-- Each input's staging buffer holds its block at every point, fetched there or not. -/
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. Both inputs' buffers hold their blocks; t % 8 says which case the point is in. The
    invariant hands the body the accumulator — at anything at the very first point, at what the point before left
    otherwise — and takes it back at this point's contents (the pieces cover it); the other call's buffers and the
    generator register pass through untouched, and the core owes nothing throughout. The inputs are returned as
    found. The output block is handed back as found in the first two cases (it is idle there and not written back)
    and at the accumulator's contents in the last (its one store covers it). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((isFirst_iff t).mpr h0) (fun h => h1 ((isLast_iff t).mp h))) (noFlush1_2_A t ((isFirst_iff t).mpr h0) (fun h => h1 ((isLast_iff t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HB1, HB2, HB3, HB4, HB5, HS0⟩, Hg⟩, Ho, ⟨%d0, H0⟩, ⟨%d1, H1⟩, ⟨%d2, H2⟩⟩
        iapply ((kernelRun1_A c (grid1.coords t) _ _ _ _ _ _ _ _ ((isFirst_iff t).mpr h0) (fun h => h1 ((isLast_iff t).mp h)) (blk1 V c 0 t) (blk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HB1 HB2 HB3 HB4 HB5 HS0 Hg]
        · isplitl [HB1 HB2 HB3 HB4 HB5 HS0]
          · isplitl [HB1]; · iexact HB1
            isplitl [HB2]; · iexact HB2
            isplitl [HB3]; · iexact HB3
            isplitl [HB4]; · iexact HB4
            isplitl [HB5]; · iexact HB5
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HB1, HB2, HB3, HB4, HB5, HS0⟩, Hg⟩, Ho, ⟨%d0, H0⟩, ⟨%d1, H1⟩, ⟨%d2, H2⟩⟩
        iapply ((kernelRun1_A c (grid1.coords t) _ _ _ _ _ _ _ _ ((isFirst_iff t).mpr h0) (fun h => h1 ((isLast_iff t).mp h)) (blk1 V c 0 t) (blk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HB1 HB2 HB3 HB4 HB5 HS0 Hg]
        · isplitl [HB1 HB2 HB3 HB4 HB5 HS0]
          · isplitl [HB1]; · iexact HB1
            isplitl [HB2]; · iexact HB2
            isplitl [HB3]; · iexact HB3
            isplitl [HB4]; · iexact HB4
            isplitl [HB5]; · iexact HB5
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((isFirst_iff t).mp h)) ((isLast_iff t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HB1, HB2, HB3, HB4, HB5, HS0⟩, Hg⟩, Ho, ⟨%d0, H0⟩, ⟨%d1, H1⟩, ⟨%d2, H2⟩⟩
        iapply ((kernelRun1_C c (grid1.coords t) _ _ _ _ _ _ _ _ (fun h => h0 ((isFirst_iff t).mp h)) ((isLast_iff t).mpr h1) (blk1 V c 0 t) (blk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HB1 HB2 HB3 HB4 HB5 HS0 Hg]
        · isplitl [HB1 HB2 HB3 HB4 HB5 HS0]
          · isplitl [HB1]; · iexact HB1
            isplitl [HB2]; · iexact HB2
            isplitl [HB3]; · iexact HB3
            isplitl [HB4]; · iexact HB4
            isplitl [HB5]; · iexact HB5
            unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((isFirst_iff t).mp h)) (fun h => h1 ((isLast_iff t).mp h))) (noFlush1_2_B t (fun h => h0 ((isFirst_iff t).mp h)) (fun h => h1 ((isLast_iff t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HB1, HB2, HB3, HB4, HB5, HS0⟩, Hg⟩, Ho, ⟨%d0, H0⟩, ⟨%d1, H1⟩, ⟨%d2, H2⟩⟩
        iapply ((kernelRun1_B c (grid1.coords t) _ _ _ _ _ _ _ _ (fun h => h0 ((isFirst_iff t).mp h)) (fun h => h1 ((isLast_iff t).mp h)) (blk1 V c 0 t) (blk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HB1 HB2 HB3 HB4 HB5 HS0 Hg]
        · isplitl [HB1 HB2 HB3 HB4 HB5 HS0]
          · isplitl [HB1]; · iexact HB1
            isplitl [HB2]; · iexact HB2
            isplitl [HB3]; · iexact HB3
            isplitl [HB4]; · iexact HB4
            isplitl [HB5]; · iexact HB5
            unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

/-- The body obligation in the library's form, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HB1, HB2, HB3, HB4, HB5, HS0⟩, Hg⟩
  isplitl [HB1 HB2 HB3 HB4 HB5 HS0]
  · isplitl [HB1]; · iexact HB1
    isplitl [HB2]; · iexact HB2
    isplitl [HB3]; · iexact HB3
    isplitl [HB4]; · iexact HB4
    isplitl [HB5]; · iexact HB5
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.KI.Run.lean ====
/-
  The launch of the two kernel regions, part 1: what the core's buffers hold between the items of the program, and how
  the second region's arrays are taken out of, and put back among, the core's unscoped buffers.

  The program is: region 0 (the product, written to main_v0), two host operations (main_v1 a reshape of main_v0, main_v2 a
  transpose of main_v1), region 1 (it reads main_v2 through TWO windows and writes main_v3), one host operation (main_v4 the
  concatenation of the first argument and main_v3).  The contents at each boundary are a fold from the launch memory:
  a host stretch applies its operations, a region replaces its output array by what its write-backs leave.

  Region 1's two input windows are on one array, so the core cannot hold that array once per window at the full share:
  it holds it at the left half for window 0 and at the right half for window 1.  The full share splits into the two
  halves at the same contents, and the two halves at the same contents join back to the full share.
-/
import proofs.«175630_j33517924778715_1_alg».proof.Proof.KI.Mat
import proofs.«175630_j33517924778715_1_alg».proof.Proof.KI.Dis.Frame
import Idealize.ShloMosaic.Lib.Pipeline.Regions
import Idealize.ShloMosaic.Lib.Pipeline.RegionsLoop
import Idealize.ShloMosaic.Lib.Pipeline.FrameSuffix
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m (c, b)
/-- The same read at the TensorCore's references: what region 0 is entered with. -/
abbrev E0 : (c : Dev nD) → (b : Ref sig .tc) → Buf (Elt F) ((c : Thread nD τ).loc b) := fun c b => W0 m c b
/-- After region 0: the product array at what the four write-backs leave, everything else as launched. -/
def W1 (c : Dev nD) : Valuation τ sig (Elt F) :=
  Pipeline.withArrays spec0 c (W0 m c) fun w => (dat0 (E0 m) c).arrAt w cfg0.N
abbrev E1 : (c : Dev nD) → (b : Ref sig .tc) → Buf (Elt F) ((c : Thread nD τ).loc b) := fun c b => W1 m c b
/-- After the reshape and the transpose: region 1's entry. -/
abbrev W2 : Dev nD → Valuation τ sig (Elt F) := fun c => StableHlo.after hostOps1 (W1 m c)
abbrev E2 : (c : Dev nD) → (b : Ref sig .tc) → Buf (Elt F) ((c : Thread nD τ).loc b) := fun c b => W2 m c b
/-- After region 1: main_v3 at what the write-backs of the last point of each sweep leave, everything else unchanged. -/
def W3 (c : Dev nD) : Valuation τ sig (Elt F) :=
  Function.update (W2 m c) main_v3 ((dat1 (E2 m) c).arrAt 2 cfg1.N)
abbrev E3 : (c : Dev nD) → (b : Ref sig .tc) → Buf (Elt F) ((c : Thread nD τ).loc b) := fun c b => W3 m c b
/-- After the concatenation: the end. -/
abbrev W4 : Dev nD → Valuation τ sig (Elt F) := fun c => StableHlo.after hostOps2 (W3 m c)

theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

theorem W3_v3 (c : Dev nD) : W3 m c main_v3 = (dat1 (E2 m) c).arrAt 2 cfg1.N := by
  unfold W3; exact Function.update_self ..
theorem W3_of_ne (c : Dev nD) (b : Ref sig .tc) (hb : b ≠ main_v3) : W3 m c b = W2 m c b := by
  unfold W3
  exact Function.update_of_ne (StableHlo.devRef_ne_of_ne hb : (Proc.devRef .tc b : DevRef τ sig) ≠ Proc.devRef .tc main_v3) _ _

/-! ## Region 1's arrays among the unscoped buffers -/

section Shared

variable (V : (c : Dev nD) → (b : Ref sig .tc) → Buf (Elt F) ((c : Thread nD τ).loc b))

/-- The distinct buffers behind region 1's three windows: the transposed product (windows 0 and 1) and the result. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v2) ↦{fullShare} Vc main_v2) ∗ (((c : Thread nD τ).loc main_v3) ↦{fullShare} Vc main_v3)) := by
  unfold Pipeline.arrBufs
  rw [show Finset.univ.image (Pipeline.arrRef spec1) = insert main_v2 {main_v3} from by decide,
    bigSep_insert (by decide), bigSep_singleton]
  rfl

/-- Region 1's arrays as the proof data holds them: the transposed product at the left half for window 0 and at the
    right half for window 1, the result at the full share. -/
theorem arrays1_eq (c : Dev nD) (Fw : (w : Fin cfg1.W) → Buf (Elt F) ((cfg1.win w).arr.view.loc (c : Thread nD τ))) :
    (dat1 V c).arrays Fw
      = iprop((((c : Thread nD τ).loc main_v2) ↦{fullShare.left} Fw 0) ∗ (((c : Thread nD τ).loc main_v2) ↦{fullShare.right} Fw 1)
          ∗ (((c : Thread nD τ).loc main_v3) ↦{fullShare} Fw 2)) := by
  unfold Dat.arrays
  rw [bigSep_W1, (arr_whole1 0).set_eq_univ, (arr_whole1 2).set_eq_univ]
  rfl

/-- ENTRY: the core's unscoped buffers at V are region 1's arrays at their entry contents — the transposed product's
    full share split into its two halves, one per window — and the unscoped rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c)]
  refine sep_mono (show (Pipeline.arrBufs (Ix := Unit) (Name := ℕ) (U := UR sig nD τ) (Lvl := ℕ) spec1 c (V c) : sProp 𝕄) ⊢ _ from ?_) .rfl
  rw [arrBufs1_eq, arrays1_eq]
  show _ ⊢ iprop((((c : Thread nD τ).loc main_v2) ↦{fullShare.left} (dat1 V c).A 0) ∗ (((c : Thread nD τ).loc main_v2) ↦{fullShare.right} (dat1 V c).A 1)
      ∗ (((c : Thread nD τ).loc main_v3) ↦{fullShare} (dat1 V c).A 2))
  rw [A_eq1, A_eq1, A_eq1]
  have hs : ((((c : Thread nD τ).loc main_v2) ↦{fullShare} V c main_v2) : sProp 𝕄)
      ⊢ iprop((((c : Thread nD τ).loc main_v2) ↦{fullShare.left} V c main_v2) ∗ (((c : Thread nD τ).loc main_v2) ↦{fullShare.right} V c main_v2)) :=
    (pointsTo_share (PosShare.mem_left_op_right fullShare)).1
  iintro ⟨H2, H3⟩
  ihave H2' := hs $$ H2
  icases H2' with ⟨Hl, Hr⟩
  isplitl [Hl]; · iexact Hl
  isplitl [Hr]; · iexact Hr
  iexact H3

/-- EXIT: region 1's arrays after its last point — the two halves of the transposed product, unchanged, joined back to the
    full share; the result at what the write-backs left — and the unscoped rest at V are the core's unscoped buffers
    at any contents V' that has the result there and agrees with V elsewhere. -/
theorem exit1 (c : Dev nD) (V' : (b : Ref sig .tc) → Buf (Elt F) ((c : Thread nD τ).loc b))
    (h3 : V' main_v3 = (dat1 V c).arrAt 2 cfg1.N) (hrest : ∀ b, b ≠ main_v3 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [Pipeline.unscopedBufs_split₀ cfgs 1 winFacts₀1.arr_unscoped c V']
  refine sep_mono (show _ ⊢ (Pipeline.arrBufs (Ix := Unit) (Name := ℕ) (U := UR sig nD τ) (Lvl := ℕ) spec1 c V' : sProp 𝕄) from ?_) (Entails.of_eq ?_)
  · rw [arrBufs1_eq, arrays1_eq, (dat1 V c).arrAt_in 0 rfl, (dat1 V c).arrAt_in 1 rfl, A_eq1, A_eq1, h3, hrest main_v2 (by decide)]
    have hj : iprop((((c : Thread nD τ).loc main_v2) ↦{fullShare.left} V c main_v2) ∗ (((c : Thread nD τ).loc main_v2) ↦{fullShare.right} V c main_v2))
        ⊢ ((((c : Thread nD τ).loc main_v2) ↦{fullShare} V c main_v2) : sProp 𝕄) :=
      (pointsTo_share (PosShare.mem_left_op_right fullShare)).2
    iintro ⟨Hl, Hr, H3⟩
    isplitl [Hl Hr]
    · iapply hj
      isplitl [Hl]; · iexact Hl
      iexact Hr
    iexact H3
  · unfold Pipeline.unscopedRest
    exact bigSep_congr fun b hb => by
      rw [hrest b (fun e => (Finset.mem_sdiff.mp hb).2 (Finset.mem_image.mpr ⟨2, Finset.mem_univ _, e.symm⟩))]

end Shared

/-! ## The arguments reach the end as launched -/

theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor

/-- The reshape and the transpose write main_v1 and main_v2 only. -/
theorem W2_of_ne (c : Dev nD) (b : Ref sig .tc) (h1 : b ≠ main_v1) (h2 : b ≠ main_v2) :
    W2 m c (Proc.devRef .tc b) = W1 m c (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h1, StableHlo.devRef_ne_of_ne h2⟩))
/-- The concatenation writes main_v4 only. -/
theorem W4_of_ne (c : Dev nD) (b : Ref sig .tc) (h4 : b ≠ main_v4) :
    W4 m c (Proc.devRef .tc b) = W3 m c (Proc.devRef .tc b) :=
  StableHlo.after_of_forall_not_mem (b := Proc.devRef .tc b) _ _ (List.forall_iff_forall_mem.mp (by
    simp only [hostOps2, List.Forall, StableHlo.binary_writes, Finset.mem_singleton]
    exact StableHlo.devRef_ne_of_ne h4))

/-- No item writes the first argument: region 0 reads it through an input window, which leaves the array as entered. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide) (by decide)
    _ = W0 m c (Proc.devRef .tc main_arg0) := (W1_arr m c 0).trans (((dat0 (E0 m) c).arrAt_in 0 rfl _).trans (A_eq0 (E0 m) c 0))
    _ = m ((c : Thread nD τ).loc main_arg0) := rfl
/-- Nor the second. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide) (by decide)
    _ = W0 m c (Proc.devRef .tc main_arg1) := (W1_arr m c 1).trans (((dat0 (E0 m) c).arrAt_in 1 rfl _).trans (A_eq0 (E0 m) c 1))
    _ = m ((c : Thread nD τ).loc main_arg1) := rfl

/-! ## The proof data family and the thread state -/

/-- No pipeline has a prefetched table. -/
abbrev tables : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) tables p) c
  | ⟨0, _⟩ => fun c => dat0 (E0 m) c
  | ⟨1, _⟩ => fun c => dat1 (E2 m) c
abbrev 𝒱₀ : Variants := Variants.none
abbrev Lz : GSem nD τ sig → Finset Unit := fun _ => ∅
abbrev lz : GSem nD τ sig → Unit → ℕ := fun _ _ => 0
/-- What rides beside the buffers through every item: the generator register at some state, and the core owing nothing. -/
abbrev Rd (c : Dev nD) : sProp 𝕄 := iprop((∃ r, prngReg c r) ∗ ∃ W, owes (c : Thread nD τ) (0 : CellTallies nD τ sig Unit) W)
/-- A host stretch as an item, over the unscoped buffers from the contents W. -/
abbrev hitem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tend (c : Dev nD) : sProp 𝕄 := iprop(StableHlo.held (c : Thread nD τ) (Pipeline.ucRefs τ sig) (W4 m c) ∗ ∃ r, prngReg c r)

/-! ## The regions as items -/

set_option backward.isDefEq.respectTransparency.types false in
/-- Region 0: entered from every unscoped buffer at the launch contents, left with the product array at what the
    write-backs leave. Its three arrays are distinct buffers held at the full share. -/
def reg0 : Pipeline.RegionSeg (pcfgs (F := F)) tables (pdats m) () defs₀ 𝒱₀ Lz lz 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ Lz lz 0 fun _ _ => rfl
  pre c := iprop(StableHlo.held (c : Thread nD τ) (Pipeline.ucRefs τ sig) (W0 m c) ∗ Rd c)
  post c := iprop(StableHlo.held (c : Thread nD τ) (Pipeline.ucRefs τ sig) (W1 m c) ∗ Rd c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) tables (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer after the transpose, left with main_v3 at what the write-backs leave.
    Its two input windows share one array, held at the two halves of the full share (entry1, exit1). -/
def reg1 : Pipeline.RegionSeg (pcfgs (F := F)) tables (pdats m) () defs₀ 𝒱₀ Lz lz 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ Lz lz 1 fun _ _ => rfl
  pre c := iprop(StableHlo.held (c : Thread nD τ) (Pipeline.ucRefs τ sig) (W2 m c) ∗ Rd c)
  post c := iprop(StableHlo.held (c : Thread nD τ) (Pipeline.ucRefs τ sig) (W3 m c) ∗ Rd c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := entry1 (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m) c)
    unfold Pipeline.ΦA
    iintro ⟨Hp, -, Hr⟩
    isplitl [Hr]; · iexact Hr
    iexact Hp
  hout c := by
    rw [Pipeline.ownSems0_none]
    refine (hout1 (E2 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (E2 m c))
        ⊢ (unscopedBufs (Ix := Unit) (Name := ℕ) (U := UR sig nD τ) (Lvl := ℕ) c (E3 m c) : sProp 𝕄) :=
      exit1 (E2 m) c (E3 m c) (W3_v3 m c) (fun b hb => W3_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as items, and the launch -/

/-- The program's four items in order. -/
abbrev items : List (Pipeline.Seg (pcfgs (F := F)) tables (pdats m) () defs₀ 𝒱₀ Lz lz) :=
  [ .region (reg0 m),
    .host (hitem hostOps1 hostOps1_sub ops1_fresh (W1 m)),
    .region (reg1 m),
    .host (hitem hostOps2 hostOps2_sub ops2_fresh (W3 m)) ]
/-- The program IS the run of the items. -/
theorem main_items (c : Dev nD) : main (F := F) c = Pipeline.Seg.run (items m) := (main_chain c).trans (by chain_rfl)

set_option backward.isDefEq.respectTransparency.types false in
/-- THE RUN: from any memory with zero counters every weakly fair execution of the program terminates, nothing
    faulting, and the final memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) tables (pdats m) () cellOf_inj emb₁ defs₀ 𝒱₀ Lz lz m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tend m)
    (hch := ⟨fun _ => .rfl, fun _ => .rfl, fun _ => .rfl, fun _ => .rfl, fun c => by
      show iprop(StableHlo.held (c : Thread nD τ) (Pipeline.ucRefs τ sig) (W4 m c) ∗ Rd c) ⊢ _
      iintro ⟨Hh, Hp, Ho⟩
      isplitl [Hh Hp]
      · isplitl [Hh]; · iexact Hh
        iexact Hp
      iexact Ho⟩)
    (hinit := by
      refine Pipeline.initEach Lz lz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: both arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c), (h c _ (mem_uc main_arg1 (by decide))).trans (W4_main_arg1 m c)⟩) (run_all m ρ)

/-- The run with the result named: main_v4 ends at the last boundary's contents, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v4) = W4 m c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v4 (by decide)),
     (h c _ (mem_uc main_arg0 (by decide))).trans (W4_main_arg0 m c), (h c _ (mem_uc main_arg1 (by decide))).trans (W4_main_arg1 m c)⟩) (run_all m ρ)

end Cert.KernelIdeal.Hand

end
-- ==== Proof.Spec.lean ====
/-
  The function both programs compute, index by index over the extended reals, written once and over plain finite sums.

  From `x : [512, 512]` and `T : [512, 1024]`:
  * `mm x T` is the matrix product, entry `(b, q)` the sum over `k` of `x[b, k] · T[k, q]`;
  * a row of the product is read as 64 features of 16 components each, component `k` of feature `o` of sample `b`
    being entry `(b, 16·o + k)`; `m3` lays this out as `[512, 16, 64]` (sample, component, feature);
  * `dist A i j o` is the L1 distance between samples `i` and `j` in feature `o`, the sum over the 16 components of
    the absolute difference (`max d (−d)`, which is what the absolute value is on the extended reals);
  * `ob A` at `(i, o)` is the sum over all samples `j` of `exp (−dist i j o)` times the self-exclusion factor
    (`0` at `j = i`, `1` elsewhere).
-/
import Idealize.ShloMosaic.PureOps.Ideal
import Idealize.ShloMosaic.Lib.ValueIdx

noncomputable section

namespace Cert.Spec

open Idealize.ShloMosaic Idealize.ShloMosaic.ValueIdx

abbrev SX : Shape := ⟨2, ![512, 512]⟩
abbrev ST : Shape := ⟨2, ![512, 1024]⟩
abbrev SA : Shape := ⟨3, ![512, 16, 64]⟩
abbrev SO : Shape := ⟨2, ![512, 64]⟩

/-- The matrix product `x · T`. -/
def mm (x : SX.Idx → EReal) (T : ST.Idx → EReal) : ST.Idx → EReal :=
  fun y => ∑ k : Fin 512, x (ix2 (y 0) k) * T (ix2 k (y 1))

/-- Column `16·o + k` of a 1024-wide row: component `k` of feature `o`. -/
def col (o : Fin 64) (k : Fin 16) : Fin 1024 := ⟨o.val * 16 + k.val, by omega⟩

/-- The product's rows laid out as (sample, component, feature). -/
def m3 (M : ST.Idx → EReal) : SA.Idx → EReal :=
  fun y => M (ix2 (y 0) (col (y 2) (y 1)))

/-- The L1 distance between samples `i` and `j` in feature `o`. -/
def dist (A : SA.Idx → EReal) (i j : Fin 512) (o : Fin 64) : EReal :=
  ∑ k : Fin 16, max (A (ix3 i k o) - A (ix3 j k o)) (-(A (ix3 i k o) - A (ix3 j k o)))

/-- The self-exclusion factor. -/
def excl (i j : Fin 512) : EReal := if i = j then 0 else 1

/-- The similarity of sample `i` to all the others in feature `o`, summed. -/
def ob (A : SA.Idx → EReal) : SO.Idx → EReal :=
  fun y => ∑ j : Fin 512, Ideal.exp (-(dist A (y 0) j (y 1))) * excl (y 0) j

/-- The whole function of the two arguments. -/
def OB (x : SX.Idx → EReal) (T : ST.Idx → EReal) : SO.Idx → EReal := ob (m3 (mm x T))

end Cert.Spec

end
-- ==== Proof.KI.Glue.lean ====
/-
  The host operations between and after the two kernel regions, read as values over the extended reals.

  Between the regions the product array [512, 1024] is reshaped to [512, 64, 16] and its last two axes are
  exchanged, giving [512, 16, 64]: entry (b, k, o) of the result is entry (b, o, k) of the reshape, which has the
  row-major position of entry (b, 16·o + k) of the product array. That is the specification's layout of a product
  row as 64 features of 16 components. After the second region the first argument and the similarity array are
  joined along the second axis.
-/
import proofs.«175630_j33517924778715_1_alg».proof.Proof.Gen.KernelIdeal.Launch
import proofs.«175630_j33517924778715_1_alg».proof.Proof.Spec
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe
open Idealize.ShloMosaic.StableHlo Idealize.ShloMosaic.ValueIdx

/-- After the reshape and the exchange of the last two axes, the third array holds the product array laid out
    as (sample, component, feature): entry (b, k, o) is entry (b, 16·o + k) of the product array. -/
theorem after_ops1_v2 (Wv : Valuation τ sig (Elt Ideal)) :
    StableHlo.after (hostOps1 (F := Ideal)) Wv main_v2 = Cert.Spec.m3 (Wv main_v0) := by
  dsimp only [hostOps1]
  after_results
  funext y
  show transpose S512x16x64 [0, 2, 1]
      (shapeCast S512x64x16 (Wv main_v0 : S512x1024.Idx → EReal) shapeCasts_S512x1024_S512x64x16)
      transposes_S512x64x16_S512x16x64_0_2_1 y
    = (Wv main_v0 : S512x1024.Idx → EReal) (ix2 (y 0) (Cert.Spec.col (y 2) (y 1)))
  -- the exchange of axes: result axes 0, 1, 2 are source axes 0, 2, 1
  refine (transpose_apply [0, 2, 1] _ transposes_S512x64x16_S512x16x64_0_2_1 y
    (ix3 (n0 := 512) (n1 := 64) (n2 := 16) (y 0) (y 2) (y 1)) (fun b => ?_)).trans ?_
  · match b with
    | ⟨0, _⟩ => rfl
    | ⟨1, _⟩ => rfl
    | ⟨2, _⟩ => rfl
  -- the reshape: (b, o, k) of [512, 64, 16] and (b, 16·o + k) of [512, 1024] have the same row-major position
  · refine shapeCast_apply _ shapeCasts_S512x1024_S512x64x16
      (ix3 (n0 := 512) (n1 := 64) (n2 := 16) (y 0) (y 2) (y 1)) (ix2 (y 0) (Cert.Spec.col (y 2) (y 1))) ?_
    rewrite [Shape.rowMajor_val_two, Shape.rowMajor_val_three]
    have h0 : (y 0).val < 512 := (y 0).isLt
    have h1 : (y 1).val < 16 := (y 1).isLt
    have h2 : (y 2).val < 64 := (y 2).isLt
    show (y 0).val * 1024 + ((y 2).val * 16 + (y 1).val) = ((y 0).val * 64 + (y 2).val) * 16 + (y 1).val
    omega

/-- After the join, the last array holds the first argument followed, along the second axis, by the similarity
    array. -/
theorem after_ops2_v4 (Wv : Valuation τ sig (Elt Ideal)) :
    StableHlo.after (hostOps2 (F := Ideal)) Wv main_v4
      = concatenate S512x576 1 [⟨S512x512, Wv main_arg0⟩, ⟨S512x64, Wv main_v3⟩] concatenates_S512x512_S512x64_S512x576_d1 := by
  dsimp only [hostOps2]
  after_results <;> rfl

end Cert.KernelIdeal.Hand

end
-- ==== Proof.KI.MatValue.lean ====
/-
  The product kernel's array, as a value over the extended reals.

  After the first kernel region the product array holds, at row b and column q, the sum over k < 512 of
  x[b, k] · T[k, q], where x and T are what the region found in the two argument arrays: the matrix product of the
  specification. The argument: at point t the body stores the product of its two input blocks accumulated into
  zero, which over the extended reals is, entry by entry, the plain sum over the one contracted axis; the left
  block's row r is row 128·t + r of x, the right block is T itself, and the output block's row r goes back to row
  128·t + r of the product array; the four points' row blocks cover all 512 rows (row b lies in the block of point
  b / 128).
-/
import proofs.«175630_j33517924778715_1_alg».proof.Proof.KI.Mat
import proofs.«175630_j33517924778715_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-- The offsets of a whole-buffer access are zero on both axes. -/
theorem hz2 : (![0, 0] : Fin 2 → Nat) = fun _ => 0 := funext fun a => by fin_cases a <;> rfl

/-! ## The contraction's operand indices, axis by axis

At output index i = (r, q) and contraction index k the left operand is read at (r, k) and the right at (k, q). -/

theorem lhs_mat_0 (i : S128x1024.Idx) (q : dot_S128x512_S512x1024_S128x1024_1_0_0_1_n_n.contr.Idx) :
    (dot_S128x512_S512x1024_S128x1024_1_0_0_1_n_n.lhsIdx i q 0).val = (i 0).val := by
  unfold DotDims.lhsIdx
  rw [dif_neg (show ¬(0 : Fin S128x512.rank) ∈ dot_S128x512_S512x1024_S128x1024_1_0_0_1_n_n.lhsBatch by decide), dif_pos (show (0 : Fin S128x512.rank) ∈ dot_S128x512_S512x1024_S128x1024_1_0_0_1_n_n.lhsNonContracting by decide)]
  rfl
theorem lhs_mat_1 (i : S128x1024.Idx) (q : dot_S128x512_S512x1024_S128x1024_1_0_0_1_n_n.contr.Idx) :
    (dot_S128x512_S512x1024_S128x1024_1_0_0_1_n_n.lhsIdx i q 1).val = (q ⟨0, by decide⟩).val :=
  dot_S128x512_S512x1024_S128x1024_1_0_0_1_n_n.lhsIdx_val_of_single rfl i q
theorem rhs_mat_0 (i : S128x1024.Idx) (q : dot_S128x512_S512x1024_S128x1024_1_0_0_1_n_n.contr.Idx) :
    (dot_S128x512_S512x1024_S128x1024_1_0_0_1_n_n.rhsIdx i q 0).val = (q ⟨0, by decide⟩).val :=
  dot_S128x512_S512x1024_S128x1024_1_0_0_1_n_n.rhsIdx_val_of_single rfl i q
theorem rhs_mat_1 (i : S128x1024.Idx) (q : dot_S128x512_S512x1024_S128x1024_1_0_0_1_n_n.contr.Idx) :
    (dot_S128x512_S512x1024_S128x1024_1_0_0_1_n_n.rhsIdx i q 1).val = (i 1).val := by
  unfold DotDims.rhsIdx
  rw [dif_neg (show ¬(1 : Fin S512x1024.rank) ∈ dot_S128x512_S512x1024_S128x1024_1_0_0_1_n_n.rhsBatch by decide), dif_pos (show (1 : Fin S512x1024.rank) ∈ dot_S128x512_S512x1024_S128x1024_1_0_0_1_n_n.rhsNonContracting by decide)]
  rfl

/-! ## The body's stored value at an entry -/

/-- Entry (r, q) of what the body stores: the sum over k of the left block at (r, k) times the right block at
    (k, q). The accumulator is the zero splat, and over the extended reals the contraction is the plain sum. -/
theorem pay_apply (x0 : S128x512.Idx → EReal) (x1 : S512x1024.Idx → EReal) (j : S128x1024.Idx) :
    k0_pay1 (F := Ideal) x0 x1 j = ∑ k : Fin 512, x0 (ix2 (j 0) k) * x1 (ix2 k (j 1)) := by
  unfold k0_pay1
  simp only [matmul]
  rw [Ideal.matmul_constant_zero_apply, ← Equiv.sum_comp (contrEquiv1 dot_S128x512_S512x1024_S128x1024_1_0_0_1_n_n 512 rfl rfl).symm]
  refine Finset.sum_congr rfl fun k _ => ?_
  have hk := contrEquiv1_symm_val dot_S128x512_S512x1024_S128x1024_1_0_0_1_n_n 512 rfl rfl k
  have el : dot_S128x512_S512x1024_S128x1024_1_0_0_1_n_n.lhsIdx j ((contrEquiv1 dot_S128x512_S512x1024_S128x1024_1_0_0_1_n_n 512 rfl rfl).symm k) = ix2 (j 0) k := funext fun a => Fin.ext (by
    match a with
    | ⟨0, _⟩ => exact lhs_mat_0 _ _
    | ⟨1, _⟩ => exact (lhs_mat_1 _ _).trans hk)
  have er : dot_S128x512_S512x1024_S128x1024_1_0_0_1_n_n.rhsIdx j ((contrEquiv1 dot_S128x512_S512x1024_S128x1024_1_0_0_1_n_n 512 rfl rfl).symm k) = ix2 k (j 1) := funext fun a => Fin.ext (by
    match a with
    | ⟨0, _⟩ => exact (rhs_mat_0 _ _).trans hk
    | ⟨1, _⟩ => exact rhs_mat_1 _ _)
  rw [el, er]
  rfl

/-! ## The index maps, decided once over the four points -/

/-- At point t the left factor's block index is (t, 0), the right factor's (0, 0), the output's (t, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-! ## Each input block as entries of its array -/

/-- The left block at point t, at (r, k), is x at (128·t + r, k). -/
theorem blk0_0_apply (c : Dev nD) (t : Fin cfg0.N) (y : S128x512.Idx) (z : S512x512.Idx)
    (h0 : (z 0).val = t.val * 128 + (y 0).val) (h1 : (z 1).val = (y 1).val) :
    (blk0 V c 0 t : S128x512.Idx → EReal) y = (V c main_arg0 : S512x512.Idx → EReal) z := by
  obtain ⟨e0, e1, -, -, -, -⟩ := idx_facts0 t
  unfold blk0
  rw [View.read_apply]
  show (V c main_arg0 : S512x512.Idx → EReal) _ = _
  congr 1
  funext a
  apply Fin.ext
  match a with
  | ⟨0, _⟩ => show win0_0.index t (0 : Fin 2) * 128 + 1 * (y 0).val = (z 0).val; rw [e0, h0]; omega
  | ⟨1, _⟩ => show win0_0.index t (1 : Fin 2) * 512 + 1 * (y 1).val = (z 1).val; rw [e1, h1]; omega

/-- The right block at any point, at (k, q), is T at (k, q). -/
theorem blk0_1_apply (c : Dev nD) (t : Fin cfg0.N) (y : S512x1024.Idx) (z : S512x1024.Idx)
    (h0 : (z 0).val = (y 0).val) (h1 : (z 1).val = (y 1).val) :
    (blk0 V c 1 t : S512x1024.Idx → EReal) y = (V c main_arg1 : S512x1024.Idx → EReal) z := by
  obtain ⟨-, -, e0, e1, -, -⟩ := idx_facts0 t
  unfold blk0
  rw [View.read_apply]
  show (V c main_arg1 : S512x1024.Idx → EReal) _ = _
  congr 1
  funext a
  apply Fin.ext
  match a with
  | ⟨0, _⟩ => show win0_1.index t (0 : Fin 2) * 512 + 1 * (y 0).val = (z 0).val; rw [e0, h0]; omega
  | ⟨1, _⟩ => show win0_1.index t (1 : Fin 2) * 1024 + 1 * (y 1).val = (z 1).val; rw [e1, h1]; omega

/-! ## What a point writes back -/

/-- Point t writes back block t of the matrix product of the two argument arrays as the region finds them. -/
theorem flushed0_2_eq (c : Dev nD) (t : Fin cfg0.N) :
    (dat0 V c).flushed 2 t = ((cfg0.win 2).blk t).view.read (Elt Ideal) (Cert.Spec.mm (V c main_arg0) (V c main_arg1)) := by
  show (cfg0.win 2).cut (grid0.coords t) ((dat0 V c).after 2 t) = _
  rw [after0_2]
  unfold prodBlock
  rw [View.canon_unit_zero hz2]
  simp only [View.ld_unit_zero (S := S128x512) hz2, View.ld_unit_zero (S := S512x1024) hz2]
  obtain ⟨-, -, -, -, e0, e1⟩ := idx_facts0 t
  funext j
  show k0_pay1 (F := Ideal) (blk0 V c 0 t : S128x512.Idx → EReal) (blk0 V c 1 t : S512x1024.Idx → EReal) j
    = Cert.Spec.mm (V c main_arg0) (V c main_arg1) (((cfg0.win 2).blk t).view.emb j)
  rw [pay_apply]
  unfold Cert.Spec.mm
  refine Finset.sum_congr rfl fun k _ => ?_
  have hj0 : ((((cfg0.win 2).blk t).view.emb j) 0).val = t.val * 128 + (j 0).val := by
    show win0_2.index t (0 : Fin 2) * 128 + 1 * (j 0).val = _; rw [e0]; omega
  have hj1 : ((((cfg0.win 2).blk t).view.emb j) 1).val = (j 1).val := by
    show win0_2.index t (1 : Fin 2) * 1024 + 1 * (j 1).val = _; rw [e1]; omega
  rw [blk0_0_apply V c t (ix2 (j 0) k) (ix2 ((((cfg0.win 2).blk t).view.emb j) 0) k) hj0 rfl,
    blk0_1_apply V c t (ix2 k (j 1)) (ix2 k ((((cfg0.win 2).blk t).view.emb j) 1)) rfl hj1]

/-! ## The blocks cover the array -/

/-- An index of the product array is in point t's block iff each coordinate is in the block's range on its axis. -/
theorem mem_blk0_2 (t : Fin cfg0.N) (i : S512x1024.Idx) :
    i ∈ ((cfg0.win 2).blk t).view.set ↔ ∀ a : Fin 2, win0_2.index t a * S128x1024.size a ≤ (i a).val ∧ (i a).val < win0_2.index t a * S128x1024.size a + S128x1024.size a := by
  show i ∈ ((View.whole main_v0).slice (win0_2.rect t)).set ↔ _
  rw [View.set_slice_whole, Rect.mem_set_unit]
  exact Iff.rfl

/-- Every row block is some point's: block q is point q's. -/
theorem idx_onto0_2 : ∀ q : Fin 4, ∃ t : Fin cfg0.N, win0_2.index t = ![q.val, 0] :=
  (by decide +kernel : ∀ q : Fin 4, ∃ t : Fin grid0.N, win0_2.index t = ![q.val, 0])

/-- Every index of the product array is in the block of the point that covers its row. -/
theorem cover0_arr (i : S512x1024.Idx) :
    ∃ t : Fin cfg0.N, (cfg0.win 2).flush t = true ∧ i ∈ ((cfg0.win 2).blk t).view.set := by
  have hi0 : (i 0).val < 512 := (i 0).isLt
  have hi1 : (i 1).val < 1024 := (i 1).isLt
  obtain ⟨t, ht⟩ := idx_onto0_2 ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 1024 ≤ (i 1).val ∧ (i 1).val < win0_2.index t (1 : Fin 2) * 1024 + 1024; omega

/-! ## The array after the region -/

/-- The product array after the region's four write-backs is the matrix product of the two argument arrays. -/
theorem arr0_eq (c : Dev nD) : (dat0 V c).arrAt 2 cfg0.N = Cert.Spec.mm (V c main_arg0) (V c main_arg1) :=
  (dat0 V c).arrAt_eq_of_cover 2 (Cert.Spec.mm (V c main_arg0) (V c main_arg1)) (fun t _ => flushed0_2_eq V c t) cover0_arr

end Cert.KernelIdeal.Hand

end
-- ==== Proof.KI.DisSum.lean ====
/-
  Regrouping the similarity sum by column blocks.

  The specification's similarity of sample i in feature o is one sum over all 512 samples j of
  exp(−dist i j o) · excl i j. The second kernel region reaches it in another order: for the row block ib that
  holds i it starts from 0 and adds, for the column blocks jb = 0, …, 7 in turn, the sum over the 64 samples of
  that block. Addition on the extended reals is commutative and associative with unit 0, so the two agree with no
  finiteness assumption: the running total after column block n is the sum of the first n + 1 block sums, the
  eight block sums are a double sum over (jb, jj), and (jb, jj) ↦ 64·jb + jj is a bijection onto the 512 samples.
-/
import proofs.«175630_j33517924778715_1_alg».proof.Proof.Spec
import Idealize.ShloMosaic.Lib.ValueIdx
import Mathlib.Data.EReal.Basic
import Mathlib.Algebra.BigOperators.Group.Finset.Defs
import Mathlib.Algebra.BigOperators.Group.Finset.Basic
import Mathlib.Data.Fintype.BigOperators

noncomputable section

namespace Cert.KernelIdeal.Hand

open Idealize.ShloMosaic

/-! ## Samples by block -/

/-- Row il of row block ib: sample 128·ib + il. -/
def row (ib : Fin 4) (il : Fin 128) : Fin 512 := ⟨ib.val * 128 + il.val, by omega⟩

/-- Row jj of column block jb: sample 64·jb + jj. -/
def colj (jb : Fin 8) (jj : Fin 64) : Fin 512 := ⟨jb.val * 64 + jj.val, by omega⟩

/-- Every sample is a row of a row block: r = 128·(r / 128) + r % 128. -/
theorem row_surj (r : Fin 512) : ∃ ib il, r = row ib il :=
  ⟨⟨r.val / 128, by omega⟩, ⟨r.val % 128, by omega⟩, Fin.ext (by show r.val = r.val / 128 * 128 + r.val % 128; omega)⟩

/-- (jb, jj) ↦ 64·jb + jj is a bijection from 8 × 64 onto the 512 samples, with inverse j ↦ (j / 64, j % 64). -/
def blockEquiv : Fin 8 × Fin 64 ≃ Fin 512 where
  toFun p := colj p.1 p.2
  invFun j := (⟨j.val / 64, by omega⟩, ⟨j.val % 64, by omega⟩)
  left_inv p := by
    obtain ⟨a, b⟩ := p
    refine Prod.ext (Fin.ext ?_) (Fin.ext ?_)
    · show (a.val * 64 + b.val) / 64 = a.val; omega
    · show (a.val * 64 + b.val) % 64 = b.val; omega
  right_inv j := Fin.ext (by show j.val / 64 * 64 + j.val % 64 = j.val; omega)

/-! ## The summand, the block sums, the running total -/

/-- The summand of the similarity of sample i in feature o, at sample j. -/
def term (A : Cert.Spec.SA.Idx → EReal) (i : Fin 512) (o : Fin 64) (j : Fin 512) : EReal :=
  Ideal.exp (-(Cert.Spec.dist A i j o)) * Cert.Spec.excl i j

/-- The sum over column block n (0 past the last block). -/
def part (A : Cert.Spec.SA.Idx → EReal) (ib : Fin 4) (il : Fin 128) (o : Fin 64) (n : ℕ) : EReal :=
  if h : n < 8 then ∑ jj : Fin 64, term A (row ib il) o (colj ⟨n, h⟩ jj) else 0

/-- The running total after column block n, started from 0 at column block 0. -/
def accUpTo (A : Cert.Spec.SA.Idx → EReal) (ib : Fin 4) (il : Fin 128) (o : Fin 64) : ℕ → EReal
  | 0 => 0 + part A ib il o 0
  | n + 1 => accUpTo A ib il o n + part A ib il o (n + 1)

/-- The self-exclusion factor, by block coordinates: the two samples are equal iff their numbers are. -/
theorem excl_iff (ib : Fin 4) (il : Fin 128) (jb : Fin 8) (jj : Fin 64) :
    (if ib.val * 128 + il.val = jb.val * 64 + jj.val then (0 : EReal) else 1) = Cert.Spec.excl (row ib il) (colj jb jj) := by
  unfold Cert.Spec.excl
  exact if_congr (by rw [Fin.ext_iff]; exact Iff.rfl) rfl rfl

/-- The block sum at a column block of the grid. -/
theorem part_eq (A : Cert.Spec.SA.Idx → EReal) (ib : Fin 4) (il : Fin 128) (o : Fin 64) (jb : Fin 8) :
    part A ib il o jb.val = ∑ jj : Fin 64, term A (row ib il) o (colj jb jj) := by
  unfold part
  rw [dif_pos jb.isLt]

/-- The running total after column block n is the sum of the block sums 0, …, n. -/
theorem accUpTo_eq_sum (A : Cert.Spec.SA.Idx → EReal) (ib : Fin 4) (il : Fin 128) (o : Fin 64) :
    ∀ n : ℕ, accUpTo A ib il o n = ∑ m ∈ Finset.range (n + 1), part A ib il o m
  | 0 => by
    show 0 + part A ib il o 0 = _
    rw [zero_add, Finset.sum_range_one]
  | n + 1 => by
    show accUpTo A ib il o n + part A ib il o (n + 1) = _
    rw [accUpTo_eq_sum A ib il o n, Finset.sum_range_succ _ (n + 1)]

/-- After the last column block the running total is the specification's similarity of that row's sample. -/
theorem accUpTo_seven (A : Cert.Spec.SA.Idx → EReal) (ib : Fin 4) (il : Fin 128) (o : Fin 64) :
    accUpTo A ib il o 7 = Cert.Spec.ob A (Idealize.ShloMosaic.ValueIdx.ix2 (row ib il) o) := by
  rw [accUpTo_eq_sum]
  show ∑ m ∈ Finset.range 8, part A ib il o m = ∑ j : Fin 512, term A (row ib il) o j
  rw [← Fin.sum_univ_eq_sum_range (fun m => part A ib il o m) 8]
  simp only [part_eq]
  rw [← Equiv.sum_comp blockEquiv (fun j => term A (row ib il) o j), Fintype.sum_prod_type]
  rfl

end Cert.KernelIdeal.Hand

end
-- ==== Proof.KI.DisStep.Index.lean ====
/-
  Reading the similarity kernel's operations at an index: the general facts, over any extents.

  * casts that add or drop a unit axis of a rank-3 array keep the row-major position, so they read the operand at the
    same coordinates with the unit axis's coordinate dropped or set to 0; a broadcast along one axis reads the operand
    at coordinate 0 of that axis;
  * a rank-3 array read through one coordinate K of its middle axis is the array at (i, K, j);
  * summing a rank-3 array over its middle axis, the source index over (i, k) with j put back is (i, j, k);
  * sixteen terms added from the left to zero are their sum over Fin 16;
  * a row or column number b · m + l below 2³², computed on 32-bit words, is the word of that number; two such words
    differ exactly when the numbers do; the comparison's bit, widened and read as a float over the extended reals, is
    0 or 1;
  * the row and the column counter of a rank-2 block read the row and the column.
-/
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx
open scoped BigOperators

variable {F : FTy → Type} [FloatOps F]

/-! ## Casts and broadcasts that move a unit axis, read at an index given by coordinates

Each is the general reading of the operation at an index with the operand's index named: a cast keeps the row-major
position, and a position is unchanged by a unit axis wherever it stands; a broadcast reads coordinate 0 on the operand's
unit axis and its own coordinate on every other. -/

section Layout
variable {α : Type}

/-- An `[a, 1, c]` array cast to `[a, c]` reads, at `(i, j)`, the operand at `(i, 0, j)`. -/
theorem cast_a1c_ac_apply {a c : ℕ} (x : (⟨3, ![a, 1, c]⟩ : Shape).Idx → α)
    (h : (⟨3, ![a, 1, c]⟩ : Shape).ShapeCasts ⟨2, ![a, c]⟩) (i : Fin a) (j : Fin c) :
    shapeCast ⟨2, ![a, c]⟩ x h (ix2 i j) = x (ix3 i (0 : Fin 1) j) :=
  shapeCast_apply x h _ _ (by
    rw [Shape.rowMajor_val_three, Shape.rowMajor_val_two]
    show (i.val * 1 + 0) * c + j.val = i.val * c + j.val
    rw [Nat.mul_one, Nat.add_zero])

/-- An `[a, c]` array cast to `[a, 1, c]` reads, at `(i, u, j)`, the operand at `(i, j)`. -/
theorem cast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b]` array cast to `[a, b, 1]` reads, at `(i, j, u)`, the operand at `(i, j)`. -/
theorem cast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, c]` array broadcast to `[a, b, c]` reads, at `(i, j, k)`, the operand at `(i, 0, k)`: the same along the
    second axis. -/
theorem bcast_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: the same along the
    first axis. -/
theorem bcast_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`: the same along the
    last axis. -/
theorem bcast_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## A slice along the middle axis, the index over a summed axis, the sixteen-term sum, and the row and column words -/

/-- A rank-3 array read through the unit-stride rectangle of one coordinate `K` on its middle axis, whole on the other
    two: entry `(i, u, j)` of what is read is the array's entry `(i, K, j)` (coordinate = offset + 1 × inner
    coordinate on each axis). -/
theorem ld_axis1_apply {n0 n1 n2 : ℕ} (K : ℕ) (x : Vec F ⟨3, ![n0, n1, n2]⟩ .f32)
    (inb : ∀ a, (![0, K, 0] : Fin 3 → Nat) a + (⟨3, ![n0, 1, n2]⟩ : Shape).size a ≤ (⟨3, ![n0, n1, n2]⟩ : Shape).size a)
    (i : Fin n0) (u : Fin 1) (j : Fin n2) (k : Fin n1) (hk : k.val = K) :
    View.ld (Val := Elt F) (e' := .f32) x (Rect.unit (s := ⟨3, ![n0, n1, n2]⟩) ![0, K, 0] (⟨3, ![n0, 1, n2]⟩ : Shape).size inb) (ix3 i u j)
      = x (ix3 i k j) := by
  have hu : u.val = 0 := by omega
  refine congrArg x (funext fun a => Fin.ext ?_)
  match a with
  | ⟨0, _⟩ => show 0 + 1 * i.val = i.val; omega
  | ⟨1, _⟩ => show K + 1 * u.val = k.val; omega
  | ⟨2, _⟩ => show 0 + 1 * j.val = j.val; omega

/-- Summing a rank-3 array over its middle axis: the source index over the result index `(i, k)` with coordinate `j`
    put back on the summed axis is `(i, j, k)`. -/
theorem lift_axis1 {a b c : ℕ} (h : (⟨3, ![a, b, c]⟩ : Shape).Reduces [1] ⟨2, ![a, c]⟩) (i : Fin a) (k : Fin c) (j : Fin b) :
    h.lift (ix2 i k) j = ix3 i j k := by
  funext ax
  refine Fin.ext ?_
  match ax with
  | ⟨0, _⟩ => rfl
  | ⟨1, _⟩ => rfl
  | ⟨2, _⟩ => rfl

/-- Sixteen terms added one after the other to zero, from the left, are their sum over `Fin 16`: the sum over
    `Fin (n + 1)` is the sum over `Fin n` plus the last term, sixteen times, and the empty sum is zero. -/
theorem chain16 (f : Fin 16 → EReal) :
    0 + f 0 + f 1 + f 2 + f 3 + f 4 + f 5 + f 6 + f 7 + f 8 + f 9 + f 10 + f 11 + f 12 + f 13 + f 14 + f 15 = ∑ k : Fin 16, f k := by
  simp only [Fin.sum_univ_castSucc, Fin.sum_univ_zero]
  rfl

/-- The word `b · m + l` computed on 32-bit words from the words of `b`, `m` and `l` is the word of the natural number
    `b · m + l` (reduction mod 2³² commutes with sums and products). -/
theorem word_row (b : Nat) (m : Nat) (l : Nat) :
    IntOp.addi (Scalar.muli (BitVec.ofNat 32 b) (BitVec.ofNat 32 m)) (BitVec.ofNat 32 l) = BitVec.ofNat 32 (b * m + l) := by
  show BitVec.ofNat 32 b * BitVec.ofNat 32 m + BitVec.ofNat 32 l = _
  rw [← BitVec.ofNat_mul, ← BitVec.ofNat_add]

/-- Two naturals below 2³² have different words exactly when they differ: the "not equal" bit of their words is 0 when
    they are equal and 1 otherwise. -/
theorem cmpi_ne_ofNat (p q : Nat) (hp : p < 2 ^ 32) (hq : q < 2 ^ 32) :
    IntOp.cmpi .ne (BitVec.ofNat 32 p) (BitVec.ofNat 32 q) = if p = q then 0#1 else 1#1 := by
  unfold IntOp.cmpi
  by_cases h : p = q
  · subst h; simp
  · have hne : BitVec.ofNat 32 p ≠ BitVec.ofNat 32 q := by
      intro e
      have := congrArg BitVec.toNat e
      rw [BitVec.toNat_ofNat, BitVec.toNat_ofNat, Nat.mod_eq_of_lt hp, Nat.mod_eq_of_lt hq] at this
      exact h this
    have hb : (BitVec.ofNat 32 p != BitVec.ofNat 32 q) = true := bne_iff_ne.mpr hne
    rw [if_neg h]
    show BitVec.ofBool (BitVec.ofNat 32 p != BitVec.ofNat 32 q) = 1#1
    rw [hb]
    rfl

/-- A decided bit widened to 32 bits and read as a signed integer, then as an extended real, is 0 or 1 with the bit. -/
theorem sitofp_bit (p : Prop) [Decidable p] :
    FloatOps.sitofp (F := Ideal) .f32 ((if p then 0#1 else 1#1 : BitVec 1).setWidth 32) = if p then (0 : EReal) else 1 := by
  show (((((if p then 0#1 else 1#1 : BitVec 1).setWidth 32).toInt : ℤ) : ℝ) : EReal) = _
  split
  · show (((0 : ℤ) : ℝ) : EReal) = 0
    simp
  · show (((1 : ℤ) : ℝ) : EReal) = 1
    simp

/-- The row counter of a rank-2 block reads the row at every entry. -/
theorem iota0_apply {a b : ℕ} (h : (⟨2, ![a, b]⟩ : Shape).Iotas .tc 32 [0]) (i : Fin a) (j : Fin b) :
    iota .tc ⟨2, ![a, b]⟩ 32 [0] h (ix2 i j) = BitVec.ofNat 32 i.val :=
  iota_single_apply .tc ⟨2, ![a, b]⟩ 32 0 h (ix2 i j)

/-- The column counter of a rank-2 block reads the column at every entry. -/
theorem iota1_apply {a b : ℕ} (h : (⟨2, ![a, b]⟩ : Shape).Iotas .tc 32 [1]) (i : Fin a) (j : Fin b) :
    iota .tc ⟨2, ![a, b]⟩ 32 [1] h (ix2 i j) = BitVec.ofNat 32 j.val :=
  iota_single_apply .tc ⟨2, ![a, b]⟩ 32 1 h (ix2 i j)

end Cert.KernelIdeal.Hand

end
-- ==== Proof.KI.DisStep.lean ====
/-
  One grid point of the similarity kernel, as a function of what it reads.

  At grid point (i, j) the body holds a block x0 of 128 samples and a block x1 of 64 samples, each sample a 16 × 64
  table (component, feature), and a 128 × 64 accumulator acc. It forms, for every pair (il, jj) of a sample of the
  first block and a sample of the second and every feature o,

      l1(il, jj, o)  = ((((0 + |d 0|) + |d 1|) + …) + |d 15|),   d k = x0[il, k, o] − x1[jj, k, o],
      sim(il, jj, o) = exp (0 − l1(il, jj, o)),

  multiplies it by the factor that leaves out the pair of a sample with itself, 1 when the global row
  128·i + il differs from the global column 64·j + jj and 0 when they agree (compared as 32-bit words, turned into a
  float), sums over jj and adds the sum to acc.

  `simBlock` and `stepVal` are that computation for any float interpretation, written over the body's own values:
  the sixteen slices of each block along the component axis, each slice of the first block laid along the second
  axis of a 128 × 64 × 64 array and each slice of the second along the first axis. `stepVal_apply` reads the result
  at an entry (il, o) over the extended reals, where every operation is exact: the accumulator's entry plus the
  finite sum over jj of exp (−Σₖ max (d k) (−d k)) times the factor. Addition on the extended reals is commutative and
  associative, so the left-nested sum of sixteen terms from zero is the sum over the sixteen components; nothing needs
  to be finite.
-/
import proofs.«175630_j33517924778715_1_alg».proof.Proof.Gen.KernelIdeal.Skeleton
import proofs.«175630_j33517924778715_1_alg».proof.Proof.Spec
import proofs.«175630_j33517924778715_1_alg».proof.Proof.KI.DisStep.Index
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx
open scoped BigOperators

variable {F : FTy → Type} [FloatOps F]

/-! ## The step as a function, for any float interpretation -/

/-- Component `K` of the first block's 128 samples: the `[128, 1, 64]` slice of the `[128, 16, 64]` block at
    coordinate `K` of the component axis. -/
def rowA (K : Fin 16) (x0 : Vec F S128x16x64 .f32) : Vec F S128x1x64 .f32 :=
  View.ld x0 (Rect.unit (s := S128x16x64) ![0, K.val, 0] S128x1x64.size (by
    intro a; match a with
    | ⟨0, _⟩ => exact Nat.le_refl _
    | ⟨1, _⟩ => show K.val + 1 ≤ 16; omega
    | ⟨2, _⟩ => exact Nat.le_refl _))

/-- Component `K` of the second block's 64 samples. -/
def rowB (K : Fin 16) (x1 : Vec F S64x16x64 .f32) : Vec F S64x1x64 .f32 :=
  View.ld x1 (Rect.unit (s := S64x16x64) ![0, K.val, 0] S64x1x64.size (by
    intro a; match a with
    | ⟨0, _⟩ => exact Nat.le_refl _
    | ⟨1, _⟩ => show K.val + 1 ≤ 16; omega
    | ⟨2, _⟩ => exact Nat.le_refl _))

/-- One component's term of the distance, as a `[128, 64, 64]` array: the absolute difference of the first block's
    slice laid along the second axis and the second block's slice laid along the first. -/
def absTerm (av : Vec F S128x1x64 .f32) (bv : Vec F S64x1x64 .f32) : FVec F S128x64x64 .f32 :=
  absf (subf
    (broadcastTo S128x64x64 (shapeCast S128x1x64 (shapeCast S128x64 av shapeCasts_S128x1x64_S128x64) shapeCasts_S128x64_S128x1x64) broadcasts_S128x1x64_S128x64x64)
    (broadcastTo S128x64x64 (shapeCast S1x64x64 (shapeCast S64x64 bv shapeCasts_S64x1x64_S64x64) shapeCasts_S64x64_S1x64x64) broadcasts_S1x64x64_S128x64x64))

/-- Sixteen arrays added one after the other to the zero array, from the left. -/
def l1Chain (t : Fin 16 → FVec F S128x64x64 .f32) : FVec F S128x64x64 .f32 :=
  addf (addf (addf (addf (addf (addf (addf (addf (addf (addf (addf (addf (addf (addf (addf (addf
    (broadcast S128x64x64 (Scalar.ofBits .f32 0x00000000#32)) (t 0)) (t 1)) (t 2)) (t 3)) (t 4)) (t 5)) (t 6)) (t 7)) (t 8)) (t 9)) (t 10)) (t 11)) (t 12)) (t 13)) (t 14)) (t 15)

/-- The similarities of the 128 × 64 pairs of samples in every feature, `exp (0 − l1)`, threaded through the body's
    values in the order the body forms them: the sixteen slices of `x0` and of `x1` along the component axis, read at
    offsets 0 … 15. -/
def simBlock (x0 : Vec F S128x16x64 .f32) (x1 : Vec F S64x16x64 .f32) : FVec F S128x64x64 .f32 :=
  k1_pay10 (k1_pay8 (k1_pay7 (k1_pay5 (k1_pay3 (View.ld x0 (Rect.unit (s := S128x16x64) ![0, 0, 0] S128x1x64.size inb_S128x16x64_S128x1x64_0_0_0)) (View.ld x1 (Rect.unit (s := S64x16x64) ![0, 0, 0] S64x1x64.size inb_S64x16x64_S64x1x64_0_0_0))
            (View.ld x0 (Rect.unit (s := S128x16x64) ![0, 1, 0] S128x1x64.size inb_S128x16x64_S128x1x64_0_1_0)) (View.ld x1 (Rect.unit (s := S64x16x64) ![0, 1, 0] S64x1x64.size inb_S64x16x64_S64x1x64_0_1_0)))
          (k1_pay4 (View.ld x0 (Rect.unit (s := S128x16x64) ![0, 2, 0] S128x1x64.size inb_S128x16x64_S128x1x64_0_2_0)) (View.ld x1 (Rect.unit (s := S64x16x64) ![0, 2, 0] S64x1x64.size inb_S64x16x64_S64x1x64_0_2_0)))
          (View.ld x0 (Rect.unit (s := S128x16x64) ![0, 3, 0] S128x1x64.size inb_S128x16x64_S128x1x64_0_3_0)) (View.ld x1 (Rect.unit (s := S64x16x64) ![0, 3, 0] S64x1x64.size inb_S64x16x64_S64x1x64_0_3_0))
          (View.ld x0 (Rect.unit (s := S128x16x64) ![0, 4, 0] S128x1x64.size inb_S128x16x64_S128x1x64_0_4_0)) (View.ld x1 (Rect.unit (s := S64x16x64) ![0, 4, 0] S64x1x64.size inb_S64x16x64_S64x1x64_0_4_0))
          (View.ld x0 (Rect.unit (s := S128x16x64) ![0, 5, 0] S128x1x64.size inb_S128x16x64_S128x1x64_0_5_0)) (View.ld x1 (Rect.unit (s := S64x16x64) ![0, 5, 0] S64x1x64.size inb_S64x16x64_S64x1x64_0_5_0)))
        (k1_pay6 (View.ld x0 (Rect.unit (s := S128x16x64) ![0, 6, 0] S128x1x64.size inb_S128x16x64_S128x1x64_0_6_0))) (View.ld x1 (Rect.unit (s := S64x16x64) ![0, 6, 0] S64x1x64.size inb_S64x16x64_S64x1x64_0_6_0))
        (View.ld x0 (Rect.unit (s := S128x16x64) ![0, 7, 0] S128x1x64.size inb_S128x16x64_S128x1x64_0_7_0)) (View.ld x1 (Rect.unit (s := S64x16x64) ![0, 7, 0] S64x1x64.size inb_S64x16x64_S64x1x64_0_7_0))
        (View.ld x0 (Rect.unit (s := S128x16x64) ![0, 8, 0] S128x1x64.size inb_S128x16x64_S128x1x64_0_8_0)) (View.ld x1 (Rect.unit (s := S64x16x64) ![0, 8, 0] S64x1x64.size inb_S64x16x64_S64x1x64_0_8_0))
        (View.ld x0 (Rect.unit (s := S128x16x64) ![0, 9, 0] S128x1x64.size inb_S128x16x64_S128x1x64_0_9_0)) (View.ld x1 (Rect.unit (s := S64x16x64) ![0, 9, 0] S64x1x64.size inb_S64x16x64_S64x1x64_0_9_0)))
      (View.ld x0 (Rect.unit (s := S128x16x64) ![0, 10, 0] S128x1x64.size inb_S128x16x64_S128x1x64_0_10_0)) (View.ld x1 (Rect.unit (s := S64x16x64) ![0, 10, 0] S64x1x64.size inb_S64x16x64_S64x1x64_0_10_0))
      (View.ld x0 (Rect.unit (s := S128x16x64) ![0, 11, 0] S128x1x64.size inb_S128x16x64_S128x1x64_0_11_0)) (View.ld x1 (Rect.unit (s := S64x16x64) ![0, 11, 0] S64x1x64.size inb_S64x16x64_S64x1x64_0_11_0))
      (View.ld x0 (Rect.unit (s := S128x16x64) ![0, 12, 0] S128x1x64.size inb_S128x16x64_S128x1x64_0_12_0)) (View.ld x1 (Rect.unit (s := S64x16x64) ![0, 12, 0] S64x1x64.size inb_S64x16x64_S64x1x64_0_12_0)))
    (k1_pay9 (View.ld x0 (Rect.unit (s := S128x16x64) ![0, 13, 0] S128x1x64.size inb_S128x16x64_S128x1x64_0_13_0))) (View.ld x1 (Rect.unit (s := S64x16x64) ![0, 13, 0] S64x1x64.size inb_S64x16x64_S64x1x64_0_13_0))
    (View.ld x0 (Rect.unit (s := S128x16x64) ![0, 14, 0] S128x1x64.size inb_S128x16x64_S128x1x64_0_14_0)) (View.ld x1 (Rect.unit (s := S64x16x64) ![0, 14, 0] S64x1x64.size inb_S64x16x64_S64x1x64_0_14_0))
    (View.ld x0 (Rect.unit (s := S128x16x64) ![0, 15, 0] S128x1x64.size inb_S128x16x64_S128x1x64_0_15_0)) (View.ld x1 (Rect.unit (s := S64x16x64) ![0, 15, 0] S64x1x64.size inb_S64x16x64_S64x1x64_0_15_0))

/-- What one grid point leaves in the accumulator: the accumulator as found plus, summed over the second block's
    samples, the similarities times the factor that leaves out a sample paired with itself; `g0`, `g1` are the grid
    point's two coordinates as words. -/
def stepVal (g0 g1 : BitVec 32) (x0 : Vec F S128x16x64 .f32) (x1 : Vec F S64x16x64 .f32) (acc : Vec F S128x64 .f32) :
    FVec F S128x64 .f32 :=
  k1_pay1 (simBlock x0 x1) (k1_pay11 (F := F) g0 g1) acc

/-- The similarities are `exp (0 − l1)` with `l1` the sixteen components' terms added from the left to zero: the same
    term, the slices named by their component. -/
theorem simBlock_eq (x0 : Vec F S128x16x64 .f32) (x1 : Vec F S64x16x64 .f32) :
    simBlock x0 x1
      = exp (subf (broadcast S128x64x64 (Scalar.ofBits .f32 0x00000000#32)) (l1Chain fun K => absTerm (rowA K x0) (rowB K x1))) := rfl

/-! ## The step read at an index, over the extended reals -/

section AtIdeal

/-- An absolute value at an index: on the extended reals `|x| = max x (−x)`. -/
theorem absf_apply {s : Shape} {φ : FTy} (v : FVec Ideal s φ) (i : s.Idx) : absf v i = max (v i) (-(v i)) := rfl
/-- An exponential at an index. -/
theorem exp_apply {s : Shape} {φ : FTy} (v : FVec Ideal s φ) (i : s.Idx) : exp v i = Ideal.exp (v i) := rfl

/-- Component `K`'s slice of the first block at `(il, u, o)` is the block at `(il, K, o)`. -/
theorem rowA_apply (K : Fin 16) (x0 : Vec Ideal S128x16x64 .f32) (il : Fin 128) (u : Fin 1) (o : Fin 64) :
    rowA K x0 (ix3 il u o) = x0 (ix3 il K o) :=
  ld_axis1_apply K.val x0 _ il u o K rfl

/-- Component `K`'s slice of the second block at `(jj, u, o)` is the block at `(jj, K, o)`. -/
theorem rowB_apply (K : Fin 16) (x1 : Vec Ideal S64x16x64 .f32) (jj : Fin 64) (u : Fin 1) (o : Fin 64) :
    rowB K x1 (ix3 jj u o) = x1 (ix3 jj K o) :=
  ld_axis1_apply K.val x1 _ jj u o K rfl

/-- One component's term at `(il, jj, o)`: `max d (−d)` with `d` the first slice at `(il, 0, o)` minus the second at
    `(jj, 0, o)`. The first slice goes `[128, 1, 64] → [128, 64] → [128, 1, 64]` and along the second axis, the second
    `[64, 1, 64] → [64, 64] → [1, 64, 64]` and along the first. -/
theorem absTerm_apply (av : Vec Ideal S128x1x64 .f32) (bv : Vec Ideal S64x1x64 .f32) (il : Fin 128) (jj : Fin 64) (o : Fin 64) :
    absTerm av bv (ix3 il jj o)
      = max (av (ix3 il (0 : Fin 1) o) - bv (ix3 jj (0 : Fin 1) o)) (-(av (ix3 il (0 : Fin 1) o) - bv (ix3 jj (0 : Fin 1) o))) := by
  have ha : broadcastTo S128x64x64 (shapeCast S128x1x64 (shapeCast S128x64 av shapeCasts_S128x1x64_S128x64) shapeCasts_S128x64_S128x1x64)
      broadcasts_S128x1x64_S128x64x64 (ix3 il jj o) = av (ix3 il (0 : Fin 1) o) :=
    (bcast_a1c_abc_apply _ _ il jj o).trans ((cast_ac_a1c_apply _ _ il 0 o).trans (cast_a1c_ac_apply av _ il o))
  have hb : broadcastTo S128x64x64 (shapeCast S1x64x64 (shapeCast S64x64 bv shapeCasts_S64x1x64_S64x64) shapeCasts_S64x64_S1x64x64)
      broadcasts_S1x64x64_S128x64x64 (ix3 il jj o) = bv (ix3 jj (0 : Fin 1) o) :=
    (bcast_1bc_abc_apply _ _ il jj o).trans ((shapeCast_ab_1ab_apply _ _ 0 jj o).trans (cast_a1c_ac_apply bv _ jj o))
  unfold absTerm
  rw [absf_apply, subf_apply, ha, hb]

/-- The left-nested sum of sixteen arrays from the zero array is, at every index, the sum over the sixteen of their
    entries there: the zero word is the extended real 0. -/
theorem l1Chain_apply (t : Fin 16 → FVec Ideal S128x64x64 .f32) (i : S128x64x64.Idx) :
    l1Chain t i = ∑ K : Fin 16, t K i := by
  show Ideal.ofBits .f32 0x00000000#32 + t 0 i + t 1 i + t 2 i + t 3 i + t 4 i + t 5 i + t 6 i + t 7 i + t 8 i + t 9 i + t 10 i + t 11 i + t 12 i + t 13 i + t 14 i + t 15 i = _
  rw [Ideal.ofBits_zero_f32]
  exact chain16 fun K => t K i

/-- The similarity of samples `il` and `jj` in feature `o`: `exp` of minus the L1 distance over the sixteen components
    (`0 − l = −l`). -/
theorem simBlock_apply (x0 : Vec Ideal S128x16x64 .f32) (x1 : Vec Ideal S64x16x64 .f32) (il : Fin 128) (jj : Fin 64) (o : Fin 64) :
    simBlock x0 x1 (ix3 il jj o)
      = Ideal.exp (-(∑ k : Fin 16, max (x0 (ix3 il k o) - x1 (ix3 jj k o)) (-(x0 (ix3 il k o) - x1 (ix3 jj k o))))) := by
  rw [simBlock_eq]
  show Ideal.exp (Ideal.ofBits .f32 0x00000000#32 - l1Chain (fun K => absTerm (rowA K x0) (rowB K x1)) (ix3 il jj o)) = _
  rw [Ideal.ofBits_zero_f32, zero_sub, l1Chain_apply]
  refine congrArg (fun s => Ideal.exp (-s)) (Finset.sum_congr rfl fun K _ => ?_)
  rw [absTerm_apply, rowA_apply, rowB_apply]

/-- The factor at `(il, jj, u)` for the grid point `(ib, jb)`: 0 when row `128·ib + il` is column `64·jb + jj`, 1
    otherwise. Rows and columns are below 512, so their 32-bit words differ exactly when they do. -/
theorem pay11_apply (ib : Fin 4) (jb : Fin 8) (il : Fin 128) (jj : Fin 64) (u : Fin 1) :
    k1_pay11 (F := Ideal) (BitVec.ofNat 32 ib.val) (BitVec.ofNat 32 jb.val) (ix3 il jj u)
      = if ib.val * 128 + il.val = jb.val * 64 + jj.val then (0 : EReal) else 1 := by
  unfold k1_pay11
  refine (cast_ab_ab1_apply _ _ il jj u).trans ?_
  show FloatOps.sitofp (F := Ideal) .f32
      ((IntOp.cmpi .ne
        (IntOp.addi (Scalar.muli (BitVec.ofNat 32 ib.val) (BitVec.ofNat 32 128)) (iota .tc S128x64 32 [0] iota_S128x64_d0_w32 (ix2 il jj)))
        (IntOp.addi (Scalar.muli (BitVec.ofNat 32 jb.val) (BitVec.ofNat 32 64)) (iota .tc S128x64 32 [1] iota_S128x64_d1_w32 (ix2 il jj)))).setWidth 32) = _
  rw [iota0_apply, iota1_apply, word_row, word_row,
    cmpi_ne_ofNat _ _ (by have := ib.isLt; have := il.isLt; omega) (by have := jb.isLt; have := jj.isLt; omega)]
  exact sitofp_bit _

/-- The closing value at `(il, o)` for any similarities `sim` and factor `m`: the accumulator's entry plus the sum over
    the 64 samples `jj` of `sim (il, jj, o) · m (il, jj, 0)`. The factor is laid along the last axis; the sum over the
    middle axis is the finite sum over its coordinates; the closing cast keeps the shape. -/
theorem pay1_apply (sim : FVec Ideal S128x64x64 .f32) (m : FVec Ideal S128x64x1 .f32) (acc : Vec Ideal S128x64 .f32)
    (il : Fin 128) (o : Fin 64) :
    k1_pay1 sim m acc (ix2 il o) = acc (ix2 il o) + ∑ jj : Fin 64, sim (ix3 il jj o) * m (ix3 il jj (0 : Fin 1)) := by
  unfold k1_pay1
  rw [shapeCast_self]
  refine (addf_apply _ _ (ix2 il o)).trans (congrArg (acc (ix2 il o) + ·) ?_)
  refine (Ideal.multiReduction_add_single _ _ reduces_S128x64x64_S128x64 _ _ (ix2 il o)).trans ?_
  have key : ∀ jj : Fin 64, mulf sim (broadcastTo S128x64x64 m broadcasts_S128x64x1_S128x64x64)
      (reduces_S128x64x64_S128x64.lift (ix2 il o) jj) = sim (ix3 il jj o) * m (ix3 il jj (0 : Fin 1)) := by
    intro jj
    rw [lift_axis1 reduces_S128x64x64_S128x64 il o jj, mulf_apply, bcast_ab1_abc_apply]
  exact Finset.sum_congr rfl fun jj _ => key jj

/-- ONE GRID POINT AT AN ENTRY. At grid point `(ib, jb)` the accumulator's entry `(il, o)` gains, for each of the 64
    samples `jj` of the second block, `exp` of minus the L1 distance between sample `il` of the first block and sample
    `jj` of the second in feature `o`, left out when global row `128·ib + il` is global column `64·jb + jj`. -/
theorem stepVal_apply (ib : Fin 4) (jb : Fin 8) (x0 : Vec Ideal S128x16x64 .f32) (x1 : Vec Ideal S64x16x64 .f32)
    (acc : Vec Ideal S128x64 .f32) (il : Fin 128) (o : Fin 64) :
    stepVal (F := Ideal) (BitVec.ofNat 32 ib.val) (BitVec.ofNat 32 jb.val) x0 x1 acc (ix2 il o)
      = acc (ix2 il o) + ∑ jj : Fin 64,
          Ideal.exp (-(∑ k : Fin 16, max (x0 (ix3 il k o) - x1 (ix3 jj k o)) (-(x0 (ix3 il k o) - x1 (ix3 jj k o)))))
            * (if ib.val * 128 + il.val = jb.val * 64 + jj.val then (0 : EReal) else 1) := by
  unfold stepVal
  refine (pay1_apply _ _ acc il o).trans (congrArg (acc (ix2 il o) + ·) ?_)
  refine Finset.sum_congr rfl fun jj _ => ?_
  rw [simBlock_apply, pay11_apply]

end AtIdeal

end Cert.KernelIdeal.Hand

end
-- ==== Proof.KI.DisPieces.lean ====
/-
  The second call's body, case by case: what the pieces its stores leave ARE, as functions of what it loads.

  At a point with grid coordinates (g0, g1) the body forms from the two input blocks x0 (128 samples) and x1 (64
  samples) the similarities of every sample of the first with every sample of the second, feature by feature, masks
  out the pairs that are one and the same sample (a function of g0, g1 alone), sums over the 64 samples and adds the
  result to the accumulator: one update stepVal g0 g1 x0 x1 acc of the accumulator's contents acc. Every store of
  the body is over a whole 128 × 64 buffer, so what a buffer holds afterwards is the payload of the last store into it,
  and a load of a buffer after a store into it reads that store's payload. Hence:
  * first point of a sweep: the accumulator is left at the update of the zero block (the reset's payload);
  * inside a sweep and at its last point: at the update of what the point before left;
  * at the last point the output block is left at what the accumulator is left at.
-/
import proofs.«175630_j33517924778715_1_alg».proof.Proof.KI.Dis.Frame
import proofs.«175630_j33517924778715_1_alg».proof.Proof.KI.DisStep
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a 128 × 64 buffer, however spelt. -/
theorem zeros2 : (![0, 0] : Fin 2 → Nat) = fun _ => 0 := funext fun a => by fin_cases a <;> rfl

/-- First point of a sweep. The accumulator's pieces are, last first, the update and the reset, both over the whole
    buffer; the update's payload reads the accumulator back through the reset alone, that is, at zero. So the accumulator
    is left at one update of the zero block. -/
theorem sout1_A_0_eq (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : isFirst i) (hc1 : ¬isLast i)
    (x0 : Vec F S128x16x64 .f32) (x1 : Vec F S64x16x64 .f32) :
    sout1_A_0 c i arg2 harg2 arg3 harg3 arg4 harg4 arg5 harg5 hc0 hc1 x0 x1 = stepVal (BitVec.ofNat 32 (i 0).val) (BitVec.ofNat 32 (i 1).val) x0 x1 (k1_pay2 (F := F)) := by
  unfold sout1_A_0
  rw [View.read_writes_eq_canon _ _ _ (scover1_A_0 c i arg2 harg2 arg3 harg3 arg4 harg4 arg5 harg5 hc0 hc1 x0 x1)]
  unfold kernelRun1_A; dsimp only; sl_unfold_words; (try dsimp only)
  rw [View.canon_cons_unit_zero (S := S128x64) zeros2]
  simp only [View.readAt_eq_ld, harg2.read_unread, harg3.read_unread, View.readCov_unit_zero (S := S128x64) _ zeros2]
  rfl

/-- Inside a sweep. The accumulator's one piece, over the whole buffer, is the update of what the buffer held. -/
theorem sout1_B_0_eq (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : ¬isLast i)
    (x0 : Vec F S128x16x64 .f32) (x1 : Vec F S64x16x64 .f32) (xs0 : Vec F S128x64 .f32) :
    sout1_B_0 c i arg2 harg2 arg3 harg3 arg4 harg4 arg5 harg5 hc0 hc1 x0 x1 xs0 = stepVal (BitVec.ofNat 32 (i 0).val) (BitVec.ofNat 32 (i 1).val) x0 x1 xs0 := by
  unfold sout1_B_0
  rw [View.read_writes_eq_canon _ _ _ (scover1_B_0 c i arg2 harg2 arg3 harg3 arg4 harg4 arg5 harg5 hc0 hc1 x0 x1 xs0)]
  unfold kernelRun1_B; dsimp only; sl_unfold_words; (try dsimp only)
  rw [View.canon_unit_zero (S := S128x64) zeros2]
  simp only [View.readAt_eq_ld, harg2.read_unread, harg3.read_unread, harg5.read_unread, View.ld_unit_zero (S := S128x64) zeros2]
  rfl

/-- Last point of a sweep: the accumulator, as inside a sweep. -/
theorem sout1_C_0_eq (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : isLast i)
    (x0 : Vec F S128x16x64 .f32) (x1 : Vec F S64x16x64 .f32) (xs0 : Vec F S128x64 .f32) :
    sout1_C_0 c i arg2 harg2 arg3 harg3 arg4 harg4 arg5 harg5 hc0 hc1 x0 x1 xs0 = stepVal (BitVec.ofNat 32 (i 0).val) (BitVec.ofNat 32 (i 1).val) x0 x1 xs0 := by
  unfold sout1_C_0
  rw [View.read_writes_eq_canon _ _ _ (scover1_C_0 c i arg2 harg2 arg3 harg3 arg4 harg4 arg5 harg5 hc0 hc1 x0 x1 xs0)]
  unfold kernelRun1_C; dsimp only; sl_unfold_words; (try dsimp only)
  rw [View.canon_unit_zero (S := S128x64) zeros2]
  simp only [View.readAt_eq_ld, harg2.read_unread, harg3.read_unread, harg5.read_unread, View.ld_unit_zero (S := S128x64) zeros2]
  rfl

/-- Last point of a sweep: the output block. Its one piece, over the whole block, is the accumulator read back through
    the update just stored: the same update of what the accumulator held. -/
theorem out1_C_2_eq (c : Dev nD) (i : grid1.Coords) (arg2 : Memref sig .tc .vmem S128x16x64 .f32) (harg2 : arg2.IsWhole) (arg3 : Memref sig .tc .vmem S64x16x64 .f32) (harg3 : arg3.IsWhole) (arg4 : Memref sig .tc .vmem S128x64 .f32) (harg4 : arg4.IsWhole) (arg5 : Memref sig .tc .vmem S128x64 .f32) (harg5 : arg5.IsWhole) (hc0 : ¬isFirst i) (hc1 : isLast i)
    (x0 : Vec F S128x16x64 .f32) (x1 : Vec F S64x16x64 .f32) (xs0 : Vec F S128x64 .f32) :
    out1_C_2 c i arg2 harg2 arg3 harg3 arg4 harg4 arg5 harg5 hc0 hc1 x0 x1 xs0 = stepVal (BitVec.ofNat 32 (i 0).val) (BitVec.ofNat 32 (i 1).val) x0 x1 xs0 := by
  unfold out1_C_2
  rw [View.read_writes_eq_canon _ _ _ (cover1_C_2 c i arg2 harg2 arg3 harg3 arg4 harg4 arg5 harg5 hc0 hc1 x0 x1 xs0)]
  unfold kernelRun1_C; dsimp only; sl_unfold_words; (try dsimp only)
  rw [View.canon_unit_zero (S := S128x64) zeros2]
  simp only [View.readAt_eq_ld, harg2.read_unread, harg3.read_unread, harg5.read_unread, View.readCov_unit_zero (S := S128x64) _ zeros2, View.ld_unit_zero (S := S128x64) zeros2]
  rfl

end Cert.KernelIdeal.Hand

end
-- ==== Proof.KI.DisBlocks.lean ====
/-
  The similarity kernel's blocks and its output array, as values over the extended reals.

  The second kernel region runs a grid of 4 × 8 points, point t being (ib, jb) = (t / 8, t % 8). At point t the first
  input window holds rows 128·ib … 128·ib + 127 of the sample array (all 16 components, all 64 features), the second
  input window rows 64·jb … 64·jb + 63 of the same array, and the output window is rows 128·ib … 128·ib + 127 of the
  result array, written back exactly at the last point of each sweep (jb = 7). So: an entry of an input block is an
  entry of the sample array at the block's row offset; and if at every write-back point the output block holds, at
  (il, o), a function G of the array index (128·ib + il, o), then after the region the result array is G, because the
  four write-back points' row blocks cover all 512 rows (row r lies in the block of the sweep r / 128).
-/
import proofs.«175630_j33517924778715_1_alg».proof.Proof.KI.Dis.Frame
import proofs.«175630_j33517924778715_1_alg».proof.Proof.KI.DisSum
import proofs.«175630_j33517924778715_1_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The grid's points and the index maps, decided once over the 32 points -/

/-- Point t of the 4 × 8 grid, in the order the points are run, has coordinates (t / 8, t % 8). -/
theorem coords1 : ∀ t : Fin cfg1.N, ((grid1.coords t) (0 : Fin 2)).val = t.val / 8 ∧ ((grid1.coords t) (1 : Fin 2)).val = t.val % 8 :=
  (by decide +kernel : ∀ t : Fin grid1.N, ((grid1.coords t) (0 : Fin 2)).val = t.val / 8 ∧ ((grid1.coords t) (1 : Fin 2)).val = t.val % 8)

/-- At point t the first input's block index is (t / 8, 0, 0), the second input's (t % 8, 0, 0), the output's
    (t / 8, 0). -/
theorem idx_facts1 : ∀ t : Fin cfg1.N,
    win1_0.index t (0 : Fin 3) = t.val / 8 ∧ win1_0.index t (1 : Fin 3) = 0 ∧ win1_0.index t (2 : Fin 3) = 0
    ∧ win1_1.index t (0 : Fin 3) = t.val % 8 ∧ win1_1.index t (1 : Fin 3) = 0 ∧ win1_1.index t (2 : Fin 3) = 0
    ∧ win1_2.index t (0 : Fin 2) = t.val / 8 ∧ win1_2.index t (1 : Fin 2) = 0 :=
  (by decide +kernel : ∀ t : Fin grid1.N, _)

/-- A point's position is below 32. -/
theorem point1_lt_32 (t : Fin cfg1.N) : t.val < 32 := by
  have h : t.val < grid1.N := t.isLt
  rw [N_1] at h
  exact h

/-- The row block of point t: t / 8. -/
def ibOf (t : Fin cfg1.N) : Fin 4 := ⟨t.val / 8, by have := point1_lt_32 t; omega⟩

/-- The column block of point t: t % 8. -/
def jbOf (t : Fin cfg1.N) : Fin 8 := ⟨t.val % 8, by omega⟩

variable (V : (c : Dev nD) → (b : Ref sig .tc) → Buf (Elt Ideal) ((c : Thread nD τ).loc b))

/-! ## Each input block as entries of the sample array -/

/-- The first input's block at point t, at (il, k, o), is the sample array at (128·ib + il, k, o). -/
theorem blk1_0_apply (c : Dev nD) (t : Fin cfg1.N) (il : Fin 128) (k : Fin 16) (o : Fin 64) :
    (blk1 V c 0 t : S128x16x64.Idx → EReal) (ix3 il k o) = (V c main_v2 : S512x16x64.Idx → EReal) (ix3 (row (ibOf t) il) k o) := by
  obtain ⟨e0, e1, e2, -, -, -, -, -⟩ := idx_facts1 t
  unfold blk1
  rw [View.read_apply]
  show (V c main_v2 : S512x16x64.Idx → EReal) _ = _
  congr 1
  funext a
  apply Fin.ext
  match a with
  | ⟨0, _⟩ => show win1_0.index t (0 : Fin 3) * 128 + 1 * il.val = t.val / 8 * 128 + il.val; rw [e0]; omega
  | ⟨1, _⟩ => show win1_0.index t (1 : Fin 3) * 16 + 1 * k.val = k.val; rw [e1]; omega
  | ⟨2, _⟩ => show win1_0.index t (2 : Fin 3) * 64 + 1 * o.val = o.val; rw [e2]; omega

/-- The second input's block at point t, at (jj, k, o), is the sample array at (64·jb + jj, k, o). -/
theorem blk1_1_apply (c : Dev nD) (t : Fin cfg1.N) (jj : Fin 64) (k : Fin 16) (o : Fin 64) :
    (blk1 V c 1 t : S64x16x64.Idx → EReal) (ix3 jj k o) = (V c main_v2 : S512x16x64.Idx → EReal) (ix3 (colj (jbOf t) jj) k o) := by
  obtain ⟨-, -, -, e0, e1, e2, -, -⟩ := idx_facts1 t
  unfold blk1
  rw [View.read_apply]
  show (V c main_v2 : S512x16x64.Idx → EReal) _ = _
  congr 1
  funext a
  apply Fin.ext
  match a with
  | ⟨0, _⟩ => show win1_1.index t (0 : Fin 3) * 64 + 1 * jj.val = t.val % 8 * 64 + jj.val; rw [e0]; omega
  | ⟨1, _⟩ => show win1_1.index t (1 : Fin 3) * 16 + 1 * k.val = k.val; rw [e1]; omega
  | ⟨2, _⟩ => show win1_1.index t (2 : Fin 3) * 64 + 1 * o.val = o.val; rw [e2]; omega

/-! ## What a write-back point writes back -/

/-- If at every last point of a sweep the output block holds G at the array index under each of its entries, then what
    such a point writes back is its block of G. -/
theorem flushed1_2_eq (c : Dev nD) (G : Cert.Spec.SO.Idx → EReal)
    (hfl : ∀ t : Fin cfg1.N, t.val % 8 = 7 → ∀ (il : Fin 128) (o : Fin 64),
      (outsAt1 V c t.val t.isLt).1 (ix2 il o) = G (ix2 (row (ibOf t) il) o))
    (t : Fin cfg1.N) (hf : (cfg1.win 2).flush t = true) :
    (dat1 V c).flushed 2 t = ((cfg1.win 2).blk t).view.read (Elt Ideal) G := by
  have ht : t.val % 8 = 7 := (flush1_2 t).mp hf
  show (cfg1.win 2).cut (grid1.coords t) ((dat1 V c).after 2 t) = _
  rw [after1_2]
  obtain ⟨-, -, -, -, -, -, e0, e1⟩ := idx_facts1 t
  refine funext fun (j : S128x64.Idx) => ?_
  show (outsAt1 V c t.val t.isLt).1 j = G (((cfg1.win 2).blk t).view.emb j)
  refine ((congrArg (outsAt1 V c t.val t.isLt).1 (eq_ix2 (n0 := 128) (n1 := 64) j)).trans (hfl t ht (j 0) (j 1))).trans
    (congrArg G (funext fun a => Fin.ext ?_))
  match a with
  | ⟨0, _⟩ => show t.val / 8 * 128 + (j 0).val = win1_2.index t (0 : Fin 2) * 128 + 1 * (j 0).val; rw [e0]; omega
  | ⟨1, _⟩ => show (j 1).val = win1_2.index t (1 : Fin 2) * 64 + 1 * (j 1).val; rw [e1]; omega

/-! ## The write-back points' blocks cover the result array -/

/-- An index of the result array is in point t's block iff each coordinate is in the block's range on its axis. -/
theorem mem_blk1_2 (t : Fin cfg1.N) (i : S512x64.Idx) :
    i ∈ ((cfg1.win 2).blk t).view.set ↔ ∀ a : Fin 2, win1_2.index t a * S128x64.size a ≤ (i a).val ∧ (i a).val < win1_2.index t a * S128x64.size a + S128x64.size a := by
  show i ∈ ((View.whole main_v3).slice (win1_2.rect t)).set ↔ _
  rw [View.set_slice_whole, Rect.mem_set_unit]
  exact Iff.rfl

/-- Every row block is some write-back point's: block q is written back at the last point of sweep q. -/
theorem idx_onto1_2 : ∀ q : Fin 4, ∃ t : Fin cfg1.N, (cfg1.win 2).flush t = true ∧ win1_2.index t = ![q.val, 0] :=
  (by decide +kernel : ∀ q : Fin 4, ∃ t : Fin grid1.N, win1_2.flush t = true ∧ win1_2.index t = ![q.val, 0])

/-- Every index of the result array is in the block of the write-back point that covers its row. -/
theorem cover1_arr (i : S512x64.Idx) :
    ∃ t : Fin cfg1.N, (cfg1.win 2).flush t = true ∧ i ∈ ((cfg1.win 2).blk t).view.set := by
  have hi0 : (i 0).val < 512 := (i 0).isLt
  have hi1 : (i 1).val < 64 := (i 1).isLt
  obtain ⟨t, hf, ht⟩ := idx_onto1_2 ⟨(i 0).val / 128, by omega⟩
  have q0 : win1_2.index t (0 : Fin 2) = (i 0).val / 128 := congrFun ht 0
  have q1 : win1_2.index t (1 : Fin 2) = 0 := congrFun ht 1
  refine ⟨t, hf, ?_⟩
  rw [mem_blk1_2]
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 64 ≤ (i 1).val ∧ (i 1).val < win1_2.index t (1 : Fin 2) * 64 + 64; omega

/-! ## The result array after the region -/

/-- If at every last point of a sweep the output block holds G at the array index under each of its entries, the result
    array after the region's write-backs is G. -/
theorem arr1_of_flushed (c : Dev nD) (G : Cert.Spec.SO.Idx → EReal)
    (hfl : ∀ t : Fin cfg1.N, t.val % 8 = 7 → ∀ (il : Fin 128) (o : Fin 64),
      (outsAt1 V c t.val t.isLt).1 (ix2 il o) = G (ix2 (row (ibOf t) il) o)) :
    (dat1 V c).arrAt 2 cfg1.N = G :=
  (dat1 V c).arrAt_eq_of_cover 2 G (fun t hf => flushed1_2_eq V c G hfl t hf) cover1_arr

end Cert.KernelIdeal.Hand

end
-- ==== Proof.KI.DisValue.lean ====
/-
  The similarity call's result array, as a value over the extended reals.

  The call's grid is 4 × 8; position t = 8·ib + jb handles the block of 128 samples i = 128·ib + il against the block of
  64 samples j = 64·jb + jj. At every position the body adds to its accumulator, at (il, o), the block sum over jj of
  exp(−dist i j o) · excl i j; the accumulator starts from the zero splat at jb = 0. So after position 8·ib + jb the
  accumulator holds, at (il, o), the running total of the block sums 0, …, jb of sample 128·ib + il in feature o: by
  induction on the position, the first position of a sweep starting from zero and every other one from what the
  position before left. At jb = 7 the output block holds the same function, and the running total after the last
  block is the specification's similarity; the four output blocks written back there cover the result array.
-/
import proofs.«175630_j33517924778715_1_alg».proof.Proof.KI.Dis.Frame
import proofs.«175630_j33517924778715_1_alg».proof.Proof.KI.DisSum
import proofs.«175630_j33517924778715_1_alg».proof.Proof.KI.DisStep
import proofs.«175630_j33517924778715_1_alg».proof.Proof.KI.DisPieces
import proofs.«175630_j33517924778715_1_alg».proof.Proof.KI.DisBlocks
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## One position's step, over the argument array -/

/-- The two input blocks at a position, named at their literal types. -/
abbrev ablk (c : Dev nD) (t : Fin cfg1.N) : Vec Ideal S128x16x64 .f32 := blk1 V c 0 t
abbrev bblk (c : Dev nD) (t : Fin cfg1.N) : Vec Ideal S64x16x64 .f32 := blk1 V c 1 t

/-- The value stored when the accumulator is reset is zero at every entry. -/
theorem pay2_apply (y : S128x64.Idx) : k1_pay2 (F := Ideal) y = 0 := by
  show Ideal.ofBits .f32 0x00000000#32 = 0
  exact Ideal.ofBits_zero_f32

/-- The step at position t adds to the accumulator, at (il, o), the block sum of column block t % 8 for the sample
    128·(t / 8) + il: the first block's entries are rows of the row block, the second's rows of the column block, the
    inner sum is the L1 distance and the 0/1 factor the self-exclusion factor. -/
theorem step_blocks (c : Dev nD) (t : Fin cfg1.N) (acc : Vec Ideal S128x64 .f32) (il : Fin 128) (o : Fin 64) :
    stepVal (F := Ideal) (BitVec.ofNat 32 ((grid1.coords t) (0 : Fin 2)).val) (BitVec.ofNat 32 ((grid1.coords t) (1 : Fin 2)).val)
        (ablk V c t) (bblk V c t) acc (ix2 il o)
      = acc (ix2 il o) + part (V c main_v2) (ibOf t) il o (jbOf t).val := by
  obtain ⟨e0, e1⟩ := coords1 t
  rw [e0, e1]
  refine (stepVal_apply (ibOf t) (jbOf t) (ablk V c t) (bblk V c t) acc il o).trans ?_
  refine congrArg (acc (ix2 il o) + ·) ?_
  rw [part_eq]
  refine Finset.sum_congr rfl fun jj _ => ?_
  rw [excl_iff]
  unfold term Cert.Spec.dist
  refine congrArg (fun s : EReal => Ideal.exp (-s) * Cert.Spec.excl (row (ibOf t) il) (colj (jbOf t) jj)) (Finset.sum_congr rfl fun k _ => ?_)
  rw [show ablk V c t (ix3 il k o) = V c main_v2 (ix3 (row (ibOf t) il) k o) from blk1_0_apply V c t il k o,
    show bblk V c t (ix3 jj k o) = V c main_v2 (ix3 (colj (jbOf t) jj) k o) from blk1_1_apply V c t jj k o]

/-! ## The running total, position by position -/

/-- One more column block: if the position before t (in the same sweep) left the running total up to its column
    block, the step at t leaves the running total up to t's. -/
theorem step_acc (c : Dev nD) (t : Fin cfg1.N) (h0 : ¬t.val % 8 = 0) (hlt : t.val - 1 < cfg1.N)
    (prev : Vec Ideal S128x64 .f32) (il : Fin 128) (o : Fin 64)
    (hprev : prev (ix2 il o) = accUpTo (V c main_v2) (ibOf ⟨t.val - 1, hlt⟩) il o ((t.val - 1) % 8)) :
    stepVal (F := Ideal) (BitVec.ofNat 32 ((grid1.coords t) (0 : Fin 2)).val) (BitVec.ofNat 32 ((grid1.coords t) (1 : Fin 2)).val)
        (ablk V c t) (bblk V c t) prev (ix2 il o)
      = accUpTo (V c main_v2) (ibOf t) il o (t.val % 8) := by
  rw [step_blocks, hprev]
  have hib : ibOf ⟨t.val - 1, hlt⟩ = ibOf t := Fin.ext (by show (t.val - 1) / 8 = t.val / 8; omega)
  obtain ⟨m, hm⟩ : ∃ m, t.val % 8 = m + 1 := ⟨t.val % 8 - 1, by omega⟩
  have hm' : (t.val - 1) % 8 = m := by omega
  show accUpTo (V c main_v2) (ibOf ⟨t.val - 1, hlt⟩) il o ((t.val - 1) % 8) + part (V c main_v2) (ibOf t) il o (t.val % 8) = _
  rw [hib, hm', hm]
  rfl

/-- THE INVARIANT. After position t the accumulator holds, at (il, o), the running total of the block sums
    0, …, t % 8 of sample 128·(t / 8) + il in feature o. By induction on the position: the first position of a sweep
    starts from the zero splat, every other from what the position before left. -/
theorem acc_inv (c : Dev nD) : ∀ (n : ℕ) (t : Fin cfg1.N), t.val = n → ∀ (il : Fin 128) (o : Fin 64),
    (outsAt1 V c t.val t.isLt).2 (ix2 il o) = accUpTo (V c main_v2) (ibOf t) il o (t.val % 8) := by
  intro n
  induction n using Nat.strong_induction_on with
  | _ n ih =>
    intro t ht il o
    by_cases h0 : t.val % 8 = 0
    · have h1 : ¬t.val % 8 = 7 := by omega
      rw [outsAt1_A V c t h0 h1]; dsimp only
      refine (congrFun (sout1_A_0_eq (F := Ideal) c (grid1.coords t) (ms1_0 t) (hs1_0 t) (ms1_1 t) (hs1_1 t) (ms1_2 t) (hs1_2 t) scM1_0 (Memref.isWhole_whole _) ((isFirst_iff t).mpr h0) (fun h => h1 ((isLast_iff t).mp h)) (blk1 V c 0 t) (blk1 V c 1 t)) (ix2 il o)).trans ?_
      refine (step_blocks V c t (k1_pay2 (F := Ideal)) il o).trans ?_
      rw [pay2_apply]
      show 0 + part (V c main_v2) (ibOf t) il o (t.val % 8) = accUpTo (V c main_v2) (ibOf t) il o (t.val % 8)
      rw [h0]
      rfl
    · have hlt : t.val - 1 < cfg1.N := Nat.lt_of_le_of_lt (Nat.sub_le _ _) t.isLt
      have hprev := ih (t.val - 1) (by omega) ⟨t.val - 1, hlt⟩ rfl il o
      by_cases h1 : t.val % 8 = 7
      · rw [outsAt1_C V c t h0 h1]; dsimp only
        refine (congrFun (sout1_C_0_eq (F := Ideal) c (grid1.coords t) (ms1_0 t) (hs1_0 t) (ms1_1 t) (hs1_1 t) (ms1_2 t) (hs1_2 t) scM1_0 (Memref.isWhole_whole _) (fun h => h0 ((isFirst_iff t).mp h)) ((isLast_iff t).mpr h1) (blk1 V c 0 t) (blk1 V c 1 t) (outsAt1 V c (t.val - 1) hlt).2) (ix2 il o)).trans ?_
        exact step_acc V c t h0 hlt _ il o hprev
      · rw [outsAt1_B V c t h0 h1]; dsimp only
        refine (congrFun (sout1_B_0_eq (F := Ideal) c (grid1.coords t) (ms1_0 t) (hs1_0 t) (ms1_1 t) (hs1_1 t) (ms1_2 t) (hs1_2 t) scM1_0 (Memref.isWhole_whole _) (fun h => h0 ((isFirst_iff t).mp h)) (fun h => h1 ((isLast_iff t).mp h)) (blk1 V c 0 t) (blk1 V c 1 t) (outsAt1 V c (t.val - 1) hlt).2) (ix2 il o)).trans ?_
        exact step_acc V c t h0 hlt _ il o hprev

/-! ## What the last position of a sweep leaves in the output block -/

/-- At t % 8 = 7 the output block holds, at (il, o), the specification's similarity of sample 128·(t / 8) + il in
    feature o: the same function as the accumulator, the running total after the last column block. -/
theorem out_last (c : Dev nD) (t : Fin cfg1.N) (h1 : t.val % 8 = 7) (il : Fin 128) (o : Fin 64) :
    (outsAt1 V c t.val t.isLt).1 (ix2 il o) = Cert.Spec.ob (V c main_v2) (ix2 (row (ibOf t) il) o) := by
  have h0 : ¬t.val % 8 = 0 := by omega
  have hlt : t.val - 1 < cfg1.N := Nat.lt_of_le_of_lt (Nat.sub_le _ _) t.isLt
  rw [outsAt1_C V c t h0 h1]; dsimp only
  refine (congrFun (out1_C_2_eq (F := Ideal) c (grid1.coords t) (ms1_0 t) (hs1_0 t) (ms1_1 t) (hs1_1 t) (ms1_2 t) (hs1_2 t) scM1_0 (Memref.isWhole_whole _) (fun h => h0 ((isFirst_iff t).mp h)) ((isLast_iff t).mpr h1) (blk1 V c 0 t) (blk1 V c 1 t) (outsAt1 V c (t.val - 1) hlt).2) (ix2 il o)).trans ?_
  refine (step_acc V c t h0 hlt _ il o (acc_inv V c (t.val - 1) ⟨t.val - 1, hlt⟩ rfl il o)).trans ?_
  rw [h1]
  exact accUpTo_seven (V c main_v2) (ibOf t) il o

/-! ## The array after the region -/

/-- The result array after the region's write-backs is the specification's similarity function of the array both
    input windows read. -/
theorem arr1_eq (c : Dev nD) : (dat1 V c).arrAt 2 cfg1.N = Cert.Spec.ob (V c main_v2) :=
  arr1_of_flushed V c (Cert.Spec.ob (V c main_v2)) (fun t ht il o => out_last V c t ht il o)

end Cert.KernelIdeal.Hand

end
-- ==== Proof.KI.Value.lean ====
/-
  The kernel program's result as a function of its two arguments, over the extended reals.

  The contents of the core's buffers are followed boundary by boundary. After the first region the product array
  holds the matrix product x · T of the two arguments. The reshape and the exchange of axes lay it out as
  (sample, component, feature). After the second region the similarity array holds, at (i, o), the sum over all
  samples j of exp(−dist i j o) times the self-exclusion factor, of that layout: the specification's function of x
  and T. The join puts it after x along the second axis. Neither region and no host operation writes the first
  argument, so x is still what was launched when it is joined.
-/
import proofs.«175630_j33517924778715_1_alg».proof.Proof.KI.Run
import proofs.«175630_j33517924778715_1_alg».proof.Proof.KI.Glue
import proofs.«175630_j33517924778715_1_alg».proof.Proof.KI.MatValue
import proofs.«175630_j33517924778715_1_alg».proof.Proof.KI.DisValue
import proofs.«175630_j33517924778715_1_alg».proof.Proof.Spec

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## The product array after the first region -/

/-- After the first region the product array is the matrix product of the two arguments as launched. -/
theorem W1_v0 (c : Dev nD) :
    W1 m c main_v0 = Cert.Spec.mm (m ((c.tc : Thread nD τ).loc main_arg0)) (m ((c.tc : Thread nD τ).loc main_arg1)) :=
  (W1_arr m c 2).trans (arr0_eq (E0 m) c)

/-! ## Its layout as (sample, component, feature) -/

/-- After the reshape and the exchange of axes the third array is that layout of the matrix product. -/
theorem W2_v2 (c : Dev nD) :
    W2 m c main_v2 = Cert.Spec.m3 (Cert.Spec.mm (m ((c.tc : Thread nD τ).loc main_arg0)) (m ((c.tc : Thread nD τ).loc main_arg1))) :=
  (after_ops1_v2 (W1 m c)).trans (congrArg Cert.Spec.m3 (W1_v0 m c))

/-! ## The similarity array after the second region -/

/-- After the second region the similarity array is the specification's function of the two arguments. -/
theorem W3_v3_value (c : Dev nD) :
    W3 m c main_v3 = Cert.Spec.OB (m ((c.tc : Thread nD τ).loc main_arg0)) (m ((c.tc : Thread nD τ).loc main_arg1)) :=
  (W3_v3 m c).trans ((arr1_eq (E2 m) c).trans (congrArg Cert.Spec.ob (W2_v2 m c)))

/-! ## The first argument when it is joined -/

/-- Before the join the first argument is as launched: the second region does not write it, the reshape and the
    exchange of axes write two other arrays, and the first region reads it through an input window, which leaves
    the array as entered. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide) (by decide)
    _ = W0 m c (Proc.devRef .tc main_arg0) := (W1_arr m c 0).trans (((dat0 (E0 m) c).arrAt_in 0 rfl _).trans (A_eq0 (E0 m) c 0))
    _ = m ((c : Thread nD τ).loc main_arg0) := rfl

/-! ## The result -/

/-- The last array at the end: the first argument followed, along the second axis, by the specification's
    similarity array of the two arguments. -/
theorem kernel_value (c : Dev nD) :
    W4 m c main_v4 = concatenate S512x576 1 [⟨S512x512, m ((c.tc : Thread nD τ).loc main_arg0)⟩,
      ⟨S512x64, Cert.Spec.OB (m ((c.tc : Thread nD τ).loc main_arg0)) (m ((c.tc : Thread nD τ).loc main_arg1))⟩]
      concatenates_S512x512_S512x64_S512x576_d1 := by
  refine (after_ops2_v4 (W3 m c)).trans ?_
  rw [W3_main_arg0 m c, W3_v3_value m c]

/-- The run, read: every weakly fair execution ends with the last array at that value and both arguments as
    launched. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v4) = concatenate S512x576 1 [⟨S512x512, m ((c.tc : Thread nD τ).loc main_arg0)⟩,
        ⟨S512x64, Cert.Spec.OB (m ((c.tc : Thread nD τ).loc main_arg0)) (m ((c.tc : Thread nD τ).loc main_arg1))⟩]
        concatenates_S512x512_S512x64_S512x576_d1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (kernel_value m c), (h c).2.1, (h c).2.2⟩) (run_result m ρ)

end Cert.KernelIdeal.Hand

end
-- ==== Proof.RefValue.lean ====
/-
  The reference's second result piece, read index by index over the extended reals.

  The reference forms the product `P = x · T` (a plain finite sum at the exact instance), reads each 1024-wide row as 64
  features of 16 components (row-major: entry `(b, o, k)` of the reshaped array is entry `(b, 16·o + k)` of the product),
  broadcasts the reshaped array twice to `[512, 512, 64, 16]` (once along the second axis, once along the first),
  subtracts, takes absolute values (`max d (−d)`), sums over the 16 components from the initial value `0`, negates,
  exponentiates, multiplies by the mask `1 − [row = column]` broadcast over the features, and sums over the second sample
  axis from the initial value `0`.  Each stage below is read at an index built from its coordinates; the last theorem says
  the composed term is `Cert.Spec.OB x T`.
-/
import proofs.«175630_j33517924778715_1_alg».proof.Proof.Gen.ReferenceIdeal.Run
import proofs.«175630_j33517924778715_1_alg».proof.Proof.Gen.ReferenceIdeal.Read
import proofs.«175630_j33517924778715_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The index maps of the layout stages, on indices given by coordinates -/

/-- Row-major reshape `[512, 1024] → [512, 64, 16]`: entry `(b, o, k)` comes from entry `(b, 16·o + k)`. -/
theorem idx_v1 (b : Fin 512) (o : Fin 64) (k : Fin 16) : idx_main_v1 (ix3 b o k) = ix2 b (Cert.Spec.col o k) :=
  funext fun a => Fin.ext (by
    have hb : b.val < 512 := b.isLt
    have ho : o.val < 64 := o.isLt
    have hk : k.val < 16 := k.isLt
    match a with
    | ⟨0, _⟩ => show ((b.val * 64 + o.val) * 16 + k.val) / 1024 = b.val; omega
    | ⟨1, _⟩ => show ((b.val * 64 + o.val) * 16 + k.val) % 1024 = o.val * 16 + k.val; omega)

/-- The product's entry `(b, c)` multiplies row `b` of the left operand … -/
theorem lidx_v0 (b : Fin 512) (c : Fin 1024) (k : Fin 512) : lidx_main_v0 (ix2 b c) k = ix2 b k :=
  funext fun a => Fin.ext (by match a with | ⟨0, _⟩ => rfl | ⟨1, _⟩ => rfl)

/-- … with column `c` of the right operand. -/
theorem ridx_v0 (b : Fin 512) (c : Fin 1024) (k : Fin 512) : ridx_main_v0 (ix2 b c) k = ix2 k c :=
  funext fun a => Fin.ext (by match a with | ⟨0, _⟩ => rfl | ⟨1, _⟩ => rfl)

/-- The first broadcast pair reads sample `p` (the first sample axis), whatever the second sample is. -/
theorem idx_v24 (p j : Fin 512) (o : Fin 64) (k : Fin 16) : idx_main_v2 (idx_main_v4 (ix4 p j o k)) = ix3 p o k :=
  funext fun a => Fin.ext (by match a with | ⟨0, _⟩ => rfl | ⟨1, _⟩ => rfl | ⟨2, _⟩ => rfl)

/-- The second broadcast pair reads sample `j` (the second sample axis), whatever the first sample is. -/
theorem idx_v35 (p j : Fin 512) (o : Fin 64) (k : Fin 16) : idx_main_v3 (idx_main_v5 (ix4 p j o k)) = ix3 j o k :=
  funext fun a => Fin.ext (by match a with | ⟨0, _⟩ => rfl | ⟨1, _⟩ => rfl | ⟨2, _⟩ => rfl)

/-- The sum over the component axis ranges over the last coordinate. -/
theorem idx_v8 (p j : Fin 512) (o : Fin 64) (k : Fin 16) : idx_main_v8 (ix3 p j o) k = ix4 p j o k :=
  funext fun a => Fin.ext (by match a with | ⟨0, _⟩ => rfl | ⟨1, _⟩ => rfl | ⟨2, _⟩ => rfl | ⟨3, _⟩ => rfl)

/-- The sum over the second sample axis ranges over the middle coordinate. -/
theorem idx_v22 (p : Fin 512) (q : Fin 64) (j : Fin 512) : idx_main_v22 (ix2 p q) j = ix3 p j q :=
  funext fun a => Fin.ext (by match a with | ⟨0, _⟩ => rfl | ⟨1, _⟩ => rfl | ⟨2, _⟩ => rfl)

/-- The mask's two broadcasts read the comparison at `(p, j)`, whatever the feature is. -/
theorem idx_v1720 (p j : Fin 512) (o : Fin 64) : idx_main_v17 (idx_main_v20 (ix3 p j o)) = ix2 p j :=
  funext fun a => Fin.ext (by match a with | ⟨0, _⟩ => rfl | ⟨1, _⟩ => rfl)

/-! ## The words and constants -/

/-- The word `0x3F800000` denotes the real one. -/
theorem ofBits_one : Ideal.ofBits .f32 0x3F800000#32 = 1 := by
  simp [Ideal.ofBits, Ideal.ieee, -EReal.coe_mul]; norm_num

/-- Two sample numbers below 512 are equal as 32-bit words only if they are equal. -/
theorem word_inj (p j : Fin 512) (h : BitVec.ofNat 32 p.val = BitVec.ofNat 32 j.val) : p = j := by
  have h' := congrArg BitVec.toNat h
  rw [BitVec.toNat_ofNat, BitVec.toNat_ofNat] at h'
  have hp : p.val < 512 := p.isLt
  have hj : j.val < 512 := j.isLt
  exact Fin.ext (by omega)

/-- The comparison `row + 0 = column` on the two sample numbers is the bit of `p = j`. -/
theorem eq_word (p j : Fin 512) :
    IntOp.cmpi .eq (IntOp.addi (BitVec.ofNat 32 p.val) 0#32) (BitVec.ofNat 32 j.val) = if p = j then 1#1 else 0#1 := by
  unfold IntOp.addi
  rw [BitVec.add_zero]
  by_cases h : p = j
  · rw [if_pos h, h]; exact IntOp.cmpi_eq.mpr rfl
  · rw [if_neg h]
    exact eq_zero_of_ne_one fun h1 => h (word_inj p j (IntOp.cmpi_eq.mp h1))

/-! ## The stages at an index -/

section Stages
variable (x : FVec Ideal S512x512 .f32) (T : FVec Ideal S512x1024 .f32)

/-- The reshaped product at `(b, o, k)` is the product `x · T` at `(b, 16·o + k)`. -/
theorem v1_apply (b : Fin 512) (o : Fin 64) (k : Fin 16) :
    val_main_v1 (F := Ideal) x T (ix3 b o k) = Cert.Spec.mm x T (ix2 b (Cert.Spec.col o k)) := by
  rw [val_main_v1_apply, idx_v1, val_main_v0_apply]
  refine Finset.sum_congr rfl fun kk _ => ?_
  rw [lidx_v0, ridx_v0]

/-- The absolute difference at `(p, j, o, k)`: component `k` of feature `o`, sample `p` against sample `j`. -/
theorem v7_apply (p j : Fin 512) (o : Fin 64) (k : Fin 16) :
    val_main_v7 (F := Ideal) x T (ix4 p j o k)
      = max (val_main_v1 (F := Ideal) x T (ix3 p o k) - val_main_v1 (F := Ideal) x T (ix3 j o k))
          (-(val_main_v1 (F := Ideal) x T (ix3 p o k) - val_main_v1 (F := Ideal) x T (ix3 j o k))) := by
  rw [val_main_v7_apply, val_main_v6_apply, val_main_v4_apply, val_main_v2_apply, val_main_v5_apply, val_main_v3_apply,
    idx_v24, idx_v35]
  rfl

/-- The sum over the 16 components, from the initial value zero, is the L1 distance of the specification. -/
theorem v8_apply (p j : Fin 512) (o : Fin 64) :
    val_main_v8 (F := Ideal) x T (ix3 p j o) = Cert.Spec.dist (Cert.Spec.m3 (Cert.Spec.mm x T)) p j o := by
  rw [val_main_v8_apply, val_main_cst_apply, Ideal.ofBits_def, Ideal.ofBits_zero_f32, zero_add]
  refine Finset.sum_congr rfl fun k _ => ?_
  rw [idx_v8, v7_apply, v1_apply, v1_apply]
  rfl

/-- The mask `1 − [row = column]`, broadcast over the features, is the self-exclusion factor. -/
theorem v20_apply (p j : Fin 512) (o : Fin 64) : val_main_v20 (F := Ideal) (ix3 p j o) = Cert.Spec.excl p j := by
  rw [val_main_v20_apply, val_main_v19_apply, val_main_v18_apply, val_main_cst_0_apply, val_main_v17_apply, idx_v1720,
    val_main_v16_apply, val_main_v15_apply, val_main_v14_apply, val_main_v11_apply, val_main_v13_apply, val_main_c_apply,
    val_main_v12_apply]
  show Ideal.ofBits .f32 0x3F800000#32
      - (((IntOp.cmpi .eq (IntOp.addi (BitVec.ofNat 32 p.val) 0#32) (BitVec.ofNat 32 j.val)).toNat : ℝ) : EReal)
    = Cert.Spec.excl p j
  rw [ofBits_one, eq_word]
  unfold Cert.Spec.excl
  by_cases h : p = j
  · rw [if_pos h, if_pos h]
    show (1 : EReal) - (((1 : ℕ) : ℝ) : EReal) = 0
    rw [Nat.cast_one, ← EReal.coe_one, ← EReal.coe_sub, sub_self, EReal.coe_zero]
  · rw [if_neg h, if_neg h]
    show (1 : EReal) - (((0 : ℕ) : ℝ) : EReal) = 1
    rw [Nat.cast_zero, EReal.coe_zero, sub_zero]

/-- The sum over the second sample, from the initial value zero, is the specification's function. -/
theorem v22_apply (p : Fin 512) (q : Fin 64) :
    val_main_v22 (F := Ideal) x T (ix2 p q) = Cert.Spec.OB x T (ix2 p q) := by
  rw [val_main_v22_apply, val_main_cst_1_apply, Ideal.ofBits_def, Ideal.ofBits_zero_f32, zero_add]
  show _ = ∑ j : Fin 512, Ideal.exp (-(Cert.Spec.dist (Cert.Spec.m3 (Cert.Spec.mm x T)) p j q)) * Cert.Spec.excl p j
  refine Finset.sum_congr rfl fun j _ => ?_
  rw [idx_v22, val_main_v21_apply, val_main_v10_apply, val_main_v9_apply, v8_apply, v20_apply]
  rfl

end Stages

/-! ## The composed term -/

/-- The reference's second result piece, as the composed term of its operations, is `Cert.Spec.OB x T`. -/
theorem ref_ob (x : FVec Ideal S512x512 .f32) (T : FVec Ideal S512x1024 .f32) :
    (Host.reduceAdd (mulf (Host.exp (Host.negf (Host.reduceAdd (Host.absf (subf (broadcastInDim S512x512x64x16 ![0, 1, 2, 3] bcast_S512x1x64x16_S512x512x64x16_0_1_2_3 (broadcastInDim S512x1x64x16 ![0, 2, 3] bcast_S512x64x16_S512x1x64x16_0_2_3 (shapeCast _ (Host.dotGeneral dot_S512x512_S512x1024_S512x1024_1_0_0_1_n_n none x T) shapeCasts_S512x1024_S512x64x16))) (broadcastInDim S512x512x64x16 ![0, 1, 2, 3] bcast_S1x512x64x16_S512x512x64x16_0_1_2_3 (broadcastInDim S1x512x64x16 ![1, 2, 3] bcast_S512x64x16_S1x512x64x16_1_2_3 (shapeCast _ (Host.dotGeneral dot_S512x512_S512x1024_S512x1024_1_0_0_1_n_n none x T) shapeCasts_S512x1024_S512x64x16))))) (constant S_ .f32 0x00000000#32) reducesTo_S512x512x64x16_S512x512x64_d3 h_S_))) (broadcastInDim S512x512x64 ![0, 1, 2] bcast_S512x512x1_S512x512x64_0_1_2 (subf (broadcastInDim S512x512x1 ![] bcast_S_S512x512x1 (constant S_ .f32 0x3F800000#32)) (broadcastInDim S512x512x1 ![0, 1] bcast_S512x512_S512x512x1_0_1 (uitofp .f32 (cmpi .eq (addi (iotaInDim S512x512 32 0) (broadcastInDim S512x512 ![] bcast_S_S512x512 (constantI S_ 32 0#32))) (iotaInDim S512x512 32 1))))))) (constant S_ .f32 0x00000000#32) reducesTo_S512x512x64_S512x64_d1 h_S_ : FVec Ideal S512x64 .f32)
      = Cert.Spec.OB x T := by
  show val_main_v22 (F := Ideal) x T = Cert.Spec.OB x T
  funext i
  obtain ⟨p, q, rfl⟩ : ∃ (p : Fin 512) (q : Fin 64), i = ix2 p q := ⟨i 0, i 1, eq_ix2 i⟩
  exact v22_apply x T p q

end Cert.ReferenceIdeal.RefValue

end
-- ==== Proof.lean ====
/-
  The certificate's claims, assembled.

  Both kernel programs run as two kernel regions among host operations.  Their frames (each runs to the end, nothing
  faults, the two arguments end as launched) are the two-region launch of Proof/K/Run.lean (at the word-level
  reading) and Proof/KI/Run.lean (at the extended reals); the reference is a host program, and its frame is its run
  with the result dropped.  No rewrite was applied in idealizing the kernel, so there is nothing to preserve.

  The value claim: at the extended reals the kernel's result is the concatenation of the first argument with
  Cert.Spec.OB of the two arguments (Proof/KI/Value.lean: the product region's array is the matrix product, the
  reshape and transpose lay it out by sample, component and feature, and the second region's array is, entry by
  entry, the sum over all other samples of exp of minus the L1 distance), and the reference's result is the same
  concatenation (Proof/RefValue.lean).  From memories agreeing on the arguments the two results are one term.
-/
import proofs.«175630_j33517924778715_1_alg».proof.Defs
import proofs.«175630_j33517924778715_1_alg».proof.Proof.Gen.Kernel
import proofs.«175630_j33517924778715_1_alg».proof.Proof.Gen.KernelIdeal
import proofs.«175630_j33517924778715_1_alg».proof.Proof.Gen.ReferenceIdeal
import proofs.«175630_j33517924778715_1_alg».proof.Proof.Gen.ReferenceIdeal.Run
import proofs.«175630_j33517924778715_1_alg».proof.Proof.Gen.ReferenceIdeal.Read
import proofs.«175630_j33517924778715_1_alg».proof.Proof.Gen.Pre_finite_inputs
import proofs.«175630_j33517924778715_1_alg».proof.Proof.K.Run
import proofs.«175630_j33517924778715_1_alg».proof.Proof.KI.Run
import proofs.«175630_j33517924778715_1_alg».proof.Proof.KI.Value
import proofs.«175630_j33517924778715_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the first argument concatenated with Cert.Spec.OB of the two arguments; the memories agree
    on the arguments, so the two results are equal. -/
theorem algebraic : Cert.algebraic_KernelIdeal_ReferenceIdeal := by
  intro m ρ m' ρ' _ hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.ref_ob, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
